-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32000 : Shape := ⟨3, ![16, 512, 32000]⟩
abbrev S16x512 : Shape := ⟨2, ![16, 512]⟩
abbrev S16 : Shape := ⟨1, ![16]⟩
abbrev S_ : Shape := ⟨0, ![]⟩

class Facts : Prop where
  bcast_S_S16x512x32000 : S_.BroadcastsInDim S16x512x32000 (![] : Fin 0 → Fin S16x512x32000.rank)
  reducesTo_S16x512x32000_S_d0_1_2 : S16x512x32000.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16x512x32000 .f32) (main_arg1 : IVec S16x512 32) (main_arg2 : IVec S16 32) : IVec S_ 1 :=
  let main_v0 : FVec F S16x512x32000 .f32 := Host.absf main_arg0
  let main_cst : FVec F S_ .f32 := constant S_ .f32 0x7F800000#32
  let main_v1 : FVec F S16x512x32000 .f32 := broadcastInDim S16x512x32000 ![] bcast_S_S16x512x32000 main_cst
  let main_v2 : IVec S16x512x32000 1 := cmpf .olt main_v0 main_v1
  let main_c : IVec S_ 1 := constantI S_ 1 1#1
  let main_v3 : IVec S_ 1 := (fun x v => Host.reduce IntOp.andi x v reducesTo_S16x512x32000_S_d0_1_2 h_S_) main_v2 main_c
  let main_c_0 : IVec S_ 32 := constantI S_ 32 0#32
  let main_v4 : IVec S16x512 32 := broadcastInDim S16x512 ![] bcast_S_S16x512 main_c_0
  let main_v5 : IVec S16x512 1 := cmpi .sge main_arg1 main_v4
  let main_c_1 : IVec S_ 1 := constantI S_ 1 1#1
  let main_v6 : IVec S_ 1 := (fun x v => Host.reduce IntOp.andi x v reducesTo_S16x512_S_d0_1 h_S_) main_v5 main_c_1
  let main_v7 : IVec S_ 1 := andi main_v3 main_v6
  let main_c_2 : IVec S_ 32 := constantI S_ 32 32000#32
  let main_v8 : IVec S16x512 32 := broadcastInDim S16x512 ![] bcast_S_S16x512 main_c_2
  let main_v9 : IVec S16x512 1 := cmpi .slt main_arg1 main_v8
  let main_c_3 : IVec S_ 1 := constantI S_ 1 1#1
  let main_v10 : IVec S_ 1 := (fun x v => Host.reduce IntOp.andi x v reducesTo_S16x512_S_d0_1 h_S_) main_v9 main_c_3
  let main_v11 : IVec S_ 1 := andi main_v7 main_v10
  let main_c_4 : IVec S_ 32 := constantI S_ 32 512#32
  let main_v12 : IVec S16 32 := broadcastInDim S16 ![] bcast_S_S16 main_c_4
  let main_v13 : IVec S16 1 := cmpi .sle main_arg2 main_v12
  let main_c_5 : IVec S_ 1 := constantI S_ 1 1#1
  let main_v14 : IVec S_ 1 := (fun x v => Host.reduce IntOp.andi x v reducesTo_S16_S_d0 h_S_) main_v13 main_c_5
  let main_v15 : IVec S_ 1 := andi main_v11 main_v14
  main_v15
-- ==== Kernel.lean ====
abbrev S16x512x32000 : Shape := ⟨3, ![16, 512, 32000]⟩
abbrev S16x512 : Shape := ⟨2, ![16, 512]⟩
abbrev S16 : Shape := ⟨1, ![16]⟩
abbrev S16x512x1 : Shape := ⟨3, ![16, 512, 1]⟩
abbrev S_ : Shape := ⟨0, ![]⟩
abbrev S16x8x128 : Shape := ⟨3, ![16, 8, 128]⟩
abbrev S1x32x32000 : Shape := ⟨3, ![1, 32, 32000]⟩
abbrev S1 : Shape := ⟨1, ![1]⟩
abbrev S1x32x1 : Shape := ⟨3, ![1, 32, 1]⟩
abbrev S1x8x128 : Shape := ⟨3, ![1, 8, 128]⟩
abbrev S8x128 : Shape := ⟨2, ![8, 128]⟩
abbrev S32x32000 : Shape := ⟨2, ![32, 32000]⟩
abbrev S32 : Shape := ⟨1, ![32]⟩
abbrev S32x1 : Shape := ⟨2, ![32, 1]⟩
abbrev S1x1 : Shape := ⟨2, ![1, 1]⟩
abbrev S16x1x1 : Shape := ⟨3, ![16, 1, 1]⟩

abbrev nBuf : Space → Nat
  | .hbm => 34
  | .vmem => 6
  | .smem => 2
  | _ => 0

abbrev bufTy : (tb : Table) → Fin (tcTables nBuf tb) → BufTy
  | .hbm, ⟨0, _⟩ => ⟨S16x512x32000, .f32⟩
  | .hbm, ⟨1, _⟩ => ⟨S16x512, .i32⟩
  | .hbm, ⟨2, _⟩ => ⟨S16x512x1, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16x8x128, .f32⟩
  | .hbm, ⟨30, _⟩ => ⟨S16x1x1, .f32⟩
  | .hbm, ⟨31, _⟩ => ⟨S16, .f32⟩
  | .hbm, ⟨32, _⟩ => ⟨S_, .f32⟩
  | .hbm, ⟨33, _⟩ => ⟨S_, .f32⟩
  | .local _ .vmem, ⟨0, _⟩ => ⟨S1x32x32000, .f32⟩
  | .local _ .vmem, ⟨1, _⟩ => ⟨S1x32x32000, .f32⟩
  | .local _ .vmem, ⟨2, _⟩ => ⟨S1x32x1, .i32⟩
  | .local _ .vmem, ⟨3, _⟩ => ⟨S1x32x1, .i32⟩
  | .local _ .vmem, ⟨4, _⟩ => ⟨S1x8x128, .f32⟩
  | .local _ .vmem, ⟨5, _⟩ => ⟨S1x8x128, .f32⟩
  | .local _ .smem, ⟨0, _⟩ => ⟨S16, .i32⟩
  | .local _ .smem, ⟨1, _⟩ => ⟨S16, .i32⟩
  | _, _ => ⟨S16x512x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_c_2 : Ref sig .tc := ⟨.hbm, 27, rfl⟩
abbrev main_v6 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_arg2 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

abbrev pre0 : Pipeline.Prefetch sig := ⟨2, ![main_arg2.idx, main_v7.idx], fun | 0 => main_arg2.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v33 : Index := Scalar.indexCast arg0
  ![v33.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v4 : BitVec 32) : BitVec 1 :=
  let arg1 : BitVec 32 := BitVec.ofNat 32 (i 1).val
  let v5 : BitVec 1 := Scalar.cmpi .slt arg1 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S16) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.minsi arg1 v3
  let c0_i32_0 : BitVec 32 := 0#32
  let c0_i32_1 : BitVec 32 := 0#32
  ![arg0.toNat, v4.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S16) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.minsi arg1 v3
  let c0_i32_0 : BitVec 32 := 0#32
  let c0_i32_1 : BitVec 32 := 0#32
  ![arg0.toNat, v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S16x512_S16x512x1_0_1 : S16x512.BroadcastsInDim S16x512x1 (![0, 1] : Fin 2 → Fin S16x512x1.rank)
  bcast_S_S16 : S_.BroadcastsInDim S16 (![] : Fin 0 → Fin S16.rank)
  numel1_S1 : S1.numel = 1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x32x32000_S1x32x32000_0_0_0 : ∀ a, (![0, 0, 0] : Fin 3 → Nat) a + S1x32x32000.size a ≤ S1x32x32000.size a
  h_S1x32x32000 : 0 < S1x32x32000.numel
  shapeCasts_S1x32x32000_S32x32000 : S1x32x32000.ShapeCasts S32x32000
  reduces_S32x32000_S32 : S32x32000.Reduces [1] S32
  shapeCasts_S32_S32x1 : S32.ShapeCasts S32x1
  broadcasts_S32x1_S32x32000 : S32x1.Broadcasts S32x32000
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  iota_S32x32000_d1_w32 : S32x32000.Iotas .tc 32 [1]
  iota_S32x1_d0_w32 : S32x1.Iotas .tc 32 [0]
  natLt_1_32 : 1 < 32
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  k0_off1_inb : ∀ i : grid0.Coords, ∀ a, (k0_off1 i) a + S1.size a ≤ S16.size a
  k0_off2_inb : ∀ i : grid0.Coords, ∀ a, (k0_off2 i) a + S1.size a ≤ S16.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev spec0_0 : Pipeline.WinSpec sig grid0.rank :=
  Pipeline.WinSpec.ofSpec (Memref.whole main_arg0) S1x32x32000.size reads0_0 false false 2 stage0_0 sem0_0 nbuf0_0 hstage0_0

abbrev spec0_1 : Pipeline.WinSpec sig grid0.rank :=
  Pipeline.WinSpec.ofSpec (Memref.whole main_v0) S1x32x1.size reads0_1 false false 2 stage0_1 sem0_1 nbuf0_1 hstage0_1

abbrev spec0_2 : Pipeline.WinSpec sig grid0.rank :=
  Pipeline.WinSpec.ofSpec (Memref.whole main_v8) S1x8x128.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x32x32000.size a ≤ S16x512x32000.size a), EltTy.bits .f32 = 32 ∨ (Rect.block (s := S16x512x32000) S1x32x32000.size (cc0_transform_0 k0_off1_inb numel1_S1 pf i) h).WholeWords (EltTy.packing .f32)) ∧
  (∀ i : grid0.Coords, ∃ h : (∀ a, (cc0_transform_1 k0_off1_inb numel1_S1 pf i a + 1) * S1x32x1.size a ≤ S16x512x1.size a), EltTy.bits .i32 = 32 ∨ (Rect.block (s := S16x512x1) S1x32x1.size (cc0_transform_1 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 i == 1#1) && !(k0_cond2 i (pf.atD 1 (k0_off1 i)) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x512x32000 : Shape := ⟨3, ![16, 512, 32000]⟩
abbrev S16x512 : Shape := ⟨2, ![16, 512]⟩
abbrev S16 : Shape := ⟨1, ![16]⟩
abbrev S_ : Shape := ⟨0, ![]⟩
abbrev S16x512x1 : Shape := ⟨3, ![16, 512, 1]⟩
abbrev S16x512x1x1 : Shape := ⟨4, ![16, 512, 1, 1]⟩
abbrev S1 : Shape := ⟨1, ![1]⟩
abbrev S1x1x1x1 : Shape := ⟨4, ![1, 1, 1, 1]⟩
abbrev S512 : Shape := ⟨1, ![512]⟩
abbrev S1x512 : Shape := ⟨2, ![1, 512]⟩
abbrev S16x1 : Shape := ⟨2, ![16, 1]⟩

abbrev nBuf : Space → Nat
  | .hbm => 53
  | .vmem => 0
  | .smem => 0
  | _ => 0

abbrev bufTy : (tb : Table) → Fin (tcTables nBuf tb) → BufTy
  | .hbm, ⟨0, _⟩ => ⟨S16x512x32000, .f32⟩
  | .hbm, ⟨1, _⟩ => ⟨S16x512, .i32⟩
  | .hbm, ⟨2, _⟩ => ⟨S16, .i32⟩
  | .hbm, ⟨3, _⟩ => ⟨S_, .f32⟩
  | .hbm, ⟨4, _⟩ => ⟨S16x512, .f32⟩
  | .hbm, ⟨5, _⟩ => ⟨S_, .f32⟩
  | .hbm, ⟨6, _⟩ => ⟨S16x512, .f32⟩
  | .hbm, ⟨7, _⟩ => ⟨S16x512, .f32⟩
  | .hbm, ⟨8, _⟩ => ⟨S16x512x1, .f32⟩
  | .hbm, ⟨9, _⟩ => ⟨S16x512x32000, .f32⟩
  | .hbm, ⟨10, _⟩ => ⟨S16x512x32000, .f32⟩
  | .hbm, ⟨11, _⟩ => ⟨S16x512x32000, .f32⟩
  | .hbm, ⟨12, _⟩ => ⟨S_, .f32⟩
  | .hbm, ⟨13, _⟩ => ⟨S16x512, .f32⟩
  | .hbm, ⟨14, _⟩ => ⟨S16x512x1, .f32⟩
  | .hbm, ⟨15, _⟩ => ⟨S16x512x1, .f32⟩
  | .hbm, ⟨16, _⟩ => ⟨S16x512x32000, .f32⟩
  | .hbm, ⟨17, _⟩ => ⟨S16x512x32000, .f32⟩
  | .hbm, ⟨18, _⟩ => ⟨S16x512x1, .i32⟩
  | .hbm, ⟨19, _⟩ => ⟨S_, .i32⟩
  | .hbm, ⟨20, _⟩ => ⟨S16x512x1, .i32⟩
  | .hbm, ⟨21, _⟩ => ⟨S16x512x1, .i1⟩
  | .hbm, ⟨22, _⟩ => ⟨S_, .i32⟩
  | .hbm, ⟨23, _⟩ => ⟨S16x512x1, .i32⟩
  | .hbm, ⟨24, _⟩ => ⟨S16x512x1, .i32⟩
  | .hbm, ⟨25, _⟩ => ⟨S16x512x1, .i32⟩
  | .hbm, ⟨26, _⟩ => ⟨S16x512x1x1, .i32⟩
  | .hbm, ⟨27, _⟩ => ⟨S1, .i32⟩
  | .hbm, ⟨28, _⟩ => ⟨S_, .i32⟩
  | .hbm, ⟨29, _⟩ => ⟨S16x512x1x1, .i32⟩
  | .hbm, ⟨30, _⟩ => ⟨S16x512x1x1, .i1⟩
  | .hbm, ⟨31, _⟩ => ⟨S1x1x1x1, .i32⟩
  | .hbm, ⟨32, _⟩ => ⟨S16x512x1x1, .i32⟩
  | .hbm, ⟨33, _⟩ => ⟨S16x512x1x1, .i1⟩
  | .hbm, ⟨34, _⟩ => ⟨S16x512x1x1, .i1⟩
  | .hbm, ⟨35, _⟩ => ⟨S_, .i1⟩
  | .hbm, ⟨36, _⟩ => ⟨S16x512x1, .i1⟩
  | .hbm, ⟨37, _⟩ => ⟨S16x512x1, .f32⟩
  | .hbm, ⟨38, _⟩ => ⟨S_, .f32⟩
  | .hbm, ⟨39, _⟩ => ⟨S16x512x1, .f32⟩
  | .hbm, ⟨40, _⟩ => ⟨S16x512x1, .f32⟩
  | .hbm, ⟨41, _⟩ => ⟨S16x512, .f32⟩
  | .hbm, ⟨42, _⟩ => ⟨S16x512, .f32⟩
  | .hbm, ⟨43, _⟩ => ⟨S512, .i32⟩
  | .hbm, ⟨44, _⟩ => ⟨S1x512, .i32⟩
  | .hbm, ⟨45, _⟩ => ⟨S16x1, .i32⟩
  | .hbm, ⟨46, _⟩ => ⟨S16x512, .i32⟩
  | .hbm, ⟨47, _⟩ => ⟨S16x512, .i32⟩
  | .hbm, ⟨48, _⟩ => ⟨S16x512, .i1⟩
  | .hbm, ⟨49, _⟩ => ⟨S16x512, .f32⟩
  | .hbm, ⟨50, _⟩ => ⟨S16x512, .f32⟩
  | .hbm, ⟨51, _⟩ => ⟨S_, .f32⟩
  | .hbm, ⟨52, _⟩ => ⟨S_, .f32⟩
  | _, _ => ⟨S16x512x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst : Ref sig .tc := ⟨.hbm, 51, rfl⟩
abbrev main_v13 : Ref sig .tc := ⟨.hbm, 52, rfl⟩

abbrev nD : Nat := 1
abbrev τ : Topo := Topo.v7x

variable {F : FTy → Type} [FloatOps F]

class Facts₀ : Prop where
  reducesTo_S16x512x32000_S16x512_d2 : S16x512x32000.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x32000_0_1_2 : S16x512x1.BroadcastsInDim S16x512x32000 (![0, 1, 2] : Fin 3 → Fin S16x512x32000.rank)
  bcast_S_S16x512x1 : S_.BroadcastsInDim S16x512x1 (![] : Fin 0 → Fin S16x512x1.rank)
  shapeCasts_S16x512x1_S16x512x1x1 : S16x512x1.ShapeCasts S16x512x1x1
  bcast_S_S16x512x1x1 : S_.BroadcastsInDim S16x512x1x1 (![] : Fin 0 → Fin S16x512x1x1.rank)
  bcast_S1_S1x1x1x1_3 : S1.BroadcastsInDim S1x1x1x1 (![3] : Fin 1 → Fin S1x1x1x1.rank)
  bcast_S1x1x1x1_S16x512x1x1_0_1_2_3 : S1x1x1x1.BroadcastsInDim S16x512x1x1 (![0, 1, 2, 3] : Fin 4 → Fin S16x512x1x1.rank)
  reducesTo_S16x512x1x1_S16x512x1_d3 : S16x512x1x1.ReducesTo [3] S16x512x1
  shapeCasts_S16x512x1_S16x512 : S16x512x1.ShapeCasts S16x512
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  reducesTo_S16x512_S_d0_1 : S16x512.ReducesTo [0, 1] S_
  gather_S16x512x32000_S16x512x1x1_S16x512x1_n_2_01_01_2_3_111_wf : GatherDims.WF S16x512x32000 S16x512x1x1 S16x512x1 [] [2] [0, 1] [2] [0, 1] 3 ![1, 1, 1]

variable [Facts₀]

def gather_S16x512x32000_S16x512x1x1_S16x512x1_n_2_01_01_2_3_111 : GatherDims S16x512x32000 S16x512x1x1 S16x512x1 where
  offsetDims := []
  collapsedSliceDims := [2]
  operandBatchingDims := [0, 1]
  startIndicesBatchingDims := [0, 1]
  startIndexMap := [2]
  indexVectorDim := 3
  sliceSizes := ![1, 1, 1]
  wf := gather_S16x512x32000_S16x512x1x1_S16x512x1_n_2_01_01_2_3_111_wf

class Facts : Prop extends Facts₀ where

variable [Facts]
-- ==== Proof.KB.Base.lean ====
/-
  The launch side of the idealized kernel's one pallas_call, common to its frame and to its value.
  @main computes, on the host, the label array as a column and the per-sequence tile count
  nblk[b] = min(⌈len[b] / 32⌉, 16); the region then walks the grid (b, t) ∈ 16 × 16 with the lengths and the tile counts
  as prefetched tables, the logits and labels blocked (1, 32, ·) at row block min(t, max(nblk[b] − 1, 0)) and the output
  blocked (1, 8, 128) at (b, 0, 0); and four host lines reduce the output to a scalar.
  Here: the buffers' contents when the region is entered; @main as host lines, the region, host lines; the tables read off
  those contents; the pipeline's side condition, which holds of EVERY table (the row block is min(t, ·) of something
  non-negative, so it lies in [0, 15] whatever the table says); when the output block is written back (t = 15) and the
  closed form of the body's first condition (t = 0).
-/
import proofs.«405453_j18021682774493_3_alg».proof.Proof.Gen.Kernel.Launch
import proofs.«405453_j18021682774493_3_alg».proof.Proof.Gen.Kernel.Skeleton
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later lines, the buffers at `V`. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩)
    (fun c => (main_chain c).trans rfl)

/-! ## The prefetched tables -/

/-- The tables' contents when the region is entered (the program runs on one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- min(t, max(z, 0)) read unsigned lies in [0, 15] for t < 16, whatever the word z: the maximum is non-negative, and a
    signed minimum with a t in [0, 15] is then in [0, 15]. -/
theorem rowBlock_le (n : ℕ) (hn : n < 16) (z : BitVec 32) :
    (Scalar.minsi (BitVec.ofNat 32 n) (Scalar.maxsi z 0#32)).toNat ≤ 15 := by
  have hx : (BitVec.ofNat 32 n).toNat = n := by simp [BitVec.toNat_ofNat]; omega
  generalize BitVec.ofNat 32 n = x at hx
  have hz := z.isLt
  unfold Scalar.minsi Scalar.maxsi IntOp.minsi IntOp.maxsi
  by_cases h1 : (0#32).slt z
  · rw [if_pos h1]
    by_cases h2 : x.slt z
    · rw [if_pos h2]; omega
    · rw [if_neg h2]
      simp only [BitVec.slt, BitVec.toInt_eq_toNat_cond, decide_eq_true_eq, BitVec.toNat_ofNat] at h1 h2
      split at h1 <;> split at h2 <;> simp_all <;> omega
  · rw [if_neg h1]
    by_cases h2 : x.slt 0#32
    · rw [if_pos h2]; omega
    · rw [if_neg h2]; simp

theorem coord0_lt (i : grid0.Coords) : (i 0).val < 16 := (i 0).isLt
theorem coord1_lt (i : grid0.Coords) : (i 1).val < 16 := (i 1).isLt

/-- The pipeline's side condition holds of every table: at each point the logits' and the labels' block is
    (b, min(t, max(nblk[b] − 1, 0)), 0), inside the arrays because b < 16 and the row block is at most 15. -/
theorem ok_all (pf : pre0.Contents (Elt F)) : ok0 (F := F) pf := by
  refine ⟨fun i => ⟨fun a => ?_, .inl rfl⟩, fun i => ⟨fun a => ?_, .inl rfl⟩⟩
  · match a with
    | ⟨0, _⟩ =>
      show ((BitVec.ofNat 32 (i 0).val).toNat + 1) * 1 ≤ 16
      have := coord0_lt i; simp only [BitVec.toNat_ofNat]; omega
    | ⟨1, _⟩ =>
      show ((Scalar.minsi (BitVec.ofNat 32 (i 1).val) (Scalar.maxsi _ 0#32)).toNat + 1) * 32 ≤ 512
      have := rowBlock_le (i 1).val (coord1_lt i) (Scalar.subi (pf.at 1 (Rect.unit (s := S16) ![(Scalar.indexCast (BitVec.ofNat 32 (i 0).val)).toNat] S1.size (k0_off1_inb i)) numel1_S1) 1#32)
      omega
    | ⟨2, _⟩ => show (0 + 1) * 32000 ≤ 32000; omega
  · match a with
    | ⟨0, _⟩ =>
      show ((BitVec.ofNat 32 (i 0).val).toNat + 1) * 1 ≤ 16
      have := coord0_lt i; simp only [BitVec.toNat_ofNat]; omega
    | ⟨1, _⟩ =>
      show ((Scalar.minsi (BitVec.ofNat 32 (i 1).val) (Scalar.maxsi _ 0#32)).toNat + 1) * 32 ≤ 512
      have := rowBlock_le (i 1).val (coord1_lt i) (Scalar.subi (pf.at 1 (Rect.unit (s := S16) ![(Scalar.indexCast (BitVec.ofNat 32 (i 0).val)).toNat] S1.size (k0_off1_inb i)) numel1_S1) 1#32)
      omega
    | ⟨2, _⟩ => show (0 + 1) * 1 ≤ 1; omega

/-- Any contents of the tables are admissible; the pipeline at them. -/
abbrev admOf (pf : pre0.Contents (Elt F)) : (pcfg0 (F := F)).Adm := ⟨pf, ok_all pf⟩
abbrev adm : (pcfg0 (F := F)).Adm := admOf (tbl m)
abbrev cfgM : Pipeline.Cfg sig Λ₀ := cfg0 (adm m)

/-! ## The schedule of the output window and the body's first condition -/

/-- The output block (b, 0, 0) is written back exactly at the last tile of each sequence, at any tables. -/
theorem flush2 (a : (pcfg0 (F := F)).Adm) : ∀ t : Fin (cfg0 a).N, ((cfg0 a).win 2).flush t = decide (t.val % 16 = 15) :=
  (by decide +kernel : ∀ t : Fin grid0.N, Pipeline.Window.flushOf grid0 true cc0_transform_2 t = decide (t.val % 16 = 15))

/-- The body's first condition (t = 0) over the grid. -/
theorem hcond1 : ∀ t : Fin grid0.N, k0_cond1 (grid0.coords t) = 1#1 ↔ t.val % 16 = 0 := by decide +kernel

/-- A point's coordinates: sequence t / 16, tile t % 16. -/
theorem coords0 : ∀ t : Fin grid0.N, ((grid0.coords t) 0).val = t.val / 16 := by decide +kernel
theorem coords1 : ∀ t : Fin grid0.N, ((grid0.coords t) 1).val = t.val % 16 := by decide +kernel

end Cert.Kernel.Hand

end
-- ==== Proof.KB.Runs.lean ====
import proofs.«405453_j18021682774493_3_alg».proof.Proof.KB.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables as the body is handed them -/

/-- The lengths' and the tile counts' buffers as memrefs. -/
abbrev tbM0 : Memref sig .tc .smem S16 .i32 := Memref.whole main_arg2
abbrev htbM0 : tbM0.IsWhole := Memref.isWhole_whole _
abbrev tbM1 : Memref sig .tc .smem S16 .i32 := Memref.whole main_v7
abbrev htbM1 : tbM1.IsWhole := Memref.isWhole_whole _

/-- A table's buffer on core `c`, and it held read-only (the pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word the body loads from the tile counts at its sequence, and from the lengths. -/
abbrev word1 (c : Dev nD) (xt1 : TbBuf (F := F) c tbM1) (i : grid0.Coords) : Elt F .i32 :=
  tbM1.view.readAt (Elt F) (Rect.unit (s := S16) (k0_off1 i) S1.size (k0_off1_inb i)).toLoadRect xt1 (Shape.Idx.first (numel1_S1.symm ▸ Nat.one_pos))
abbrev word0 (c : Dev nD) (xt0 : TbBuf (F := F) c tbM0) (i : grid0.Coords) : Elt F .i32 :=
  tbM0.view.readAt (Elt F) (Rect.unit (s := S16) (k0_off2 i) S1.size (k0_off2_inb i)).toLoadRect xt0 (Shape.Idx.first (numel1_S1.symm ▸ Nat.one_pos))

theorem hz3 : (![0, 0, 0] : Fin 3 → ℕ) = fun _ => 0 := by funext a; fin_cases a <;> rfl

/-! ## The body, case by case

The body zeroes the output's buffer at a sequence's first tile (t = 0), and at a tile below the sequence's tile count adds
the tile's masked loss, broadcast over the (8, 128) block, to what the buffer holds. Four cases; in each the logits' and the
labels' buffers and the two tables come back as they were, and the output's buffer ends at the stated contents. -/

set_option maxHeartbeats 1000000 in
/-- A sequence's first tile, counted: zero, then the tile's contribution. -/
theorem run_first_acc (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (xt0 : TbBuf (F := F) c tbM0) (xt1 : TbBuf (F := F) c tbM1)
    (hc1 : k0_cond1 i = 1#1) (hc2 : k0_cond2 i (word1 c xt1 i) = 1#1) (E : Set ℕ) (K : PUnit → sProp 𝕄) :
        iprop(owns (c : Thread nD τ) arg4 fullShare x0 ∗ owns (c : Thread nD τ) arg5 fullShare x1 ∗ (∃ d, owns (c : Thread nD τ) arg6 fullShare d) ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (k0_pay2 (BitVec.ofNat 32 (i 1).val) x0 x1 (word0 c xt0 i) (k0_pay1 (F := F))) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [View.read_writes_eq_canon _ _ _ (View.cover_of_wholeMem _ (by sl_whole_mem))]
    sl_unfold_words
    rw [View.canon_cons_unit_zero hz3]
    simp only [View.readAt_eq_ld, harg4.read_unread, harg5.read_unread, harg6.read_unread, View.ld_unit_zero (S := S1x32x32000) hz3, View.ld_unit_zero (S := S1x32x1) hz3, View.ld_unit_zero (S := S1x8x128) hz3, View.readCov_unit_zero (S := S1x8x128) _ hz3]
    rfl
  isplitl [HT0]; · iexact HT0
  iexact HT1

set_option maxHeartbeats 1000000 in
/-- A sequence's first tile, not counted (the sequence has no tile): zero. -/
theorem run_first_idle (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (xt0 : TbBuf (F := F) c tbM0) (xt1 : TbBuf (F := F) c tbM1)
    (hc1 : k0_cond1 i = 1#1) (hc2 : ¬ k0_cond2 i (word1 c xt1 i) = 1#1) (E : Set ℕ) (K : PUnit → sProp 𝕄) :
        iprop(owns (c : Thread nD τ) arg4 fullShare x0 ∗ owns (c : Thread nD τ) arg5 fullShare x1 ∗ (∃ d, owns (c : Thread nD τ) arg6 fullShare d) ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (k0_pay1 (F := F)) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [View.read_writes_eq_canon _ _ _ (View.cover_of_wholeMem _ (by sl_whole_mem))]
    sl_unfold_words
    rw [View.canon_unit_zero hz3]
  isplitl [HT0]; · iexact HT0
  iexact HT1

set_option maxHeartbeats 1000000 in
/-- A later tile that is counted: the tile's contribution is added to what the output's buffer held. -/
theorem run_acc (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (x2 : Vec F S1x8x128 .f32) (xt0 : TbBuf (F := F) c tbM0) (xt1 : TbBuf (F := F) c tbM1)
    (hc1 : ¬ k0_cond1 i = 1#1) (hc2 : k0_cond2 i (word1 c xt1 i) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (k0_pay2 (BitVec.ofNat 32 (i 1).val) x0 x1 (word0 c xt0 i) x2) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [View.read_writes_eq_canon _ _ _ (View.cover_of_wholeMem _ (by sl_whole_mem))]
    sl_unfold_words
    rw [View.canon_unit_zero hz3]
    simp only [View.readAt_eq_ld, harg4.read_unread, harg5.read_unread, harg6.read_unread, View.ld_unit_zero (S := S1x32x32000) hz3, View.ld_unit_zero (S := S1x32x1) hz3, View.ld_unit_zero (S := S1x8x128) hz3]
    rfl
  isplitl [HT0]; · iexact HT0
  iexact HT1

set_option maxHeartbeats 1000000 in
/-- A later tile that is not counted: the output's buffer is left as it was found. -/
theorem run_idle (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (x2 : Vec F S1x8x128 .f32) (xt0 : TbBuf (F := F) c tbM0) (xt1 : TbBuf (F := F) c tbM1)
    (hc1 : ¬ k0_cond1 i = 1#1) (hc2 : ¬ k0_cond2 i (word1 c xt1 i) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (x2) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    exact harg6.read_unread _
  isplitl [HT0]; · iexact HT0
  iexact HT1

end Cert.Kernel.Hand

end
-- ==== Proof.KB.Traj.lean ====
/-
  The trajectory of the output's staging buffer over the grid, and the proof data of the pipeline.
  Within a sequence b the output block (b, 0, 0) stays in one buffer from tile 0 to tile 15: tile 0 zeroes it; a tile below
  the sequence's tile count adds its masked loss to it; any other tile leaves it; after tile 15 it is written back.
-/
import proofs.«405453_j18021682774493_3_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body as the pipeline calls it -/

/-- Each window's current staging memref at point `t`, at any tables. -/
abbrev ms0 (a : (pcfg0 (F := F)).Adm) (t : Fin (cfg0 a).N) : Memref sig .tc .vmem S1x32x32000 .f32 := spec0_0.stage ((cfg0 a).slots t 0)
abbrev hs0 (a : (pcfg0 (F := F)).Adm) (t : Fin (cfg0 a).N) : (ms0 a t).IsWhole := hstage0_0 (((cfg0 a).slots t 0).cast nbuf0_0)
abbrev ms1 (a : (pcfg0 (F := F)).Adm) (t : Fin (cfg0 a).N) : Memref sig .tc .vmem S1x32x1 .i32 := spec0_1.stage ((cfg0 a).slots t 1)
abbrev hs1 (a : (pcfg0 (F := F)).Adm) (t : Fin (cfg0 a).N) : (ms1 a t).IsWhole := hstage0_1 (((cfg0 a).slots t 1).cast nbuf0_1)
abbrev ms2 (a : (pcfg0 (F := F)).Adm) (t : Fin (cfg0 a).N) : Memref sig .tc .vmem S1x8x128 .f32 := spec0_2.stage ((cfg0 a).slots t 2)
abbrev hs2 (a : (pcfg0 (F := F)).Adm) (t : Fin (cfg0 a).N) : (ms2 a t).IsWhole := hstage0_2 (((cfg0 a).slots t 2).cast nbuf0_2)

/-- The kernel body at point `t`, on what the pipeline calls it with. -/
abbrev bodyAt (a : (pcfg0 (F := F)).Adm) (t : Fin (cfg0 a).N) : Prog (TpuEff nD τ sig (Elt F) Λ₀ .tc) PUnit :=
  cc0__seqcel_kernel (grid0.coords t) tbM0 htbM0 tbM1 htbM1 (ms0 a t) (hs0 a t) (ms1 a t) (hs1 a t) (ms2 a t) (hs2 a t)

/-- The tables' halves the region hands the body, table by table. -/
theorem PhiT_eq (pf : pre0.Contents (Elt F)) (c : Dev nD) :
    (Pipeline.ΦT pre0 pf c : sProp 𝕄) = iprop(tbPt c tbM0 (pf 0) ∗ tbPt c tbM1 (pf 1)) := by
  unfold Pipeline.ΦT Pipeline.prefHeld
  rw [show (Finset.univ : Finset (Fin 2)) = insert (0 : Fin 2) {(1 : Fin 2)} from by decide,
    bigSep_insert (by decide), bigSep_singleton]
  rfl

/-- The word the idle table reads of the tile counts is the word the body loads. -/
theorem atD_eq_word1 (pf : pre0.Contents (Elt F)) (c : Dev nD) (i : grid0.Coords) :
    pf.atD 1 (k0_off1 i) = word1 c (pf 1) i := by
  have h : ∀ a, k0_off1 i a + 1 ≤ (pre0.ref 1).ty.shape.size a := fun a => by
    match a with
    | ⟨0, _⟩ => exact k0_off1_inb i ⟨0, by decide⟩
  exact (dif_pos h).trans rfl

/-! ## The windows' blocks and the trajectory -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Whether tile `t` is counted: the body's second condition at the tile count it loads. -/
abbrev Counted (c : Dev nD) (t : Fin (cfgM m).N) : Prop := k0_cond2 (grid0.coords t) (word1 c (tbl m 1) (grid0.coords t)) = 1#1

/-- The tile's contribution added to `prev`: the body's arithmetic at the point's blocks and length. -/
abbrev addTile (c : Dev nD) (t : Fin (cfgM m).N) (prev : Vec F S1x8x128 .f32) : Vec F S1x8x128 .f32 :=
  k0_pay2 (BitVec.ofNat 32 ((grid0.coords t) 1).val) (iblk m c 0 t) (iblk m c 1 t) (word0 c (tbl m 0) (grid0.coords t)) prev

/-- One point's effect on the output's buffer, from what it held. -/
def stepAt (c : Dev nD) (t : Fin (cfgM m).N) (prev : Vec F S1x8x128 .f32) : Vec F S1x8x128 .f32 :=
  if k0_cond1 (grid0.coords t) = 1#1 then
    (if Counted m c t then addTile m c t (k0_pay1 (F := F)) else k0_pay1 (F := F))
  else
    (if Counted m c t then addTile m c t prev else prev)

/-- What the output's buffer holds after the body at position `n`. -/
def outsAt (c : Dev nD) : (n : ℕ) → n < (cfgM m).N → Vec F S1x8x128 .f32
  | 0, hn => stepAt m c ⟨0, hn⟩ (k0_pay1 (F := F))
  | n + 1, hn => stepAt m c ⟨n + 1, hn⟩ (outsAt c n (Nat.lt_of_succ_lt hn))

theorem outsAt_pos (c : Dev nD) (t : Fin (cfgM m).N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

theorem outsAt_first (c : Dev nD) (t : Fin (cfgM m).N) (h1 : k0_cond1 (grid0.coords t) = 1#1) :
    outsAt m c t.val t.isLt = if Counted m c t then addTile m c t (k0_pay1 (F := F)) else k0_pay1 (F := F) := by
  obtain ⟨n, hn⟩ := t
  cases n with
  | zero => exact if_pos h1
  | succ n => exact if_pos h1

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outsAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outsAt m c t.val t.isLt := by dsimp only [dats]; try rfl

/-- Each input's current buffer holds its block at every point, fetched there or not. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## Where the output's window is idle, and what its buffer holds when the body runs -/

/-- The output's window is idle exactly at a later tile that is not counted. -/
theorem idle2_iff (c : Dev nD) (t : Fin (cfgM m).N) :
    (cfgM m).idle 2 (grid0.coords t) = true ↔ (¬ k0_cond1 (grid0.coords t) = 1#1 ∧ ¬ Counted m c t) := by
  show ((!(k0_cond1 (grid0.coords t) == 1#1) && !(k0_cond2 (grid0.coords t) ((tbl m).atD 1 (k0_off1 (grid0.coords t))) == 1#1)) = true) ↔ _
  rw [atD_eq_word1 (tbl m) c]
  simp only [Bool.and_eq_true, Bool.not_eq_true', beq_eq_false_iff_ne, ne_eq]

theorem idle2_false_of_first (c : Dev nD) (t : Fin (cfgM m).N) (h1 : k0_cond1 (grid0.coords t) = 1#1) :
    (cfgM m).idle 2 (grid0.coords t) = false := by
  cases h : (cfgM m).idle 2 (grid0.coords t)
  · rfl
  · exact absurd h1 ((idle2_iff m c t).mp h).1

theorem idle2_false_of_counted (c : Dev nD) (t : Fin (cfgM m).N) (h2 : Counted m c t) :
    (cfgM m).idle 2 (grid0.coords t) = false := by
  cases h : (cfgM m).idle 2 (grid0.coords t)
  · rfl
  · exact absurd h2 ((idle2_iff m c t).mp h).2

/-- The output's buffer holds nothing the body stored exactly when the body runs at a sequence's first tile. -/
theorem fresh2 (c : Dev nD) : ∀ n, n ≤ (cfgM m).N → (cfgM m).fresh 2 n = decide (n % 16 = 0) :=
  (cfgM m).fresh_tab 2 (fun n => decide (n % 16 = 0)) (by decide) (fun t => by
    rw [flush2 (adm m) t]
    by_cases h15 : t.val % 16 = 15
    · have : (t.val + 1) % 16 = 0 := by omega
      simp only [h15, this, decide_true, Bool.true_or]
    · have hne : ¬ (t.val + 1) % 16 = 0 := by omega
      by_cases h0 : t.val % 16 = 0
      · rw [idle2_false_of_first m c t ((hcond1 t).mpr h0)]
        simp only [h15, hne, decide_false, Bool.false_and, Bool.or_false]
      · simp only [h15, hne, h0, decide_false, Bool.and_false, Bool.or_false])

/-- When the body runs at `t` the output's buffer holds anything at a sequence's first tile, else what the point before left. -/
theorem before_2 (c : Dev nD) (t : Fin (cfgM m).N) (d) :
    (dats m 0 c).before 2 t d = if (cfgM m).fresh 2 t.val then d else (dats m 0 c).after 2 ⟨t.val - 1, by omega⟩ :=
  (dats m 0 c).before_out_traj 2 rfl (fun _ _ => rfl) (fun t ht hi hfr => by
    obtain ⟨hn1, hnc⟩ := (idle2_iff m c t).mp hi
    rw [after_2, after_2, outsAt_pos m c t ht]
    unfold stepAt
    rw [if_neg hn1, if_neg hnc]) t.val t rfl d

theorem before_2_first (c : Dev nD) (t : Fin (cfgM m).N) (h0 : t.val % 16 = 0) (d) : (dats m 0 c).before 2 t d = d := by
  rw [before_2, fresh2 m c t.val (Nat.le_of_lt t.isLt), decide_eq_true h0, if_pos rfl]

theorem before_2_later (c : Dev nD) (t : Fin (cfgM m).N) (h0 : ¬ t.val % 16 = 0) (d) :
    (dats m 0 c).before 2 t d = outsAt m c (t.val - 1) (Nat.lt_of_le_of_lt (Nat.sub_le _ _) t.isLt) := by
  rw [before_2, fresh2 m c t.val (Nat.le_of_lt t.isLt), decide_eq_false h0, if_neg Bool.false_ne_true, after_2]

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 (adm m) t) fullShare ((dats m 0 c).before 0 t d))
    ∗ (∃ d, owns (c : Thread nD τ) (ms1 (adm m) t) fullShare ((dats m 0 c).before 1 t d))
    ∗ (∃ d, owns (c : Thread nD τ) (ms2 (adm m) t) fullShare ((dats m 0 c).before 2 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_0 (c : Dev nD) (t : Fin (cfgM m).N) :
    (dats m 0 c).leavesExact 0 t = owns (c : Thread nD τ) (ms0 (adm m) t) fullShare (iblk m c 0 t) := by
  rw [← after_0]; rfl
theorem leaves_1 (c : Dev nD) (t : Fin (cfgM m).N) :
    (dats m 0 c).leavesExact 1 t = owns (c : Thread nD τ) (ms1 (adm m) t) fullShare (iblk m c 1 t) := by
  rw [← after_1]; rfl
theorem leaves_2_live (c : Dev nD) (t : Fin (cfgM m).N) (h : (cfgM m).idle 2 (grid0.coords t) = false) :
    (dats m 0 c).leavesExact 2 t = owns (c : Thread nD τ) (ms2 (adm m) t) fullShare (outsAt m c t.val t.isLt) := by
  rw [← after_2]; unfold Dat.leavesExact; rw [h]; rfl
theorem leaves_2_flush (c : Dev nD) (t : Fin (cfgM m).N) (h : ((cfgM m).win 2).flush t = true) :
    (dats m 0 c).leavesExact 2 t = owns (c : Thread nD τ) (ms2 (adm m) t) fullShare (outsAt m c t.val t.isLt) := by
  rw [← after_2]; unfold Dat.leavesExact; rw [h]
  cases (cfgM m).idle 2 ((cfgM m).grid.coords t) <;> rfl

set_option maxHeartbeats 2000000 in
/-- The body at any point, by the four cases. -/
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost
  simp only [before_0, before_1]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq]
  rw [leaves_0, leaves_1]
  by_cases h1 : k0_cond1 (grid0.coords t) = 1#1
  · have h0 : t.val % 16 = 0 := (hcond1 t).mp h1
    simp only [before_2_first m c t h0]
    rw [leaves_2_live m c t (idle2_false_of_first m c t h1), outsAt_first m c t h1]
    by_cases h2 : Counted m c t
    · rw [if_pos h2]
      iintro ⟨⟨HΦ, ⟨HT0, HT1⟩⟩, Ho, ⟨%d0, H0⟩, ⟨%d1, H1⟩, H2⟩
      iapply (run_first_acc c (grid0.coords t) _ _ _ _ _ _ (iblk m c 0 t) (iblk m c 1 t) (tbl m 0) (tbl m 1) h1 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    · rw [if_neg h2]
      iintro ⟨⟨HΦ, ⟨HT0, HT1⟩⟩, Ho, ⟨%d0, H0⟩, ⟨%d1, H1⟩, H2⟩
      iapply (run_first_idle c (grid0.coords t) _ _ _ _ _ _ (iblk m c 0 t) (iblk m c 1 t) (tbl m 0) (tbl m 1) h1 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
  · have h0 : ¬ t.val % 16 = 0 := fun h => h1 ((hcond1 t).mpr h)
    have ht : t.val ≠ 0 := fun h => h0 (by rw [h])
    simp only [before_2_later m c t h0]
    by_cases h2 : Counted m c t
    · rw [leaves_2_live m c t (idle2_false_of_counted m c t h2), outsAt_pos m c t ht]
      unfold stepAt
      rw [if_neg h1, if_pos h2]
      iintro ⟨⟨HΦ, ⟨HT0, HT1⟩⟩, Ho, ⟨%d0, H0⟩, ⟨%d1, H1⟩, ⟨%d2, H2⟩⟩
      iapply (run_acc c (grid0.coords t) _ _ _ _ _ _ (iblk m c 0 t) (iblk m c 1 t) (outsAt m c (t.val - 1) (Nat.lt_of_le_of_lt (Nat.sub_le _ _) t.isLt)) (tbl m 0) (tbl m 1) h1 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    · have hidle : (cfgM m).idle 2 (grid0.coords t) = true := (idle2_iff m c t).mpr ⟨h1, h2⟩
      have hsame : outsAt m c t.val t.isLt = outsAt m c (t.val - 1) (Nat.lt_of_le_of_lt (Nat.sub_le _ _) t.isLt) := by
        rw [outsAt_pos m c t ht]; unfold stepAt; rw [if_neg h1, if_neg h2]
      by_cases h15 : t.val % 16 = 15
      · rw [leaves_2_flush m c t ((flush2 (adm m) t).trans (decide_eq_true h15)), hsame]
        iintro ⟨⟨HΦ, ⟨HT0, HT1⟩⟩, Ho, ⟨%d0, H0⟩, ⟨%d1, H1⟩, ⟨%d2, H2⟩⟩
        iapply (run_idle c (grid0.coords t) _ _ _ _ _ _ (iblk m c 0 t) (iblk m c 1 t) (outsAt m c (t.val - 1) (Nat.lt_of_le_of_lt (Nat.sub_le _ _) t.isLt)) (tbl m 0) (tbl m 1) h1 h2 Set.univ _)
        isplitl [H0]; · iexact H0
        isplitl [H1]; · iexact H1
        isplitl [H2]; · iexact H2
        isplitl [HT0]; · iexact HT0
        isplitl [HT1]; · iexact HT1
        iintro ⟨H0, H1, H2, HT0, HT1⟩
        isplitl [HΦ HT0 HT1]
        · isplitl [HΦ]; · iexact HΦ
          isplitl [HT0]; · iexact HT0
          iexact HT1
        isplitl [Ho]; · iexact Ho
        isplitl [H0]; · iexact H0
        isplitl [H1]; · iexact H1
        iexact H2
      · rw [Dat.leavesExact_idle (dats m 0 c) 2 t hidle ((flush2 (adm m) t).trans (decide_eq_false h15))]
        simp only [before_2_later m c t h0]
        iintro ⟨⟨HΦ, ⟨HT0, HT1⟩⟩, Ho, ⟨%d0, H0⟩, ⟨%d1, H1⟩, ⟨%d2, H2⟩⟩
        iapply (run_idle c (grid0.coords t) _ _ _ _ _ _ (iblk m c 0 t) (iblk m c 1 t) (outsAt m c (t.val - 1) (Nat.lt_of_le_of_lt (Nat.sub_le _ _) t.isLt)) (tbl m 0) (tbl m 1) h1 h2 Set.univ _)
        isplitl [H0]; · iexact H0
        isplitl [H1]; · iexact H1
        isplitl [H2]; · iexact H2
        isplitl [HT0]; · iexact HT0
        isplitl [HT1]; · iexact HT1
        iintro ⟨H0, H1, H2, HT0, HT1⟩
        isplitl [HΦ HT0 HT1]
        · isplitl [HΦ]; · iexact HΦ
          isplitl [HT0]; · iexact HT0
          iexact HT1
        isplitl [Ho]; · iexact Ho
        isplitl [H0]; · iexact H0
        isplitl [H1]; · iexact H1
        iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- The four lines after the region touch the output array and bypassing buffers only, never a table; -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) (fun k => ?_)
  simp only [hostOps1, List.mem_cons, List.mem_nil_iff, or_false] at hop
  rcases hop with rfl | rfl | rfl | rfl <;> fin_cases k <;>
    simp only [StableHlo.unary, StableHlo.reshape, StableHlo.nullary, StableHlo.binary, Finset.mem_insert, Finset.mem_singleton, not_or] <;>
    (first | exact StableHlo.devRef_ne_of_ne (by decide) | exact ⟨StableHlo.devRef_ne_of_ne (by decide), StableHlo.devRef_ne_of_ne (by decide)⟩ | exact ⟨StableHlo.devRef_ne_of_ne (by decide), StableHlo.devRef_ne_of_ne (by decide), StableHlo.devRef_ne_of_ne (by decide)⟩)
/-- allocate nothing; -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

set_option backward.isDefEq.respectTransparency.types false in
/-- Every weakly fair execution of @main terminates, the pipeline's arrays at what the proof data computes and every other
    unscoped buffer as the lines after the region leave it. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

end Cert.Kernel.Hand

end
-- ==== Proof.KB.Frame.lean ====
/-
  The frame of the idealized kernel's program: every weakly fair execution terminates without fault and leaves the three
  argument arrays as they were. The logits are an input window's array, which the pipeline only reads; the labels and the
  lengths are written by no host line before or after the region.
-/
import proofs.«405453_j18021682774493_3_alg».proof.Proof.KB.Traj
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line before the region writes an argument. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results

theorem arr_ne_arg1 : ∀ w, Pipeline.arrRef spec0 w ≠ main_arg1 := by decide
theorem arr_ne_arg2 : ∀ w, Pipeline.arrRef spec0 w ≠ main_arg2 := by decide

/-- Nor does a line after it. -/
theorem tail_main_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem _ _ (fun op hop => ?_), Pipeline.withArrays_of_ne _ c (V0 m c) _ _ (fun w => ?_)]
  · exact V_main_arg1 m c
  · exact arr_ne_arg1 w
  · simp only [List.flatten_cons, List.flatten_nil, List.append_nil, hostOps1, List.mem_cons, List.mem_nil_iff, _root_.or_false] at hop
    rcases hop with rfl | rfl | rfl | rfl <;>
      simp only [StableHlo.nullary_writes, StableHlo.unary_writes, StableHlo.binary_writes, StableHlo.reshape_writes, Finset.mem_singleton] <;>
      exact StableHlo.devRef_ne_of_ne (by decide)
theorem tail_main_arg2 (c : Dev nD) :
    Pipeline.afterTail pcfgs (fun _ => adm m) (dats m) 0 (V0 m) [hostOps1] c main_arg2 = m ((c : Thread nD τ).loc main_arg2) := by
  unfold Pipeline.afterTail
  rw [StableHlo.after_of_forall_not_mem _ _ (fun op hop => ?_), Pipeline.withArrays_of_ne _ c (V0 m c) _ _ (fun w => ?_)]
  · exact V_main_arg2 m c
  · exact arr_ne_arg2 w
  · simp only [List.flatten_cons, List.flatten_nil, List.append_nil, hostOps1, List.mem_cons, List.mem_nil_iff, _root_.or_false] at hop
    rcases hop with rfl | rfl | rfl | rfl <;>
      simp only [StableHlo.nullary_writes, StableHlo.unary_writes, StableHlo.binary_writes, StableHlo.reshape_writes, Finset.mem_singleton] <;>
      exact StableHlo.devRef_ne_of_ne (by decide)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (by decide : main_arg1 ∈ Pipeline.restRefs sig spec0)).trans (tail_main_arg1 m c),
     ((h c).2 main_arg2 (by decide : main_arg2 ∈ Pipeline.restRefs sig spec0)).trans (tail_main_arg2 m c)⟩) (run_main m ρ)

end Cert.Kernel.Hand

end
-- ==== Proof.KI.Base.lean ====
/-
  The launch side of the idealized kernel's one pallas_call, common to its frame and to its value.
  @main computes, on the host, the label array as a column and the per-sequence tile count
  nblk[b] = min(⌈len[b] / 32⌉, 16); the region then walks the grid (b, t) ∈ 16 × 16 with the lengths and the tile counts
  as prefetched tables, the logits and labels blocked (1, 32, ·) at row block min(t, max(nblk[b] − 1, 0)) and the output
  blocked (1, 8, 128) at (b, 0, 0); and four host lines reduce the output to a scalar.
  Here: the buffers' contents when the region is entered; @main as host lines, the region, host lines; the tables read off
  those contents; the pipeline's side condition, which holds of EVERY table (the row block is min(t, ·) of something
  non-negative, so it lies in [0, 15] whatever the table says); when the output block is written back (t = 15) and the
  closed form of the body's first condition (t = 0).
-/
import proofs.«405453_j18021682774493_3_alg».proof.Proof.Gen.KernelIdeal.Launch
import proofs.«405453_j18021682774493_3_alg».proof.Proof.Gen.KernelIdeal.Skeleton
import Idealize.ShloMosaic.Lib.Pipeline.FrameBody
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later lines, the buffers at `V`. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩)
    (fun c => (main_chain c).trans rfl)

/-! ## The prefetched tables -/

/-- The tables' contents when the region is entered (the program runs on one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- min(t, max(z, 0)) read unsigned lies in [0, 15] for t < 16, whatever the word z: the maximum is non-negative, and a
    signed minimum with a t in [0, 15] is then in [0, 15]. -/
theorem rowBlock_le (n : ℕ) (hn : n < 16) (z : BitVec 32) :
    (Scalar.minsi (BitVec.ofNat 32 n) (Scalar.maxsi z 0#32)).toNat ≤ 15 := by
  have hx : (BitVec.ofNat 32 n).toNat = n := by simp [BitVec.toNat_ofNat]; omega
  generalize BitVec.ofNat 32 n = x at hx
  have hz := z.isLt
  unfold Scalar.minsi Scalar.maxsi IntOp.minsi IntOp.maxsi
  by_cases h1 : (0#32).slt z
  · rw [if_pos h1]
    by_cases h2 : x.slt z
    · rw [if_pos h2]; omega
    · rw [if_neg h2]
      simp only [BitVec.slt, BitVec.toInt_eq_toNat_cond, decide_eq_true_eq, BitVec.toNat_ofNat] at h1 h2
      split at h1 <;> split at h2 <;> simp_all <;> omega
  · rw [if_neg h1]
    by_cases h2 : x.slt 0#32
    · rw [if_pos h2]; omega
    · rw [if_neg h2]; simp

theorem coord0_lt (i : grid0.Coords) : (i 0).val < 16 := (i 0).isLt
theorem coord1_lt (i : grid0.Coords) : (i 1).val < 16 := (i 1).isLt

/-- The pipeline's side condition holds of every table: at each point the logits' and the labels' block is
    (b, min(t, max(nblk[b] − 1, 0)), 0), inside the arrays because b < 16 and the row block is at most 15. -/
theorem ok_all (pf : pre0.Contents (Elt F)) : ok0 (F := F) pf := by
  refine ⟨fun i => ⟨fun a => ?_, .inl rfl⟩, fun i => ⟨fun a => ?_, .inl rfl⟩⟩
  · match a with
    | ⟨0, _⟩ =>
      show ((BitVec.ofNat 32 (i 0).val).toNat + 1) * 1 ≤ 16
      have := coord0_lt i; simp only [BitVec.toNat_ofNat]; omega
    | ⟨1, _⟩ =>
      show ((Scalar.minsi (BitVec.ofNat 32 (i 1).val) (Scalar.maxsi _ 0#32)).toNat + 1) * 32 ≤ 512
      have := rowBlock_le (i 1).val (coord1_lt i) (Scalar.subi (pf.at 1 (Rect.unit (s := S16) ![(Scalar.indexCast (BitVec.ofNat 32 (i 0).val)).toNat] S1.size (k0_off1_inb i)) numel1_S1) 1#32)
      omega
    | ⟨2, _⟩ => show (0 + 1) * 32000 ≤ 32000; omega
  · match a with
    | ⟨0, _⟩ =>
      show ((BitVec.ofNat 32 (i 0).val).toNat + 1) * 1 ≤ 16
      have := coord0_lt i; simp only [BitVec.toNat_ofNat]; omega
    | ⟨1, _⟩ =>
      show ((Scalar.minsi (BitVec.ofNat 32 (i 1).val) (Scalar.maxsi _ 0#32)).toNat + 1) * 32 ≤ 512
      have := rowBlock_le (i 1).val (coord1_lt i) (Scalar.subi (pf.at 1 (Rect.unit (s := S16) ![(Scalar.indexCast (BitVec.ofNat 32 (i 0).val)).toNat] S1.size (k0_off1_inb i)) numel1_S1) 1#32)
      omega
    | ⟨2, _⟩ => show (0 + 1) * 1 ≤ 1; omega

/-- Any contents of the tables are admissible; the pipeline at them. -/
abbrev admOf (pf : pre0.Contents (Elt F)) : (pcfg0 (F := F)).Adm := ⟨pf, ok_all pf⟩
abbrev adm : (pcfg0 (F := F)).Adm := admOf (tbl m)
abbrev cfgM : Pipeline.Cfg sig Λ₀ := cfg0 (adm m)

/-! ## The schedule of the output window and the body's first condition -/

/-- The output block (b, 0, 0) is written back exactly at the last tile of each sequence, at any tables. -/
theorem flush2 (a : (pcfg0 (F := F)).Adm) : ∀ t : Fin (cfg0 a).N, ((cfg0 a).win 2).flush t = decide (t.val % 16 = 15) :=
  (by decide +kernel : ∀ t : Fin grid0.N, Pipeline.Window.flushOf grid0 true cc0_transform_2 t = decide (t.val % 16 = 15))

/-- The body's first condition (t = 0) over the grid. -/
theorem hcond1 : ∀ t : Fin grid0.N, k0_cond1 (grid0.coords t) = 1#1 ↔ t.val % 16 = 0 := by decide +kernel

/-- A point's coordinates: sequence t / 16, tile t % 16. -/
theorem coords0 : ∀ t : Fin grid0.N, ((grid0.coords t) 0).val = t.val / 16 := by decide +kernel
theorem coords1 : ∀ t : Fin grid0.N, ((grid0.coords t) 1).val = t.val % 16 := by decide +kernel

end Cert.KernelIdeal.Hand

end
-- ==== Proof.KI.Runs.lean ====
import proofs.«405453_j18021682774493_3_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables as the body is handed them -/

/-- The lengths' and the tile counts' buffers as memrefs. -/
abbrev tbM0 : Memref sig .tc .smem S16 .i32 := Memref.whole main_arg2
abbrev htbM0 : tbM0.IsWhole := Memref.isWhole_whole _
abbrev tbM1 : Memref sig .tc .smem S16 .i32 := Memref.whole main_v7
abbrev htbM1 : tbM1.IsWhole := Memref.isWhole_whole _

/-- A table's buffer on core `c`, and it held read-only (the pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word the body loads from the tile counts at its sequence, and from the lengths. -/
abbrev word1 (c : Dev nD) (xt1 : TbBuf (F := F) c tbM1) (i : grid0.Coords) : Elt F .i32 :=
  tbM1.view.readAt (Elt F) (Rect.unit (s := S16) (k0_off1 i) S1.size (k0_off1_inb i)).toLoadRect xt1 (Shape.Idx.first (numel1_S1.symm ▸ Nat.one_pos))
abbrev word0 (c : Dev nD) (xt0 : TbBuf (F := F) c tbM0) (i : grid0.Coords) : Elt F .i32 :=
  tbM0.view.readAt (Elt F) (Rect.unit (s := S16) (k0_off2 i) S1.size (k0_off2_inb i)).toLoadRect xt0 (Shape.Idx.first (numel1_S1.symm ▸ Nat.one_pos))

theorem hz3 : (![0, 0, 0] : Fin 3 → ℕ) = fun _ => 0 := by funext a; fin_cases a <;> rfl

/-! ## The body, case by case

The body zeroes the output's buffer at a sequence's first tile (t = 0), and at a tile below the sequence's tile count adds
the tile's masked loss, broadcast over the (8, 128) block, to what the buffer holds. Four cases; in each the logits' and the
labels' buffers and the two tables come back as they were, and the output's buffer ends at the stated contents. -/

set_option maxHeartbeats 1000000 in
/-- A sequence's first tile, counted: zero, then the tile's contribution. -/
theorem run_first_acc (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (xt0 : TbBuf (F := F) c tbM0) (xt1 : TbBuf (F := F) c tbM1)
    (hc1 : k0_cond1 i = 1#1) (hc2 : k0_cond2 i (word1 c xt1 i) = 1#1) (E : Set ℕ) (K : PUnit → sProp 𝕄) :
        iprop(owns (c : Thread nD τ) arg4 fullShare x0 ∗ owns (c : Thread nD τ) arg5 fullShare x1 ∗ (∃ d, owns (c : Thread nD τ) arg6 fullShare d) ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (k0_pay2 (BitVec.ofNat 32 (i 1).val) x0 x1 (word0 c xt0 i) (k0_pay1 (F := F))) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [View.read_writes_eq_canon _ _ _ (View.cover_of_wholeMem _ (by sl_whole_mem))]
    sl_unfold_words
    rw [View.canon_cons_unit_zero hz3]
    simp only [View.readAt_eq_ld, harg4.read_unread, harg5.read_unread, harg6.read_unread, View.ld_unit_zero (S := S1x32x32000) hz3, View.ld_unit_zero (S := S1x32x1) hz3, View.ld_unit_zero (S := S1x8x128) hz3, View.readCov_unit_zero (S := S1x8x128) _ hz3]
    rfl
  isplitl [HT0]; · iexact HT0
  iexact HT1

set_option maxHeartbeats 1000000 in
/-- A sequence's first tile, not counted (the sequence has no tile): zero. -/
theorem run_first_idle (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (xt0 : TbBuf (F := F) c tbM0) (xt1 : TbBuf (F := F) c tbM1)
    (hc1 : k0_cond1 i = 1#1) (hc2 : ¬ k0_cond2 i (word1 c xt1 i) = 1#1) (E : Set ℕ) (K : PUnit → sProp 𝕄) :
        iprop(owns (c : Thread nD τ) arg4 fullShare x0 ∗ owns (c : Thread nD τ) arg5 fullShare x1 ∗ (∃ d, owns (c : Thread nD τ) arg6 fullShare d) ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (k0_pay1 (F := F)) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [View.read_writes_eq_canon _ _ _ (View.cover_of_wholeMem _ (by sl_whole_mem))]
    sl_unfold_words
    rw [View.canon_unit_zero hz3]
  isplitl [HT0]; · iexact HT0
  iexact HT1

set_option maxHeartbeats 1000000 in
/-- A later tile that is counted: the tile's contribution is added to what the output's buffer held. -/
theorem run_acc (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (x2 : Vec F S1x8x128 .f32) (xt0 : TbBuf (F := F) c tbM0) (xt1 : TbBuf (F := F) c tbM1)
    (hc1 : ¬ k0_cond1 i = 1#1) (hc2 : k0_cond2 i (word1 c xt1 i) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (k0_pay2 (BitVec.ofNat 32 (i 1).val) x0 x1 (word0 c xt0 i) x2) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [View.read_writes_eq_canon _ _ _ (View.cover_of_wholeMem _ (by sl_whole_mem))]
    sl_unfold_words
    rw [View.canon_unit_zero hz3]
    simp only [View.readAt_eq_ld, harg4.read_unread, harg5.read_unread, harg6.read_unread, View.ld_unit_zero (S := S1x32x32000) hz3, View.ld_unit_zero (S := S1x32x1) hz3, View.ld_unit_zero (S := S1x8x128) hz3]
    rfl
  isplitl [HT0]; · iexact HT0
  iexact HT1

set_option maxHeartbeats 1000000 in
/-- A later tile that is not counted: the output's buffer is left as it was found. -/
theorem run_idle (c : Dev nD) (i : grid0.Coords) (arg4 : Memref sig .tc .vmem S1x32x32000 .f32) (harg4 : arg4.IsWhole) (arg5 : Memref sig .tc .vmem S1x32x1 .i32) (harg5 : arg5.IsWhole) (arg6 : Memref sig .tc .vmem S1x8x128 .f32) (harg6 : arg6.IsWhole)
    (x0 : Vec F S1x32x32000 .f32) (x1 : Vec F S1x32x1 .i32) (x2 : Vec F S1x8x128 .f32) (xt0 : TbBuf (F := F) c tbM0) (xt1 : TbBuf (F := F) c tbM1)
    (hc1 : ¬ k0_cond1 i = 1#1) (hc2 : ¬ k0_cond2 i (word1 c xt1 i) = 1#1) (E : Set ℕ) (K : PUnit → sProp 𝕄) :
        iprop(owns (c : Thread nD τ) arg4 fullShare x0 ∗ owns (c : Thread nD τ) arg5 fullShare x1 ∗ owns (c : Thread nD τ) arg6 fullShare x2 ∗ tbPt c tbM0 xt0 ∗ tbPt c tbM1 xt1
            ∗ (iprop(owns (c : Thread nD τ) arg4 fullShare x0 ∗ owns (c : Thread nD τ) arg5 fullShare x1
                ∗ owns (c : Thread nD τ) arg6 fullShare (x2) ∗ tbPt c tbM0 xt0 ∗ tbPt c tbM1 xt1) -∗ K ⟨⟩))
          ⊢ wp frame (wpE (defs₀ (F := F)) Variants.none c none) E (cc0__seqcel_kernel i tbM0 htbM0 tbM1 htbM1 arg4 harg4 arg5 harg5 arg6 harg6) K := by
  simp only [cc0__seqcel_kernel_eq_skeleton]; unfold cc0__seqcel_kernel_skel
  simp only [k0_part1_eq_skeleton]
  unfold owns
  iintro ⟨⟨%f0, %hf0, H0⟩, ⟨%f1, %hf1, H1⟩, ⟨%f2, %hf2, H2⟩, HT0, HT1, Hk⟩
  obtain rfl := harg4.eq_unread hf0; obtain rfl := harg5.eq_unread hf1; obtain rfl := harg6.eq_unread hf2
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    exact harg6.read_unread _
  isplitl [HT0]; · iexact HT0
  iexact HT1

end Cert.KernelIdeal.Hand

end
-- ==== Proof.KI.Traj.lean ====
/-
  The trajectory of the output's staging buffer over the grid, and the proof data of the pipeline.
  Within a sequence b the output block (b, 0, 0) stays in one buffer from tile 0 to tile 15: tile 0 zeroes it; a tile below
  the sequence's tile count adds its masked loss to it; any other tile leaves it; after tile 15 it is written back.
-/
import proofs.«405453_j18021682774493_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body as the pipeline calls it -/

/-- Each window's current staging memref at point `t`, at any tables. -/
abbrev ms0 (a : (pcfg0 (F := F)).Adm) (t : Fin (cfg0 a).N) : Memref sig .tc .vmem S1x32x32000 .f32 := spec0_0.stage ((cfg0 a).slots t 0)
abbrev hs0 (a : (pcfg0 (F := F)).Adm) (t : Fin (cfg0 a).N) : (ms0 a t).IsWhole := hstage0_0 (((cfg0 a).slots t 0).cast nbuf0_0)
abbrev ms1 (a : (pcfg0 (F := F)).Adm) (t : Fin (cfg0 a).N) : Memref sig .tc .vmem S1x32x1 .i32 := spec0_1.stage ((cfg0 a).slots t 1)
abbrev hs1 (a : (pcfg0 (F := F)).Adm) (t : Fin (cfg0 a).N) : (ms1 a t).IsWhole := hstage0_1 (((cfg0 a).slots t 1).cast nbuf0_1)
abbrev ms2 (a : (pcfg0 (F := F)).Adm) (t : Fin (cfg0 a).N) : Memref sig .tc .vmem S1x8x128 .f32 := spec0_2.stage ((cfg0 a).slots t 2)
abbrev hs2 (a : (pcfg0 (F := F)).Adm) (t : Fin (cfg0 a).N) : (ms2 a t).IsWhole := hstage0_2 (((cfg0 a).slots t 2).cast nbuf0_2)

/-- The kernel body at point `t`, on what the pipeline calls it with. -/
abbrev bodyAt (a : (pcfg0 (F := F)).Adm) (t : Fin (cfg0 a).N) : Prog (TpuEff nD τ sig (Elt F) Λ₀ .tc) PUnit :=
  cc0__seqcel_kernel (grid0.coords t) tbM0 htbM0 tbM1 htbM1 (ms0 a t) (hs0 a t) (ms1 a t) (hs1 a t) (ms2 a t) (hs2 a t)

/-- The tables' halves the region hands the body, table by table. -/
theorem PhiT_eq (pf : pre0.Contents (Elt F)) (c : Dev nD) :
    (Pipeline.ΦT pre0 pf c : sProp 𝕄) = iprop(tbPt c tbM0 (pf 0) ∗ tbPt c tbM1 (pf 1)) := by
  unfold Pipeline.ΦT Pipeline.prefHeld
  rw [show (Finset.univ : Finset (Fin 2)) = insert (0 : Fin 2) {(1 : Fin 2)} from by decide,
    bigSep_insert (by decide), bigSep_singleton]
  rfl

/-- The word the idle table reads of the tile counts is the word the body loads. -/
theorem atD_eq_word1 (pf : pre0.Contents (Elt F)) (c : Dev nD) (i : grid0.Coords) :
    pf.atD 1 (k0_off1 i) = word1 c (pf 1) i := by
  have h : ∀ a, k0_off1 i a + 1 ≤ (pre0.ref 1).ty.shape.size a := fun a => by
    match a with
    | ⟨0, _⟩ => exact k0_off1_inb i ⟨0, by decide⟩
  exact (dif_pos h).trans rfl

/-! ## The windows' blocks and the trajectory -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- Whether tile `t` is counted: the body's second condition at the tile count it loads. -/
abbrev Counted (c : Dev nD) (t : Fin (cfgM m).N) : Prop := k0_cond2 (grid0.coords t) (word1 c (tbl m 1) (grid0.coords t)) = 1#1

/-- The tile's contribution added to `prev`: the body's arithmetic at the point's blocks and length. -/
abbrev addTile (c : Dev nD) (t : Fin (cfgM m).N) (prev : Vec F S1x8x128 .f32) : Vec F S1x8x128 .f32 :=
  k0_pay2 (BitVec.ofNat 32 ((grid0.coords t) 1).val) (iblk m c 0 t) (iblk m c 1 t) (word0 c (tbl m 0) (grid0.coords t)) prev

/-- One point's effect on the output's buffer, from what it held. -/
def stepAt (c : Dev nD) (t : Fin (cfgM m).N) (prev : Vec F S1x8x128 .f32) : Vec F S1x8x128 .f32 :=
  if k0_cond1 (grid0.coords t) = 1#1 then
    (if Counted m c t then addTile m c t (k0_pay1 (F := F)) else k0_pay1 (F := F))
  else
    (if Counted m c t then addTile m c t prev else prev)

/-- What the output's buffer holds after the body at position `n`. -/
def outsAt (c : Dev nD) : (n : ℕ) → n < (cfgM m).N → Vec F S1x8x128 .f32
  | 0, hn => stepAt m c ⟨0, hn⟩ (k0_pay1 (F := F))
  | n + 1, hn => stepAt m c ⟨n + 1, hn⟩ (outsAt c n (Nat.lt_of_succ_lt hn))

theorem outsAt_pos (c : Dev nD) (t : Fin (cfgM m).N) (ht : t.val ≠ 0) :
    outsAt m c t.val t.isLt = stepAt m c t (outsAt m c (t.val - 1) (Nat.lt_of_le_of_lt (Nat.sub_le _ _) t.isLt)) := by
  obtain ⟨n, hn⟩ := t
  cases n with
  | zero => exact absurd rfl ht
  | succ n => rfl

theorem outsAt_first (c : Dev nD) (t : Fin (cfgM m).N) (h1 : k0_cond1 (grid0.coords t) = 1#1) :
    outsAt m c t.val t.isLt = if Counted m c t then addTile m c t (k0_pay1 (F := F)) else k0_pay1 (F := F) := by
  obtain ⟨n, hn⟩ := t
  cases n with
  | zero => exact if_pos h1
  | succ n => exact if_pos h1

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outsAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outsAt m c t.val t.isLt := by dsimp only [dats]; try rfl

/-- Each input's current buffer holds its block at every point, fetched there or not. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## Where the output's window is idle, and what its buffer holds when the body runs -/

/-- The output's window is idle exactly at a later tile that is not counted. -/
theorem idle2_iff (c : Dev nD) (t : Fin (cfgM m).N) :
    (cfgM m).idle 2 (grid0.coords t) = true ↔ (¬ k0_cond1 (grid0.coords t) = 1#1 ∧ ¬ Counted m c t) := by
  show ((!(k0_cond1 (grid0.coords t) == 1#1) && !(k0_cond2 (grid0.coords t) ((tbl m).atD 1 (k0_off1 (grid0.coords t))) == 1#1)) = true) ↔ _
  rw [atD_eq_word1 (tbl m) c]
  simp only [Bool.and_eq_true, Bool.not_eq_true', beq_eq_false_iff_ne, ne_eq]

theorem idle2_false_of_first (c : Dev nD) (t : Fin (cfgM m).N) (h1 : k0_cond1 (grid0.coords t) = 1#1) :
    (cfgM m).idle 2 (grid0.coords t) = false := by
  cases h : (cfgM m).idle 2 (grid0.coords t)
  · rfl
  · exact absurd h1 ((idle2_iff m c t).mp h).1

theorem idle2_false_of_counted (c : Dev nD) (t : Fin (cfgM m).N) (h2 : Counted m c t) :
    (cfgM m).idle 2 (grid0.coords t) = false := by
  cases h : (cfgM m).idle 2 (grid0.coords t)
  · rfl
  · exact absurd h2 ((idle2_iff m c t).mp h).2

/-- The output's buffer holds nothing the body stored exactly when the body runs at a sequence's first tile. -/
theorem fresh2 (c : Dev nD) : ∀ n, n ≤ (cfgM m).N → (cfgM m).fresh 2 n = decide (n % 16 = 0) :=
  (cfgM m).fresh_tab 2 (fun n => decide (n % 16 = 0)) (by decide) (fun t => by
    rw [flush2 (adm m) t]
    by_cases h15 : t.val % 16 = 15
    · have : (t.val + 1) % 16 = 0 := by omega
      simp only [h15, this, decide_true, Bool.true_or]
    · have hne : ¬ (t.val + 1) % 16 = 0 := by omega
      by_cases h0 : t.val % 16 = 0
      · rw [idle2_false_of_first m c t ((hcond1 t).mpr h0)]
        simp only [h15, hne, decide_false, Bool.false_and, Bool.or_false]
      · simp only [h15, hne, h0, decide_false, Bool.and_false, Bool.or_false])

/-- When the body runs at `t` the output's buffer holds anything at a sequence's first tile, else what the point before left. -/
theorem before_2 (c : Dev nD) (t : Fin (cfgM m).N) (d) :
    (dats m 0 c).before 2 t d = if (cfgM m).fresh 2 t.val then d else (dats m 0 c).after 2 ⟨t.val - 1, by omega⟩ :=
  (dats m 0 c).before_out_traj 2 rfl (fun _ _ => rfl) (fun t ht hi hfr => by
    obtain ⟨hn1, hnc⟩ := (idle2_iff m c t).mp hi
    rw [after_2, after_2, outsAt_pos m c t ht]
    unfold stepAt
    rw [if_neg hn1, if_neg hnc]) t.val t rfl d

theorem before_2_first (c : Dev nD) (t : Fin (cfgM m).N) (h0 : t.val % 16 = 0) (d) : (dats m 0 c).before 2 t d = d := by
  rw [before_2, fresh2 m c t.val (Nat.le_of_lt t.isLt), decide_eq_true h0, if_pos rfl]

theorem before_2_later (c : Dev nD) (t : Fin (cfgM m).N) (h0 : ¬ t.val % 16 = 0) (d) :
    (dats m 0 c).before 2 t d = outsAt m c (t.val - 1) (Nat.lt_of_le_of_lt (Nat.sub_le _ _) t.isLt) := by
  rw [before_2, fresh2 m c t.val (Nat.le_of_lt t.isLt), decide_eq_false h0, if_neg Bool.false_ne_true, after_2]

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 (adm m) t) fullShare ((dats m 0 c).before 0 t d))
    ∗ (∃ d, owns (c : Thread nD τ) (ms1 (adm m) t) fullShare ((dats m 0 c).before 1 t d))
    ∗ (∃ d, owns (c : Thread nD τ) (ms2 (adm m) t) fullShare ((dats m 0 c).before 2 t d)))

def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_0 (c : Dev nD) (t : Fin (cfgM m).N) :
    (dats m 0 c).leavesExact 0 t = owns (c : Thread nD τ) (ms0 (adm m) t) fullShare (iblk m c 0 t) := by
  rw [← after_0]; rfl
theorem leaves_1 (c : Dev nD) (t : Fin (cfgM m).N) :
    (dats m 0 c).leavesExact 1 t = owns (c : Thread nD τ) (ms1 (adm m) t) fullShare (iblk m c 1 t) := by
  rw [← after_1]; rfl
theorem leaves_2_live (c : Dev nD) (t : Fin (cfgM m).N) (h : (cfgM m).idle 2 (grid0.coords t) = false) :
    (dats m 0 c).leavesExact 2 t = owns (c : Thread nD τ) (ms2 (adm m) t) fullShare (outsAt m c t.val t.isLt) := by
  rw [← after_2]; unfold Dat.leavesExact; rw [h]; rfl
theorem leaves_2_flush (c : Dev nD) (t : Fin (cfgM m).N) (h : ((cfgM m).win 2).flush t = true) :
    (dats m 0 c).leavesExact 2 t = owns (c : Thread nD τ) (ms2 (adm m) t) fullShare (outsAt m c t.val t.isLt) := by
  rw [← after_2]; unfold Dat.leavesExact; rw [h]
  cases (cfgM m).idle 2 ((cfgM m).grid.coords t) <;> rfl

set_option maxHeartbeats 2000000 in
/-- The body at any point, by the four cases. -/
theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost
  simp only [before_0, before_1]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq]
  rw [leaves_0, leaves_1]
  by_cases h1 : k0_cond1 (grid0.coords t) = 1#1
  · have h0 : t.val % 16 = 0 := (hcond1 t).mp h1
    simp only [before_2_first m c t h0]
    rw [leaves_2_live m c t (idle2_false_of_first m c t h1), outsAt_first m c t h1]
    by_cases h2 : Counted m c t
    · rw [if_pos h2]
      iintro ⟨⟨HΦ, ⟨HT0, HT1⟩⟩, Ho, ⟨%d0, H0⟩, ⟨%d1, H1⟩, H2⟩
      iapply (run_first_acc c (grid0.coords t) _ _ _ _ _ _ (iblk m c 0 t) (iblk m c 1 t) (tbl m 0) (tbl m 1) h1 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    · rw [if_neg h2]
      iintro ⟨⟨HΦ, ⟨HT0, HT1⟩⟩, Ho, ⟨%d0, H0⟩, ⟨%d1, H1⟩, H2⟩
      iapply (run_first_idle c (grid0.coords t) _ _ _ _ _ _ (iblk m c 0 t) (iblk m c 1 t) (tbl m 0) (tbl m 1) h1 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
  · have h0 : ¬ t.val % 16 = 0 := fun h => h1 ((hcond1 t).mpr h)
    have ht : t.val ≠ 0 := fun h => h0 (by rw [h])
    simp only [before_2_later m c t h0]
    by_cases h2 : Counted m c t
    · rw [leaves_2_live m c t (idle2_false_of_counted m c t h2), outsAt_pos m c t ht]
      unfold stepAt
      rw [if_neg h1, if_pos h2]
      iintro ⟨⟨HΦ, ⟨HT0, HT1⟩⟩, Ho, ⟨%d0, H0⟩, ⟨%d1, H1⟩, ⟨%d2, H2⟩⟩
      iapply (run_acc c (grid0.coords t) _ _ _ _ _ _ (iblk m c 0 t) (iblk m c 1 t) (outsAt m c (t.val - 1) (Nat.lt_of_le_of_lt (Nat.sub_le _ _) t.isLt)) (tbl m 0) (tbl m 1) h1 h2 Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    · have hidle : (cfgM m).idle 2 (grid0.coords t) = true := (idle2_iff m c t).mpr ⟨h1, h2⟩
      have hsame : outsAt m c t.val t.isLt = outsAt m c (t.val - 1) (Nat.lt_of_le_of_lt (Nat.sub_le _ _) t.isLt) := by
        rw [outsAt_pos m c t ht]; unfold stepAt; rw [if_neg h1, if_neg h2]
      by_cases h15 : t.val % 16 = 15
      · rw [leaves_2_flush m c t ((flush2 (adm m) t).trans (decide_eq_true h15)), hsame]
        iintro ⟨⟨HΦ, ⟨HT0, HT1⟩⟩, Ho, ⟨%d0, H0⟩, ⟨%d1, H1⟩, ⟨%d2, H2⟩⟩
        iapply (run_idle c (grid0.coords t) _ _ _ _ _ _ (iblk m c 0 t) (iblk m c 1 t) (outsAt m c (t.val - 1) (Nat.lt_of_le_of_lt (Nat.sub_le _ _) t.isLt)) (tbl m 0) (tbl m 1) h1 h2 Set.univ _)
        isplitl [H0]; · iexact H0
        isplitl [H1]; · iexact H1
        isplitl [H2]; · iexact H2
        isplitl [HT0]; · iexact HT0
        isplitl [HT1]; · iexact HT1
        iintro ⟨H0, H1, H2, HT0, HT1⟩
        isplitl [HΦ HT0 HT1]
        · isplitl [HΦ]; · iexact HΦ
          isplitl [HT0]; · iexact HT0
          iexact HT1
        isplitl [Ho]; · iexact Ho
        isplitl [H0]; · iexact H0
        isplitl [H1]; · iexact H1
        iexact H2
      · rw [Dat.leavesExact_idle (dats m 0 c) 2 t hidle ((flush2 (adm m) t).trans (decide_eq_false h15))]
        simp only [before_2_later m c t h0]
        iintro ⟨⟨HΦ, ⟨HT0, HT1⟩⟩, Ho, ⟨%d0, H0⟩, ⟨%d1, H1⟩, ⟨%d2, H2⟩⟩
        iapply (run_idle c (grid0.coords t) _ _ _ _ _ _ (iblk m c 0 t) (iblk m c 1 t) (outsAt m c (t.val - 1) (Nat.lt_of_le_of_lt (Nat.sub_le _ _) t.isLt)) (tbl m 0) (tbl m 1) h1 h2 Set.univ _)
        isplitl [H0]; · iexact H0
        isplitl [H1]; · iexact H1
        isplitl [H2]; · iexact H2
        isplitl [HT0]; · iexact HT0
        isplitl [HT1]; · iexact HT1
        iintro ⟨H0, H1, H2, HT0, HT1⟩
        isplitl [HΦ HT0 HT1]
        · isplitl [HΦ]; · iexact HΦ
          isplitl [HT0]; · iexact HT0
          iexact HT1
        isplitl [Ho]; · iexact Ho
        isplitl [H0]; · iexact H0
        isplitl [H1]; · iexact H1
        iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

/-- The four lines after the region touch the output array and bypassing buffers only, never a table; -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) (fun k => ?_)
  simp only [hostOps1, List.mem_cons, List.mem_nil_iff, or_false] at hop
  rcases hop with rfl | rfl | rfl | rfl <;> fin_cases k <;>
    simp only [StableHlo.unary, StableHlo.reshape, StableHlo.nullary, StableHlo.binary, Finset.mem_insert, Finset.mem_singleton, not_or] <;>
    (first | exact StableHlo.devRef_ne_of_ne (by decide) | exact ⟨StableHlo.devRef_ne_of_ne (by decide), StableHlo.devRef_ne_of_ne (by decide)⟩ | exact ⟨StableHlo.devRef_ne_of_ne (by decide), StableHlo.devRef_ne_of_ne (by decide), StableHlo.devRef_ne_of_ne (by decide)⟩)
/-- allocate nothing; -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

set_option backward.isDefEq.respectTransparency.types false in
/-- Every weakly fair execution of @main terminates, the pipeline's arrays at what the proof data computes and every other
    unscoped buffer as the lines after the region leave it. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

end Cert.KernelIdeal.Hand

end
-- ==== Proof.KI.Frame.lean ====
/-
  The frame of the idealized kernel's program: every weakly fair execution terminates without fault and leaves the three
  argument arrays as they were. The logits are an input window's array, which the pipeline only reads; the labels and the
  lengths are written by no host line before or after the region.
-/
import proofs.«405453_j18021682774493_3_alg».proof.Proof.KI.Traj
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host line before the region writes an argument. -/
theorem V_main_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results
theorem V_main_arg2 (c : Dev nD) : V m c main_arg2 = m ((c : Thread nD τ).loc main_arg2) := by
  dsimp only [V, V0]
  simp only [hostOps0, hostOps0_1, hostOps0_2, List.flatten_cons, List.flatten_nil, List.append_nil, List.cons_append, List.nil_append]
  after_results

theorem arr_ne_arg1 : ∀ w, Pipeline.arrRef spec0 w ≠ main_arg1 := by decide
theorem arr_ne_arg2 : ∀ w, Pipeline.arrRef spec0 w ≠ main_arg2 := by decide

/-- Nor does a line after it. -/
theorem tail_main_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem _ _ (fun op hop => ?_), Pipeline.withArrays_of_ne _ c (V0 m c) _ _ (fun w => ?_)]
  · exact V_main_arg1 m c
  · exact arr_ne_arg1 w
  · simp only [List.flatten_cons, List.flatten_nil, List.append_nil, hostOps1, List.mem_cons, List.mem_nil_iff, _root_.or_false] at hop
    rcases hop with rfl | rfl | rfl | rfl <;>
      simp only [StableHlo.nullary_writes, StableHlo.unary_writes, StableHlo.binary_writes, StableHlo.reshape_writes, Finset.mem_singleton] <;>
      exact StableHlo.devRef_ne_of_ne (by decide)
theorem tail_main_arg2 (c : Dev nD) :
    Pipeline.afterTail pcfgs (fun _ => adm m) (dats m) 0 (V0 m) [hostOps1] c main_arg2 = m ((c : Thread nD τ).loc main_arg2) := by
  unfold Pipeline.afterTail
  rw [StableHlo.after_of_forall_not_mem _ _ (fun op hop => ?_), Pipeline.withArrays_of_ne _ c (V0 m c) _ _ (fun w => ?_)]
  · exact V_main_arg2 m c
  · exact arr_ne_arg2 w
  · simp only [List.flatten_cons, List.flatten_nil, List.append_nil, hostOps1, List.mem_cons, List.mem_nil_iff, _root_.or_false] at hop
    rcases hop with rfl | rfl | rfl | rfl <;>
      simp only [StableHlo.nullary_writes, StableHlo.unary_writes, StableHlo.binary_writes, StableHlo.reshape_writes, Finset.mem_singleton] <;>
      exact StableHlo.devRef_ne_of_ne (by decide)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (by decide : main_arg1 ∈ Pipeline.restRefs sig spec0)).trans (tail_main_arg1 m c),
     ((h c).2 main_arg2 (by decide : main_arg2 ∈ Pipeline.restRefs sig spec0)).trans (tail_main_arg2 m c)⟩) (run_main m ρ)

end Cert.KernelIdeal.Hand

end
-- ==== Proof.Spec.lean ====
/-
  The quantity both programs compute, as one function of the three argument arrays at the extended reals:
  a ragged batch of B = 16 sequences of T = 512 rows of V = 32000 logits, one class label per row and one
  length per sequence. A row's loss is its log-sum-exp (taken about the row's maximum) less the logit of its
  label; a row counts when its position lies before the sequence's length; the result is the sum over all rows.
-/
import Idealize.ShloMosaic.PureOps.Ideal
import Idealize.ShloMosaic.Lib.ValueIdx

noncomputable section

namespace Cert.Spec

open Idealize.ShloMosaic Idealize.ShloMosaic.ValueIdx

/-- The logits [B, T, V], the labels [B, T] and the lengths [B]. -/
abbrev SX : Shape := ⟨3, ![16, 512, 32000]⟩
abbrev ST : Shape := ⟨2, ![16, 512]⟩
abbrev SL : Shape := ⟨1, ![16]⟩

variable (x : SX.Idx → EReal) (tg : ST.Idx → BitVec 32) (ls : SL.Idx → BitVec 32)

/-- The maximum of row (b, p), taken from −∞. -/
def rowMax (b : Fin 16) (p : Fin 512) : EReal :=
  (Finset.univ : Finset (Fin 32000)).fold max ⊥ (fun v => x (ix3 b p v))

/-- Σ_v exp (x_v − max). -/
def sumExp (b : Fin 16) (p : Fin 512) : EReal :=
  ∑ v : Fin 32000, Ideal.exp (x (ix3 b p v) - rowMax x b p)

/-- log Σ_v exp (x_v − max) + max. -/
def lse (b : Fin 16) (p : Fin 512) : EReal := Ideal.log (sumExp x b p) + rowMax x b p

/-- The logit at the row's label, picked out as a sum against the label's indicator over the classes. -/
def pick (b : Fin 16) (p : Fin 512) : EReal :=
  ∑ v : Fin 32000, if BitVec.ofNat 32 v.val = tg (ix2 b p) then x (ix3 b p v) else 0

/-- The row's negative log-likelihood. -/
def nll (b : Fin 16) (p : Fin 512) : EReal := lse x b p - pick x tg b p

/-- Whether position p lies before sequence b's length (a signed comparison of words), as 1 or 0. -/
def keep (b : Fin 16) (p : Fin 512) : EReal :=
  if (BitVec.ofNat 32 p.val).slt (ls (ix1 b)) then 1 else 0

/-- The masked sum over every row of the batch. -/
def total : EReal := ∑ b : Fin 16, ∑ p : Fin 512, nll x tg b p * keep ls b p

/-- The hypotheses the two sides' agreement uses: every logit a real number, every label a class index. -/
def FiniteLogits : Prop := ∀ i, x i ≠ ⊤ ∧ x i ≠ ⊥
def LabelsInRange : Prop := ∀ j, (0#32).sle (tg j) = true ∧ (tg j).slt 32000#32 = true
def LengthsBounded : Prop := ∀ k, (ls k).sle 512#32 = true

end Cert.Spec

end
-- ==== Proof.SpecRow.lean ====
/-
  The row-level quantities of the specification as functions of one row of logits and its label alone, so that they can be
  said of a row of the whole array and of a row of a block alike.
-/
import proofs.«405453_j18021682774493_3_alg».proof.Proof.Spec

noncomputable section

namespace Cert.Spec

open Idealize.ShloMosaic Idealize.ShloMosaic.ValueIdx

/-- A row's maximum from −∞, its Σ exp (· − max), its log-sum-exp, the logit at a label (as the sum against the label's
    indicator) and the negative log-likelihood. -/
def rowMaxOf (row : Fin 32000 → EReal) : EReal := (Finset.univ : Finset (Fin 32000)).fold max ⊥ row
def sumExpOf (row : Fin 32000 → EReal) : EReal := ∑ v : Fin 32000, Ideal.exp (row v - rowMaxOf row)
def lseOf (row : Fin 32000 → EReal) : EReal := Ideal.log (sumExpOf row) + rowMaxOf row
def pickOf (row : Fin 32000 → EReal) (t : BitVec 32) : EReal := ∑ v : Fin 32000, if BitVec.ofNat 32 v.val = t then row v else 0
def nllOf (row : Fin 32000 → EReal) (t : BitVec 32) : EReal := lseOf row - pickOf row t

/-- The array-level loss of row (b, p) is the row-level one of that row. -/
theorem nll_eq (x : SX.Idx → EReal) (tg : ST.Idx → BitVec 32) (b : Fin 16) (p : Fin 512) :
    nll x tg b p = nllOf (fun v => x (ix3 b p v)) (tg (ix2 b p)) := rfl

end Cert.Spec

end
-- ==== Proof.LibUnitAxes.lean ====
/-
  Layout operations that only add, drop or repeat unit axes, read at an index written by coordinates, and a
  one-axis reduction's re-inserted coordinate.  General: any element type, any extents.
-/
import Idealize.ShloMosaic.Lib.Pipeline.Value
import Idealize.ShloMosaic.Lib.ValueIdx
import Idealize.ShloMosaic.PureOps.Reduce

noncomputable section

namespace Cert.Lib

open Idealize.ShloMosaic Idealize.ShloMosaic.ValueIdx

variable {α : Type}

/-- A [1, 1, a, b] array cast to [a, b] reads, at (i, j), the operand at (0, 0, i, j): the two leading unit axes
    carry no position in the row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j), whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

/-- An [a] vector cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread back over the row: at (p, c) it is the statistic of row p. -/
theorem column_spread_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  rw [broadcastTo_a1_ab_apply, shapeCast_a_a1_apply]

/-- Reducing the second axis of [a, b]: row r's index with column k put back is (r, k). -/
theorem lift_row_col {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Cert.Lib

end
-- ==== Proof.KI.Pay.lean ====
/-
  The kernel body's arithmetic, read at one element of the block it stores.
  A tile holds 32 rows of 32000 logits and a column of 32 labels. Per row the body takes the maximum over the classes from
  −∞, the sum of the exponentials of the differences, the logarithm of that sum plus the maximum (the row's log-sum-exp),
  and the logit at the label as the sum over the classes of the logit where the class index equals the label and 0
  elsewhere; their difference is the row's negative log-likelihood. A row counts when its position in the sequence,
  tile * 32 + row, lies before the sequence's length in the signed order; the comparison's bit, widened and converted, is
  the number 1 or 0. The products are summed over the 32 rows to one number, which is added to every element of the
  (1, 8, 128) block read. The first tile of a sequence stores the zero block instead.
  Here: the words (−∞, the mask, the select on an equality); a matrix's row maximum, row sum and column sum as a fold and as
  sums over one coordinate; the layout of a single number spread over a block; and the two payloads at an index.
-/
import proofs.«405453_j18021682774493_3_alg».proof.Proof.Gen.KernelIdeal.Skeleton
import proofs.«405453_j18021682774493_3_alg».proof.Proof.SpecRow
import proofs.«405453_j18021682774493_3_alg».proof.Proof.LibUnitAxes
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## Words -/

/-- The word 0xFF800000 denotes −∞. -/
theorem negInf_f32 : Ideal.ofBits .f32 0xFF800000#32 = ⊥ := by simp [Ideal.ofBits, Ideal.ieee]

/-- A signed comparison's bit, widened to a word and converted to a float, is 1 where the comparison holds and 0 where
    it does not. -/
theorem keep_word {x x' y y' : BitVec 32} (hx : x = x') (hy : y = y') :
    FloatOps.sitofp (F := Ideal) .f32 ((IntOp.cmpi .slt x y).setWidth 32) = if x'.slt y' then (1 : EReal) else 0 := by
  subst hx hy
  show (((((IntOp.cmpi .slt x y).setWidth 32).toInt : ℤ) : ℝ) : EReal) = _
  unfold IntOp.cmpi
  cases x.slt y
  · have h : ((BitVec.ofBool false).setWidth 32).toInt = 0 := by decide
    simp [h]
  · have h : ((BitVec.ofBool true).setWidth 32).toInt = 1 := by decide
    simp [h]

/-- A select on an equality of words is the `if` on that equality. -/
theorem pick_word {c c' t t' : BitVec 32} {a a' b b' : EReal} (hc : c = c') (ht : t = t') (ha : a = a') (hb : b = b') :
    Scalar.select (IntOp.cmpi .eq c t) a b = if c' = t' then a' else b' := by
  subst hc ht ha hb
  show (if BitVec.ofBool (c == t) = 1#1 then a else b) = if c = t then a else b
  by_cases h : c = t
  · have e : (c == t) = true := by simp [h]
    rw [e, if_pos h, if_pos (show BitVec.ofBool true = 1#1 by decide)]
  · have e : (c == t) = false := by simp [h]
    rw [e, if_neg h, if_neg (show ¬ BitVec.ofBool false = 1#1 by decide)]

/-! ## Pointwise operations read at an index -/

section Pointwise
variable {s : Shape}

/-- A logarithm at an index is the logarithm of the element. -/
theorem log_apply (x : FVec Ideal s .f32) (i : s.Idx) : Idealize.ShloMosaic.log x i = Ideal.log (x i) := rfl
/-- An exponential at an index is the exponential of the element. -/
theorem exp_apply (x : FVec Ideal s .f32) (i : s.Idx) : Idealize.ShloMosaic.exp x i = Ideal.exp (x i) := rfl
/-- A sum of words at an index is the sum of the elements. -/
theorem addi_apply (x y : IVec s 32) (i : s.Idx) : addi x y i = x i + y i := rfl

/-- A select between float vectors on an equality of word vectors, at an index. -/
theorem pick_at (x y : IVec s 32) (A B : FVec Ideal s .f32) (i : s.Idx) {c' t' : BitVec 32} {a' b' : EReal}
    (hc : x i = c') (ht : y i = t') (ha : A i = a') (hb : B i = b') :
    select (cmpi .eq x y) A B i = if c' = t' then a' else b' := pick_word hc ht ha hb

/-- A signed comparison of word vectors, widened and converted to a float vector, at an index. -/
theorem keep_at (x y : IVec s 32) (h : 1 < 32) (i : s.Idx) {x' y' : BitVec 32} (hx : x i = x') (hy : y i = y') :
    (sitofp .f32 (extui 32 (cmpi .slt x y) h) : FVec Ideal s .f32) i = if x'.slt y' then (1 : EReal) else 0 :=
  keep_word hx hy

end Pointwise

/-! ## Reductions of a matrix along one axis, and the layout of a single number -/

section Generic
variable {a b : ℕ}

/-- Reducing the first axis of [a, b]: column c's index with row k put back is (k, c). -/
theorem lift_col_row (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- The maximum of each row from −∞. -/
theorem rowMax_apply (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (q : Fin a) :
    multiReduction .maximumf [1] ⟨1, ![a]⟩ x 0xFF800000#32 h hφ hacc (ix1 q)
      = (Finset.univ : Finset (Fin b)).fold max ⊥ (fun c => x (ix2 q c)) := by
  refine (Ideal.multiReduction_maximumf_single x _ h hφ hacc (ix1 q)).trans ?_
  rw [Ideal.ofBits_def, negInf_f32]
  show (Finset.univ : Finset (Fin b)).fold max ⊥ _ = _
  congr 1
  funext k
  exact congrArg x (Cert.Lib.lift_row_col h q k)

/-- The sum of each row. -/
theorem rowSum_apply (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (q : Fin a) :
    multiReduction .add [1] ⟨1, ![a]⟩ x 0x00000000#32 h hφ hacc (ix1 q) = ∑ c : Fin b, x (ix2 q c) := by
  refine (Ideal.multiReduction_add_single x _ h hφ hacc (ix1 q)).trans ?_
  show ∑ k : Fin b, x (h.lift (ix1 q) k) = _
  exact Finset.sum_congr rfl fun k _ => congrArg x (Cert.Lib.lift_row_col h q k)

/-- The sum of each column. -/
theorem colSum_apply (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (c : Fin b) :
    multiReduction .add [0] ⟨1, ![b]⟩ x 0x00000000#32 h hφ hacc (ix1 c) = ∑ k : Fin a, x (ix2 k c) := by
  refine (Ideal.multiReduction_add_single x _ h hφ hacc (ix1 c)).trans ?_
  show ∑ k : Fin a, x (h.lift (ix1 c) k) = _
  exact Finset.sum_congr rfl fun k _ => congrArg x (lift_col_row h c k)

/-- A [1, 1] array broadcast to [a, b] reads its one entry everywhere. -/
theorem broadcastTo_11_ab_apply {α : Type} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Generic

/-! ## One row of the block -/

/-- Row q of the block's logits, viewed [32, 32000], has the row's maximum as its lane maximum. -/
theorem blockRowMax (v8 : FVec Ideal S1x32x32000 .f32) (h1 : S1x32x32000.ShapeCasts S32x32000)
    (h2 : S32x32000.Reduces [1] S32) (hφ : FKind.Formats .f32)
    (hacc : (0xFF800000#32 : BitVec 32) = FKind.maximumf.neutral .f32 hφ) (q : Fin 32) :
    multiReduction .maximumf [1] S32 (shapeCast S32x32000 v8 h1) 0xFF800000#32 h2 hφ hacc (ix1 q)
      = Cert.Spec.rowMaxOf (fun c => v8 (ix3 (0 : Fin 1) q c)) := by
  refine (rowMax_apply _ h2 hφ hacc q).trans ?_
  unfold Cert.Spec.rowMaxOf
  congr 1
  funext c
  exact shapeCast_1ab_ab_apply v8 h1 q c

/-! ## The payloads at an index -/

/-- The block the first tile of a sequence stores is zero. -/
theorem pay1_apply (j : S1x8x128.Idx) : Gen.k0_pay1 (F := Ideal) j = 0 := by
  obtain ⟨a, r, l, rfl⟩ : ∃ (a : Fin 1) (r : Fin 8) (l : Fin 128), j = ix3 a r l := ⟨j 0, j 1, j 2, eq_ix3 j⟩
  unfold Gen.k0_pay1
  refine (shapeCast_ab_1ab_apply _ _ a r l).trans ?_
  exact Ideal.ofBits_zero_f32

/-- The block a tile stores: the block it read plus, at every element, the masked sum over the tile's 32 rows of the
    row's negative log-likelihood. -/
theorem pay2_apply (arg1 : BitVec 32) (v8 : Vec Ideal S1x32x32000 .f32) (v19 : Vec Ideal S1x32x1 .i32) (v34 : BitVec 32)
    (v41 : Vec Ideal S1x8x128 .f32) (j : S1x8x128.Idx) :
    Gen.k0_pay2 (F := Ideal) arg1 v8 v19 v34 v41 j
      = v41 j + ∑ q : Fin 32, Cert.Spec.nllOf (fun v => v8 (ix3 0 q v)) (v19 (ix3 0 q 0))
          * (if (arg1 * 32#32 + BitVec.ofNat 32 q.val).slt v34 then (1 : EReal) else 0) := by
  obtain ⟨a, r, l, rfl⟩ : ∃ (a : Fin 1) (r : Fin 8) (l : Fin 128), j = ix3 a r l := ⟨j 0, j 1, j 2, eq_ix3 j⟩
  obtain rfl : a = 0 := Subsingleton.elim _ _
  unfold Gen.k0_pay2
  -- the stored block at (0, r, l) is the sum, at (r, l), of the block read and the spread number
  refine (shapeCast_ab_1ab_apply _ _ (0 : Fin 1) r l).trans ?_
  refine (addf_apply _ _ _).trans ?_
  refine congrArg₂ (· + ·) (shapeCast_1ab_ab_apply v41 _ r l) ?_
  -- the spread number is the one entry of the column sum
  refine (broadcastTo_11_ab_apply _ _ r l).trans ?_
  rw [shapeCast_self]
  refine (Cert.Lib.shapeCast_a_a1_apply _ _ (0 : Fin 1) (0 : Fin 1)).trans ?_
  refine (colSum_apply _ _ _ _ (0 : Fin 1)).trans ?_
  refine Finset.sum_congr rfl fun q _ => ?_
  -- row q: the loss times the mask
  refine (mulf_apply _ _ _).trans ?_
  refine congrArg₂ (· * ·) ?_ ?_
  · -- the loss: log-sum-exp less the logit at the label
    refine (subf_apply _ _ _).trans ?_
    unfold Cert.Spec.nllOf
    refine congrArg₂ (· - ·) ?_ ?_
    · refine (addf_apply _ _ _).trans ?_
      unfold Cert.Spec.lseOf
      refine congrArg₂ (· + ·) ?_ ?_
      · refine (log_apply _ _).trans (congrArg Ideal.log ?_)
        refine (Cert.Lib.shapeCast_a_a1_apply _ _ q (0 : Fin 1)).trans ?_
        refine (rowSum_apply _ _ _ _ q).trans ?_
        unfold Cert.Spec.sumExpOf
        refine Finset.sum_congr rfl fun c _ => ?_
        refine (exp_apply _ _).trans (congrArg Ideal.exp ?_)
        refine (subf_apply _ _ _).trans (congrArg₂ (· - ·) (shapeCast_1ab_ab_apply v8 _ q c) ?_)
        refine (Cert.Lib.column_spread_apply _ _ _ q c).trans ?_
        exact blockRowMax v8 _ _ _ _ q
      · refine (Cert.Lib.shapeCast_a_a1_apply _ _ q (0 : Fin 1)).trans ?_
        exact blockRowMax v8 _ _ _ _ q
    · refine (Cert.Lib.shapeCast_a_a1_apply _ _ q (0 : Fin 1)).trans ?_
      refine (rowSum_apply _ _ _ _ q).trans ?_
      unfold Cert.Spec.pickOf
      refine Finset.sum_congr rfl fun c _ => ?_
      refine pick_at _ _ _ _ _ ?_ ?_ (shapeCast_1ab_ab_apply v8 _ q c) Ideal.ofBits_zero_f32
      · exact iota_single_apply .tc S32x32000 32 1 _ (ix2 q c)
      · refine (Cert.Lib.broadcastTo_a1_ab_apply _ _ q c).trans ?_
        exact shapeCast_1ab_ab_apply v19 _ q (0 : Fin 1)
  · -- the mask: the row's position in the sequence, compared with the length
    refine keep_at _ _ _ _ ?_ rfl
    refine (addi_apply _ _ _).trans (congrArg (arg1 * 32#32 + ·) ?_)
    exact iota_single_apply .tc S32x1 32 0 _ (ix2 q (0 : Fin 1))

end Cert.KernelIdeal.Pay

end
-- ==== Proof.KI.Tiles.lean ====
/-
  The tile count's arithmetic, on 32-bit words, and the two prefetched tables read off the host lines.
  @main computes per sequence nblk = min(⌊(len + 32 − 1) / 32⌋, 16), the floor division spelled as the quotient rounded
  toward zero, lowered by one when the operands' signs differ and the remainder is not zero. Here: that word function and
  its value as an integer for a length of at most 512; the lengths' table is the argument array and the counts' table is
  the word function of it, entry by entry; a tile below the count is its own row block; a tile at or past the count has
  every row at or past the length.
-/
import proofs.«405453_j18021682774493_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The words -/

/-- The floor division by 32 of a word, spelled as the host program composes it: the quotient rounded toward zero,
    lowered by one when the operands' signs differ and the remainder is not zero. -/
def floorDiv32 (v : BitVec 32) : BitVec 32 :=
  Scalar.select
    (IntOp.andi
      (IntOp.cmpi .ne (if v = 0 then (0 : BitVec 32) else if v.msb then -1 else 1)
        (if (32#32 : BitVec 32) = 0 then (0 : BitVec 32) else if (32#32 : BitVec 32).msb then -1 else 1))
      (IntOp.cmpi .ne (IntOp.remsi .host v 32#32) 0#32))
    (IntOp.subi (IntOp.divsi .host v 32#32) 1#32) (IntOp.divsi .host v 32#32)

/-- The tile count of a length, as @main computes it: min(⌊(l + 32 − 1) / 32⌋, 16). -/
def nblkOf (l : BitVec 32) : BitVec 32 :=
  IntOp.minsi (floorDiv32 (IntOp.subi (IntOp.addi l 32#32) 1#32)) 16#32

/-- An integer inside the signed 32-bit range is its own balanced residue modulo 2³². -/
theorem bmod32 (a : Int) (h1 : -2147483648 ≤ a) (h2 : a < 2147483648) : a.bmod (2 ^ 32) = a := by
  rw [Int.bmod_def]; split <;> omega

theorem toInt_ofNat_small (n : Nat) (hn : n < 2147483648) : (BitVec.ofNat 32 n).toInt = n := by
  rw [BitVec.toInt_ofNat', bmod32] <;> omega

/-- l + 32 − 1 does not wrap for a length of at most 512 (and at least −2³¹). -/
theorem v4_toInt (l : BitVec 32) (hl : l.toInt ≤ 512) :
    (IntOp.subi (IntOp.addi l 32#32) 1#32).toInt = l.toInt + 31 := by
  have hlo := BitVec.le_toInt l
  unfold IntOp.subi IntOp.addi
  rw [BitVec.toInt_sub, BitVec.toInt_add]
  have e32 : (32#32 : BitVec 32).toInt = 32 := by decide
  have e1 : (1#32 : BitVec 32).toInt = 1 := by decide
  rw [e32, e1, bmod32 (l.toInt + 32) (by omega) (by omega), bmod32 _ (by omega) (by omega)]
  omega

/-- The conjunction of two "not equal" words is 1 exactly when both inequalities hold. -/
theorem cond_word (s r : BitVec 32) :
    (IntOp.andi (IntOp.cmpi .ne s 1#32) (IntOp.cmpi .ne r 0#32) = 1) ↔ (s ≠ 1#32 ∧ r ≠ 0#32) := by
  unfold IntOp.andi IntOp.cmpi
  show (BitVec.ofBool (s != 1#32) &&& BitVec.ofBool (r != 0#32) = 1) ↔ _
  by_cases hs : s = 1#32
  · subst hs
    have h0 : ((1#32 : BitVec 32) != 1#32) = false := by decide
    rw [h0]; constructor
    · intro h; exact absurd h (by cases (r != 0#32) <;> decide)
    · intro h; exact absurd rfl h.1
  · have h1 : (s != 1#32) = true := bne_iff_ne.mpr hs
    rw [h1]
    by_cases hr : r = 0#32
    · subst hr; constructor
      · intro h; exact absurd h (by decide)
      · intro h; exact absurd rfl h.2
    · have h2 : (r != 0#32) = true := bne_iff_ne.mpr hr
      rw [h2]; exact ⟨fun _ => ⟨hs, hr⟩, fun _ => by decide⟩

/-- The sign word of v differs from 1 exactly when v ≤ 0. -/
theorem sign_ne_one (v : BitVec 32) :
    (if v = 0 then (0 : BitVec 32) else if v.msb then -1 else 1) ≠ 1#32 ↔ v.toInt ≤ 0 := by
  by_cases hv0 : v = 0
  · subst hv0; rw [if_pos rfl]; constructor
    · intro _; decide
    · intro _; decide
  · rw [if_neg hv0]
    have hne : v.toInt ≠ 0 := fun h => hv0 (BitVec.eq_of_toInt_eq (by rw [h]; rfl))
    by_cases hmsb : v.msb = true
    · rw [if_pos hmsb]
      have := BitVec.toInt_neg_of_msb_true hmsb
      constructor
      · intro _; omega
      · intro _; decide
    · rw [if_neg hmsb]
      have := BitVec.toInt_nonneg_of_msb_false (by simpa using hmsb : v.msb = false)
      constructor
      · intro h; exact absurd rfl h
      · intro h; omega

/-- The floor division by 32, as the host lines compute it, is the integer floor. -/
theorem floorDiv32_toInt (v : BitVec 32) : (floorDiv32 v).toInt = v.toInt / 32 := by
  unfold floorDiv32
  have hsy : (if (32#32 : BitVec 32) = 0 then (0 : BitVec 32) else if (32#32 : BitVec 32).msb then -1 else 1) = 1#32 := by decide
  have hnc : ¬ IntOp.SDivCorner v 32#32 := by
    unfold IntOp.SDivCorner; intro h; rcases h with h | ⟨_, h⟩ <;> exact absurd h (by decide)
  have hd : IntOp.divsi .host v 32#32 = v.sdiv 32#32 := by unfold IntOp.divsi; rw [if_neg hnc]
  have hr : IntOp.remsi .host v 32#32 = v.srem 32#32 := by unfold IntOp.remsi; rw [if_neg hnc]
  have e32 : (32#32 : BitVec 32).toInt = 32 := by decide
  have e1 : (1#32 : BitVec 32).toInt = 1 := by decide
  have hdI : (v.sdiv 32#32).toInt = v.toInt.tdiv 32 := by
    rw [BitVec.toInt_sdiv_of_ne_or_ne _ _ (Or.inr (by decide)), e32]
  have hrI : (v.srem 32#32).toInt = v.toInt.tmod 32 := by rw [BitVec.toInt_srem, e32]
  have hlo := BitVec.le_toInt v
  have hhi := @BitVec.toInt_lt 32 v
  have hdm := Int.mul_tdiv_add_tmod v.toInt 32
  have hpos : 0 ≤ v.toInt → 0 ≤ v.toInt.tmod 32 ∧ v.toInt.tmod 32 < 32 := fun h =>
    ⟨Int.tmod_nonneg 32 h, Int.tmod_lt_of_pos _ (by omega)⟩
  have hneg : v.toInt ≤ 0 → -32 < v.toInt.tmod 32 ∧ v.toInt.tmod 32 ≤ 0 := fun h => by
    have h1 := Int.tmod_nonneg (32 : Int) (show (0 : Int) ≤ -v.toInt by omega)
    have h2 := Int.tmod_lt_of_pos (-v.toInt) (show (0 : Int) < 32 by omega)
    rw [Int.neg_tmod] at h1 h2; omega
  have hr0 : (v.srem 32#32 ≠ 0#32) ↔ v.toInt.tmod 32 ≠ 0 := by
    rw [← hrI]; constructor
    · intro h h'; exact h (BitVec.eq_of_toInt_eq (by rw [h']; rfl))
    · intro h h'; exact h (by rw [h']; rfl)
  rw [hsy, hd, hr]
  generalize v.toInt.tdiv 32 = q at hdI hdm
  generalize v.toInt.tmod 32 = t at hrI hdm hpos hneg hr0
  unfold Scalar.select
  by_cases hc : (if v = 0 then (0 : BitVec 32) else if v.msb then -1 else 1) ≠ 1#32 ∧ v.srem 32#32 ≠ 0#32
  · rw [if_pos ((cond_word _ _).mpr hc)]
    have hs := (sign_ne_one v).mp hc.1
    have ht := hr0.mp hc.2
    have := hneg hs
    unfold IntOp.subi
    rw [BitVec.toInt_sub, hdI, e1, bmod32 _ (by omega) (by omega)]; omega
  · rw [if_neg (fun h => hc ((cond_word _ _).mp h)), hdI]
    by_cases hs : v.toInt ≤ 0
    · have ht : t = 0 := by
        by_cases h : t = 0
        · exact h
        · exact absurd ⟨(sign_ne_one v).mpr hs, hr0.mpr h⟩ hc
      omega
    · have := hpos (by omega); omega

/-- The tile count of a length of at most 512, as an integer: min(⌊(l + 31) / 32⌋, 16). -/
theorem nblkOf_toInt (l : BitVec 32) (hl : l.toInt ≤ 512) :
    (nblkOf l).toInt = min ((l.toInt + 31) / 32) 16 := by
  unfold nblkOf IntOp.minsi
  have h := floorDiv32_toInt (IntOp.subi (IntOp.addi l 32#32) 1#32)
  rw [v4_toInt l hl] at h
  have e16 : (16#32 : BitVec 32).toInt = 16 := by decide
  by_cases hs : (floorDiv32 (IntOp.subi (IntOp.addi l 32#32) 1#32)).slt 16#32 = true
  · rw [if_pos hs]; rw [BitVec.slt_iff_toInt_lt, e16] at hs; omega
  · rw [if_neg hs]; rw [BitVec.slt_iff_toInt_lt, e16] at hs; omega

/-- A tile below the count is its own row block: min(t, max(w − 1, 0)) = t when t <s w. -/
theorem clamp_eq (n : ℕ) (hn : n < 16) (w : BitVec 32) (h : (BitVec.ofNat 32 n).slt w = true) :
    Scalar.minsi (BitVec.ofNat 32 n) (Scalar.maxsi (Scalar.subi w 1#32) 0#32) = BitVec.ofNat 32 n := by
  have hx := toInt_ofNat_small n (by omega)
  generalize BitVec.ofNat 32 n = x at hx h ⊢
  rw [BitVec.slt_iff_toInt_lt] at h
  have hhi := @BitVec.toInt_lt 32 w
  have e1 : (1#32 : BitVec 32).toInt = 1 := by decide
  have hw1 : (w - 1#32).toInt = w.toInt - 1 := by
    rw [BitVec.toInt_sub, e1, bmod32 _ (by omega) (by omega)]
  unfold Scalar.minsi Scalar.maxsi Scalar.subi IntOp.minsi IntOp.maxsi IntOp.subi
  by_cases h1 : (0#32 : BitVec 32).slt (w - 1#32) = true
  · rw [if_pos h1]
    by_cases h2 : x.slt (w - 1#32) = true
    · rw [if_pos h2]
    · rw [if_neg h2]; rw [BitVec.slt_iff_toInt_lt] at h2
      apply BitVec.eq_of_toInt_eq; omega
  · rw [if_neg h1]
    rw [BitVec.slt_iff_toInt_lt, BitVec.toInt_zero] at h1
    by_cases h2 : x.slt 0#32 = true
    · rw [if_pos h2]
    · rw [if_neg h2]
      apply BitVec.eq_of_toInt_eq; rw [BitVec.toInt_zero]; omega

/-- A tile at or past the count has every row at or past the length: from min(⌊(l + 31) / 32⌋, 16) ≤ t ≤ 15 follows
    l ≤ 32 t, and 32 t + q does not wrap. -/
theorem not_counted_masked (l : BitVec 32) (hl : l.sle 512#32 = true) (n : ℕ) (hn : n < 16)
    (h : ¬ (BitVec.ofNat 32 n).slt (nblkOf l) = true) (q : ℕ) (hq : q < 32) :
    ¬ (BitVec.ofNat 32 n * 32#32 + BitVec.ofNat 32 q).slt l = true := by
  have e512 : (512#32 : BitVec 32).toInt = 512 := by decide
  have e32 : (32#32 : BitVec 32).toInt = 32 := by decide
  rw [BitVec.sle_iff_toInt_le, e512] at hl
  rw [BitVec.slt_iff_toInt_lt, toInt_ofNat_small n (by omega), nblkOf_toInt l hl] at h
  have hs : (BitVec.ofNat 32 n * 32#32 + BitVec.ofNat 32 q).toInt = (n : Int) * 32 + q := by
    rw [BitVec.toInt_add, BitVec.toInt_mul, toInt_ofNat_small n (by omega), toInt_ofNat_small q (by omega), e32,
      bmod32 ((n : Int) * 32) (by omega) (by omega), bmod32 _ (by omega) (by omega)]
  rw [BitVec.slt_iff_toInt_lt, hs]
  omega

/-- The host lines' operations on a lengths array, composed, are the tile count entry by entry. -/
theorem tiles_vec (a : IVec S16 32) :
    (minsi
      (select
        (andi
          (cmpi .ne
            (signi (subi (addi a (broadcastInDim S16 ![] bcast_S_S16 (constantI S_ 32 32#32)))
              (broadcastInDim S16 ![] bcast_S_S16 (constantI S_ 32 1#32))))
            (broadcastInDim S16 ![] bcast_S_S16 (signi (id (constantI S_ 32 32#32)))))
          (cmpi .ne
            (Host.remsi (subi (addi a (broadcastInDim S16 ![] bcast_S_S16 (constantI S_ 32 32#32)))
                (broadcastInDim S16 ![] bcast_S_S16 (constantI S_ 32 1#32)))
              (broadcastInDim S16 ![] bcast_S_S16 (id (constantI S_ 32 32#32))))
            (broadcastInDim S16 ![] bcast_S_S16 (constantI S_ 32 0#32))))
        (subi
          (Host.divsi (subi (addi a (broadcastInDim S16 ![] bcast_S_S16 (constantI S_ 32 32#32)))
              (broadcastInDim S16 ![] bcast_S_S16 (constantI S_ 32 1#32)))
            (broadcastInDim S16 ![] bcast_S_S16 (id (constantI S_ 32 32#32))))
          (broadcastInDim S16 ![] bcast_S_S16 (constantI S_ 32 1#32)))
        (Host.divsi (subi (addi a (broadcastInDim S16 ![] bcast_S_S16 (constantI S_ 32 32#32)))
            (broadcastInDim S16 ![] bcast_S_S16 (constantI S_ 32 1#32)))
          (broadcastInDim S16 ![] bcast_S_S16 (id (constantI S_ 32 32#32)))))
      (broadcastInDim S16 ![] bcast_S_S16 (constantI S_ 32 16#32)) : IVec S16 32)
    = fun k => nblkOf (a k) := by
  funext k; rfl

/-! ## The tables read off the host lines -/

variable (m : (ℓ : Loc nD τ sig) → Buf (Elt F) ℓ)

/-- The lengths' table is the argument array: no host line writes it. -/
theorem tbl0_eq : tbl (F := F) m 0 = m (((0 : Dev nD) : Thread nD τ).loc main_arg2) := by
  unfold tbl
  show V m 0 main_arg2 = _
  dsimp only [V, V0]
  simp only [hostOps0, hostOps0_1, hostOps0_2, List.flatten_cons, List.flatten_nil, List.append_nil, List.cons_append,
    List.nil_append]
  after_results

/-- The counts' table, as a whole array: the host lines' operations composed over the lengths (the typed references'
    transports are identities at literal references). -/
theorem tbl1_eq :
    (tbl (F := F) m 1 : S16.Idx → BitVec 32)
      = fun k => nblkOf ((m (((0 : Dev nD) : Thread nD τ).loc main_arg2) : S16.Idx → BitVec 32) k) := by
  unfold tbl
  show V m 0 main_v7 = _
  dsimp only [V, V0]
  simp only [hostOps0, hostOps0_1, hostOps0_2, List.flatten_cons, List.flatten_nil, List.append_nil, List.cons_append,
    List.nil_append]
  after_results
  simp only [StableHlo.TRef.toBuf, StableHlo.TRef.ofBuf, cast_eq]
  exact tiles_vec _

/-- The counts' table at a sequence is the tile count of its length. -/
theorem tbl1_apply (k : S16.Idx) :
    tbl (F := F) m 1 k = nblkOf (m (((0 : Dev nD) : Thread nD τ).loc main_arg2) k) :=
  congrFun (tbl1_eq m) k

end Cert.KernelIdeal.Hand

end
-- ==== Proof.KI.Blocks.lean ====
/-
  The input blocks read at an index.
  At point t = (b, t') of the 16 × 16 grid the logits' block (1, 32, 32000) and the labels' block (1, 32, 1) sit at block
  index (b, r, 0), r = min(t', max(nblk[b] − 1, 0)) the row block. A block's coordinate in its array is always block index ×
  block size + the coordinate inside the block, so element (0, q, v) of the logits' block is the logits at (b, 32 r + q, v),
  and element (0, q, 0) of the labels' block is the labels' column at (b, 32 r + q, 0), which the first host line made from
  the labels by adding a trailing unit axis: the label at (b, 32 r + q).
  The two block reads are proved at arbitrary contents of the tables and instantiated at the region's tables last.
-/
import proofs.«405453_j18021682774493_3_alg».proof.Proof.KI.Traj
import proofs.«405453_j18021682774493_3_alg».proof.Proof.KI.Frame
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The row block -/

/-- The row block of point t: min(t % 16, max(nblk[b] − 1, 0)) read unsigned, nblk[b] the word the index maps load from table 1. -/
def rowBlk (c : Dev nD) (t : Fin (cfgM m).N) : ℕ :=
  (Scalar.minsi (BitVec.ofNat 32 ((grid0.coords t) 1).val) (Scalar.maxsi (Scalar.subi (word1 c (tbl m 1) (grid0.coords t)) 1#32) 0#32)).toNat

theorem rowBlk_le (c : Dev nD) (t : Fin (cfgM m).N) : rowBlk m c t ≤ 15 :=
  rowBlock_le _ (coord1_lt (grid0.coords t)) _

/-- The middle component of the logits' and of the labels' index map at any tables: the clamped tile, the tile count being
    the word the body loads. -/
theorem transform_0_row (pf : pre0.Contents (Elt F)) (c : Dev nD) (i : grid0.Coords) :
    cc0_transform_0 k0_off1_inb numel1_S1 pf i 1
      = (Scalar.minsi (BitVec.ofNat 32 (i 1).val) (Scalar.maxsi (Scalar.subi (word1 c (pf 1) i) 1#32) 0#32)).toNat := rfl
theorem transform_1_row (pf : pre0.Contents (Elt F)) (c : Dev nD) (i : grid0.Coords) :
    cc0_transform_1 k0_off1_inb numel1_S1 pf i 1
      = (Scalar.minsi (BitVec.ofNat 32 (i 1).val) (Scalar.maxsi (Scalar.subi (word1 c (pf 1) i) 1#32) 0#32)).toNat := rfl

/-! ## A block read at an index, at any tables -/

/-- An element (0, q, v) of the logits' block at point t is the array's element (b, 32 r + q, v), r the row block there:
    on each axis the array coordinate is block index × block size + the coordinate inside the block. -/
theorem blk0_read (a : (pcfg0 (F := F)).Adm) (c : Dev nD) (A : Buf (Elt F) ((c : Thread nD τ).loc main_arg0)) (t : Fin (cfg0 a).N)
    (q : Fin 32) (v : Fin 32000) (r : ℕ) (hr : cc0_transform_0 k0_off1_inb numel1_S1 a.1 (grid0.coords t) 1 = r) (hr15 : r ≤ 15) :
    (((cfg0 a).win 0).blk t).view.read (Elt F) A (ix3 0 q v)
      = (A : S16x512x32000.Idx → Elt F .f32) (ix3 ⟨((grid0.coords t) 0).val, coord0_lt _⟩ ⟨32 * r + q.val, by have := q.isLt; omega⟩ v) := by
  show A ((((cfg0 a).win 0).blk t).view.emb (ix3 0 q v)) = _
  refine congrArg A ?_
  funext ax; apply Fin.ext
  match ax with
  | ⟨0, _⟩ =>
    show (BitVec.ofNat 32 ((grid0.coords t) 0).val).toNat * 1 + 1 * 0 = ((grid0.coords t) 0).val
    have := coord0_lt (grid0.coords t); simp only [BitVec.toNat_ofNat]; omega
  | ⟨1, _⟩ =>
    show cc0_transform_0 k0_off1_inb numel1_S1 a.1 (grid0.coords t) 1 * 32 + 1 * q.val = 32 * r + q.val
    rw [hr]; omega
  | ⟨2, _⟩ =>
    show 0 * 32000 + 1 * v.val = v.val; omega

/-- The same for the labels' column: element (0, q, 0) of the block is the column's element (b, 32 r + q, 0). -/
theorem blk1_read (a : (pcfg0 (F := F)).Adm) (c : Dev nD) (A : Buf (Elt F) ((c : Thread nD τ).loc main_v0)) (t : Fin (cfg0 a).N)
    (q : Fin 32) (r : ℕ) (hr : cc0_transform_1 k0_off1_inb numel1_S1 a.1 (grid0.coords t) 1 = r) (hr15 : r ≤ 15) :
    (((cfg0 a).win 1).blk t).view.read (Elt F) A (ix3 0 q 0)
      = (A : S16x512x1.Idx → Elt F .i32) (ix3 ⟨((grid0.coords t) 0).val, coord0_lt _⟩ ⟨32 * r + q.val, by have := q.isLt; omega⟩ 0) := by
  show A ((((cfg0 a).win 1).blk t).view.emb (ix3 0 q 0)) = _
  refine congrArg A ?_
  funext ax; apply Fin.ext
  match ax with
  | ⟨0, _⟩ =>
    show (BitVec.ofNat 32 ((grid0.coords t) 0).val).toNat * 1 + 1 * 0 = ((grid0.coords t) 0).val
    have := coord0_lt (grid0.coords t); simp only [BitVec.toNat_ofNat]; omega
  | ⟨1, _⟩ =>
    show cc0_transform_1 k0_off1_inb numel1_S1 a.1 (grid0.coords t) 1 * 32 + 1 * q.val = 32 * r + q.val
    rw [hr]; omega
  | ⟨2, _⟩ =>
    show 0 * 1 + 1 * 0 = 0; omega

/-! ## The labels' column, written by the first host line -/

/-- When the region is entered the labels' column is the broadcast of the labels to a trailing unit axis. -/
theorem V_main_v0 (c : Dev nD) :
    (V m c main_v0 : S16x512x1.Idx → Elt F .i32)
      = broadcastInDim S16x512x1 ![0, 1] bcast_S16x512_S16x512x1_0_1 (m ((c : Thread nD τ).loc main_arg1)) := by
  dsimp only [V, V0]
  simp only [hostOps0, hostOps0_1, hostOps0_2, List.flatten_cons, List.flatten_nil, List.append_nil, List.cons_append, List.nil_append]
  after_results

/-- The column at (b, p, 0) is the label at (b, p). -/
theorem column_apply (x : S16x512.Idx → Elt F .i32) (b : Fin 16) (p : Fin 512) :
    broadcastInDim S16x512x1 ![0, 1] bcast_S16x512_S16x512x1_0_1 x (ix3 b p 0) = x (ix2 b p) :=
  broadcastInDim_apply _ _ x (ix3 b p 0) (ix2 b p) fun a => by
    match a with
    | ⟨0, _⟩ => rfl
    | ⟨1, _⟩ => rfl

/-! ## The blocks at the tables the region finds -/

theorem iblk0_apply (c : Dev nD) (t : Fin (cfgM m).N) (q : Fin 32) (v : Fin 32000) :
    iblk m c 0 t (ix3 0 q v)
      = (m ((c : Thread nD τ).loc main_arg0) : S16x512x32000.Idx → Elt F .f32)
          (ix3 ⟨((grid0.coords t) 0).val, coord0_lt _⟩ ⟨32 * rowBlk m c t + q.val, by have := rowBlk_le m c t; have := q.isLt; omega⟩ v) := by
  rw [← V_main_arg0 m c]
  exact blk0_read (adm m) c (V m c main_arg0) t q v (rowBlk m c t) (transform_0_row (tbl m) c (grid0.coords t)) (rowBlk_le m c t)

theorem iblk1_apply (c : Dev nD) (t : Fin (cfgM m).N) (q : Fin 32) :
    iblk m c 1 t (ix3 0 q 0)
      = (m ((c : Thread nD τ).loc main_arg1) : S16x512.Idx → Elt F .i32)
          (ix2 ⟨((grid0.coords t) 0).val, coord0_lt _⟩ ⟨32 * rowBlk m c t + q.val, by have := rowBlk_le m c t; have := q.isLt; omega⟩) := by
  refine (blk1_read (adm m) c (V m c main_v0) t q (rowBlk m c t) (transform_1_row (tbl m) c (grid0.coords t)) (rowBlk_le m c t)).trans ?_
  rw [V_main_v0 m c]
  exact column_apply _ _ _

end Cert.KernelIdeal.Hand

end
-- ==== Proof.KI.Value.lean ====
/-
  The value of the idealized kernel's program: the scalar it ends with is the specification's masked sum of row losses.
  Along a sequence b the output's buffer holds, after tile k, the sum over the tiles t ≤ k that are counted of the tile's
  masked loss (an induction over the points of the sequence); a counted tile's block is rows 32 t … 32 t + 31 of the
  sequence, and a tile that is not counted has all its rows at or past the sequence's length, so its masked loss is zero
  anyway; the sixteen tiles' rows are the sequence's 512 rows.
-/
import proofs.«405453_j18021682774493_3_alg».proof.Proof.KI.Traj
import proofs.«405453_j18021682774493_3_alg».proof.Proof.KI.Pay
import proofs.«405453_j18021682774493_3_alg».proof.Proof.KI.Tiles
import proofs.«405453_j18021682774493_3_alg».proof.Proof.KI.Blocks
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The logits' and the labels' blocks at a point, at their literal types. -/
abbrev xblk (c : Dev nD) (t : Fin (cfgM m).N) : Vec Ideal S1x32x32000 .f32 := iblk m c 0 t
abbrev tblk (c : Dev nD) (t : Fin (cfgM m).N) : Vec Ideal S1x32x1 .i32 := iblk m c 1 t

/-- A tile's masked loss: over its 32 rows, the row's loss times whether the row's position lies before the length. -/
def tileSum (c : Dev nD) (t : Fin (cfgM m).N) : EReal :=
  ∑ q : Fin 32, Cert.Spec.nllOf (fun v => xblk m c t (ix3 0 q v)) (tblk m c t (ix3 0 q 0))
    * (if (BitVec.ofNat 32 ((grid0.coords t) 1).val * 32#32 + BitVec.ofNat 32 q.val).slt (word0 c (tbl m 0) (grid0.coords t)) then (1 : EReal) else 0)

theorem addTile_apply (c : Dev nD) (t : Fin (cfgM m).N) (prev : Vec Ideal S1x8x128 .f32) (j : S1x8x128.Idx) :
    addTile m c t prev j = prev j + tileSum m c t :=
  Pay.pay2_apply _ _ _ _ _ j

theorem N_eq : (cfgM m).N = 256 := N_0

/-- A tile's term in a sequence's sum, by position. -/
def term (c : Dev nD) (n : ℕ) : EReal :=
  if h : n < (cfgM m).N then (if Counted m c ⟨n, h⟩ then tileSum m c ⟨n, h⟩ else 0) else 0

theorem outsAt_congr (c : Dev nD) {n n' : ℕ} (e : n = n') (h : n < (cfgM m).N) (h' : n' < (cfgM m).N) :
    outsAt m c n h = outsAt m c n' h' := by subst e; rfl

/-- After tile k of sequence b the output's buffer holds, at every index, the counted tiles' masked losses so far. -/
theorem outsAt_seq (c : Dev nD) (b : ℕ) (hb : b < 16) (j : S1x8x128.Idx) :
    ∀ (k : ℕ) (hk : k < 16) (h : 16 * b + k < (cfgM m).N),
      outsAt m c (16 * b + k) h j = ∑ i ∈ Finset.range (k + 1), term m c (16 * b + i)
  | 0, _, h => by
    have h1 : k0_cond1 (grid0.coords (⟨16 * b + 0, h⟩ : Fin (cfgM m).N)) = 1#1 := (hcond1 ⟨16 * b + 0, h⟩).mpr (by show (16 * b + 0) % 16 = 0; omega)
    rw [Finset.sum_range_one]
    have e := outsAt_first m c ⟨16 * b + 0, h⟩ h1
    rw [show outsAt m c (16 * b + 0) h = outsAt m c (⟨16 * b + 0, h⟩ : Fin (cfgM m).N).val (⟨16 * b + 0, h⟩ : Fin (cfgM m).N).isLt from rfl, e]
    unfold term; rw [dif_pos h]
    by_cases hc : Counted m c ⟨16 * b + 0, h⟩
    · rw [if_pos hc, if_pos hc, addTile_apply, Pay.pay1_apply, zero_add]
    · rw [if_neg hc, if_neg hc, Pay.pay1_apply]
  | k + 1, hk, h => by
    have hprev : 16 * b + k < (cfgM m).N := by have := N_eq m; omega
    have h1 : ¬ k0_cond1 (grid0.coords (⟨16 * b + (k + 1), h⟩ : Fin (cfgM m).N)) = 1#1 := fun hh => by
      have := (hcond1 ⟨16 * b + (k + 1), h⟩).mp hh
      have : (16 * b + (k + 1)) % 16 = 0 := this
      omega
    rw [Finset.sum_range_succ, ← outsAt_seq c b hb j k (by omega) hprev]
    have e := outsAt_pos m c ⟨16 * b + (k + 1), h⟩ (by show 16 * b + (k + 1) ≠ 0; omega)
    rw [show outsAt m c (16 * b + (k + 1)) h = outsAt m c (⟨16 * b + (k + 1), h⟩ : Fin (cfgM m).N).val (⟨16 * b + (k + 1), h⟩ : Fin (cfgM m).N).isLt from rfl, e]
    unfold stepAt
    rw [if_neg h1]
    rw [outsAt_congr m c (show (⟨16 * b + (k + 1), h⟩ : Fin (cfgM m).N).val - 1 = 16 * b + k from by show 16 * b + (k + 1) - 1 = 16 * b + k; omega) _ hprev]
    unfold term; rw [dif_pos h]
    by_cases hc : Counted m c ⟨16 * b + (k + 1), h⟩
    · rw [if_pos hc, if_pos hc, addTile_apply]
    · rw [if_neg hc, if_neg hc, add_zero]

/-! ## The words the body loads, and when a tile is counted -/

theorem word1_eq (c : Dev nD) (xt1 : TbBuf (F := Ideal) c tbM1) (i : grid0.Coords) :
    word1 c xt1 i = (xt1 : S16.Idx → BitVec 32) (ix1 ⟨(i 0).val, coord0_lt i⟩) := by
  show (xt1 : S16.Idx → BitVec 32) _ = _
  refine congrArg _ (funext fun a => ?_)
  match a with
  | ⟨0, _⟩ => exact Fin.ext (by show (BitVec.ofNat 32 (i 0).val).toNat = (i 0).val; have := coord0_lt i; simp only [BitVec.toNat_ofNat]; omega)

theorem word0_eq (c : Dev nD) (xt0 : TbBuf (F := Ideal) c tbM0) (i : grid0.Coords) :
    word0 c xt0 i = (xt0 : S16.Idx → BitVec 32) (ix1 ⟨(i 0).val, coord0_lt i⟩) := by
  show (xt0 : S16.Idx → BitVec 32) _ = _
  refine congrArg _ (funext fun a => ?_)
  match a with
  | ⟨0, _⟩ => exact Fin.ext (by show (BitVec.ofNat 32 (i 0).val).toNat = (i 0).val; have := coord0_lt i; simp only [BitVec.toNat_ofNat]; omega)

/-- The body's second condition is the signed comparison t < count. -/
theorem cond2_iff (i : grid0.Coords) (w : BitVec 32) : k0_cond2 i w = 1#1 ↔ (BitVec.ofNat 32 (i 1).val).slt w = true := by
  unfold k0_cond2
  cases h : (BitVec.ofNat 32 (i 1).val).slt w <;> simp [Scalar.cmpi, IntOp.cmpi, Scalar.extui, h]

/-! ## A tile's term as its rows' terms -/

/-- The argument arrays, at the specification's types. -/
abbrev X (c : Dev nD) : Cert.Spec.SX.Idx → EReal := m ((c : Thread nD τ).loc main_arg0)
abbrev TG (c : Dev nD) : Cert.Spec.ST.Idx → BitVec 32 := m ((c : Thread nD τ).loc main_arg1)
abbrev LS (c : Dev nD) : Cert.Spec.SL.Idx → BitVec 32 := m ((c : Thread nD τ).loc main_arg2)

/-- A row's masked loss. -/
def rowTerm (c : Dev nD) (b : Fin 16) (p : Fin 512) : EReal :=
  Cert.Spec.nll (X m c) (TG m c) b p * Cert.Spec.keep (LS m c) b p

theorem ofNat_pos (k q : ℕ) : BitVec.ofNat 32 (32 * k + q) = BitVec.ofNat 32 k * 32#32 + BitVec.ofNat 32 q := by
  rw [BitVec.ofNat_add, BitVec.ofNat_mul, BitVec.mul_comm]

/-- The tile count the body loads at a point of sequence b is the count of b's length. -/
theorem word1_at (c : Dev nD) (t : Fin (cfgM m).N) (b : Fin 16) (hb : ((grid0.coords t) 0).val = b.val) :
    word1 c (tbl m 1) (grid0.coords t) = nblkOf (LS m c (ix1 b)) := by
  obtain rfl : c = 0 := Subsingleton.elim _ _
  exact ((word1_eq 0 (tbl m 1) (grid0.coords t)).trans (tbl1_apply m _)).trans (congrArg (fun k => nblkOf (LS m 0 (ix1 k))) (Fin.ext hb))

theorem word0_at (c : Dev nD) (t : Fin (cfgM m).N) (b : Fin 16) (hb : ((grid0.coords t) 0).val = b.val) :
    word0 c (tbl m 0) (grid0.coords t) = LS m c (ix1 b) := by
  obtain rfl : c = 0 := Subsingleton.elim _ _
  exact ((word0_eq 0 (tbl m 0) (grid0.coords t)).trans (congrFun (tbl0_eq m) _)).trans (congrArg (fun k => LS m 0 (ix1 k)) (Fin.ext hb))

theorem pt_lt (b k : Fin 16) : 16 * b.val + k.val < (cfgM m).N := by
  have := N_eq m; have := b.isLt; have := k.isLt; omega

/-- A tile that is not counted contributes nothing, and neither do its rows: each lies at or past the length. -/
theorem term_uncounted (c : Dev nD) (hls : Cert.Spec.LengthsBounded (LS m c)) (b k : Fin 16)
    (hnc : ¬ Counted m c ⟨16 * b.val + k.val, pt_lt m b k⟩) :
    term m c (16 * b.val + k.val) = ∑ q : Fin 32, rowTerm m c b ⟨32 * k.val + q.val, by have := k.isLt; have := q.isLt; omega⟩ := by
  have hb : ((grid0.coords (⟨16 * b.val + k.val, pt_lt m b k⟩ : Fin (cfgM m).N)) 0).val = b.val := by
    rw [coords0]; show (16 * b.val + k.val) / 16 = b.val; have := k.isLt; omega
  have hk : ((grid0.coords (⟨16 * b.val + k.val, pt_lt m b k⟩ : Fin (cfgM m).N)) 1).val = k.val := by
    rw [coords1]; show (16 * b.val + k.val) % 16 = k.val; have := k.isLt; omega
  unfold term; rw [dif_pos (pt_lt m b k), if_neg hnc]
  symm
  refine Finset.sum_eq_zero fun q _ => ?_
  unfold rowTerm Cert.Spec.keep
  have hn : ¬ (BitVec.ofNat 32 k.val).slt (nblkOf (LS m c (ix1 b))) = true := fun h => hnc (by
    show k0_cond2 _ _ = 1#1
    rw [cond2_iff, word1_at m c _ b hb, hk]; exact h)
  rw [if_neg (by rw [ofNat_pos]; exact not_counted_masked _ (hls (ix1 b)) k.val k.isLt hn q.val q.isLt), mul_zero]

/-- A counted tile's block is rows 32 t … 32 t + 31 of its sequence, so its masked loss is its rows' masked losses. -/
theorem term_counted (c : Dev nD) (b k : Fin 16) (hc : Counted m c ⟨16 * b.val + k.val, pt_lt m b k⟩) :
    term m c (16 * b.val + k.val) = ∑ q : Fin 32, rowTerm m c b ⟨32 * k.val + q.val, by have := k.isLt; have := q.isLt; omega⟩ := by
  have hb : ((grid0.coords (⟨16 * b.val + k.val, pt_lt m b k⟩ : Fin (cfgM m).N)) 0).val = b.val := by
    rw [coords0]; show (16 * b.val + k.val) / 16 = b.val; have := k.isLt; omega
  have hk : ((grid0.coords (⟨16 * b.val + k.val, pt_lt m b k⟩ : Fin (cfgM m).N)) 1).val = k.val := by
    rw [coords1]; show (16 * b.val + k.val) % 16 = k.val; have := k.isLt; omega
  have hslt : (BitVec.ofNat 32 k.val).slt (nblkOf (LS m c (ix1 b))) = true := by
    have := (cond2_iff _ _).mp hc
    rwa [word1_at m c _ b hb, hk] at this
  have hrow : rowBlk m c ⟨16 * b.val + k.val, pt_lt m b k⟩ = k.val := by
    unfold rowBlk
    rw [word1_at m c _ b hb, hk, clamp_eq k.val k.isLt _ hslt]
    have := k.isLt; simp only [BitVec.toNat_ofNat]; omega
  unfold term; rw [dif_pos (pt_lt m b k), if_pos hc]
  unfold tileSum
  refine Finset.sum_congr rfl fun q _ => ?_
  unfold rowTerm Cert.Spec.keep
  rw [Cert.Spec.nll_eq, word0_at m c _ b hb, hk, ofNat_pos]
  have hx : (fun v => xblk m c ⟨16 * b.val + k.val, pt_lt m b k⟩ (ix3 0 q v))
      = fun v => X m c (ix3 b (⟨32 * k.val + q.val, by have := k.isLt; have := q.isLt; omega⟩ : Fin 512) v) := by
    funext v
    refine (iblk0_apply m c _ q v).trans ?_
    refine congrArg (X m c) ?_
    refine congr (congr (congrArg ix3 (Fin.ext hb)) (Fin.ext ?_)) rfl
    show 32 * rowBlk m c _ + q.val = 32 * k.val + q.val
    rw [hrow]
  have ht : tblk m c ⟨16 * b.val + k.val, pt_lt m b k⟩ (ix3 0 q 0)
      = TG m c (ix2 b (⟨32 * k.val + q.val, by have := k.isLt; have := q.isLt; omega⟩ : Fin 512)) := by
    refine (iblk1_apply m c _ q).trans ?_
    refine congrArg (TG m c) ?_
    refine congr (congrArg ix2 (Fin.ext hb)) (Fin.ext ?_)
    show 32 * rowBlk m c _ + q.val = 32 * k.val + q.val
    rw [hrow]
  rw [hx, ht]

/-! ## The whole sum -/

theorem sum_tiles {M : Type*} [AddCommMonoid M] (f : Fin 512 → M) :
    ∑ k : Fin 16, ∑ q : Fin 32, f ⟨32 * k.val + q.val, by have := k.isLt; have := q.isLt; omega⟩ = ∑ p : Fin 512, f p := by
  rw [← Fintype.sum_prod_type']
  exact Fintype.sum_equiv (finProdFinEquiv (m := 16) (n := 32)) _ _ (fun x => congrArg f (Fin.ext (by simp [finProdFinEquiv]; omega)))

/-- What the sixteen written-back blocks hold, summed: the specification's total. -/
theorem total_eq (c : Dev nD) (hls : Cert.Spec.LengthsBounded (LS m c)) :
    ∑ b : Fin 16, outsAt m c (16 * b.val + 15) (pt_lt m b 15) (ix3 0 0 0) = Cert.Spec.total (X m c) (TG m c) (LS m c) := by
  unfold Cert.Spec.total
  refine Finset.sum_congr rfl fun b _ => ?_
  rw [outsAt_seq m c b.val b.isLt (ix3 0 0 0) 15 (by omega) (pt_lt m b 15), Finset.sum_range (fun i => term m c (16 * b.val + i))]
  rw [← sum_tiles (fun p => Cert.Spec.nll (X m c) (TG m c) b p * Cert.Spec.keep (LS m c) b p)]
  refine Finset.sum_congr rfl fun k _ => ?_
  by_cases hc : Counted m c ⟨16 * b.val + k.val, pt_lt m b k⟩
  · exact term_counted m c b k hc
  · exact term_uncounted m c hls b k hc

end Cert.KernelIdeal.Hand

end
-- ==== Proof.KI.Out.lean ====
/-
  The output array after the run, and the four host lines after the region.
  The output window's block at point t is (t / 16, 0, 0), whatever the tables hold, and it is written back exactly at the
  points t = 16 b + 15. The blocks of two such points belong to different sequences, so they are disjoint, and element
  (b, 0, 0) of the array after the run is element (0, 0, 0) of what point 16 b + 15 left in the output's buffer.
  The host lines then take the [16, 1, 1] leading corner of the array, read it as a vector of 16, and add its entries onto 0:
  over the extended reals the scalar result is the sum over the 16 sequences of element (b, 0, 0).
-/
import proofs.«405453_j18021682774493_3_alg».proof.Proof.KI.Traj
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## Two layout operations read at an index -/

/-- A [16, 1, 1] array read as a vector of 16: at b it is the array at (b, 0, 0), the unit axes carrying no position in
    the row-major order. -/
theorem cast_16x1x1_apply {α : Type} (x : S16x1x1.Idx → α) (h : S16x1x1.ShapeCasts S16) (i : S16.Idx) :
    shapeCast S16 x h i = x (ix3 (i 0) (0 : Fin 1) (0 : Fin 1)) :=
  shapeCast_apply x h _ _ (by
    rw [Shape.rowMajor_val_three, Shape.rowMajor_val_one]
    show ((i 0).val * 1 + 0) * 1 + 0 = (i 0).val
    omega)

/-- The leading [16, 1, 1] corner of a [16, 8, 128] array, read at (b, 0, 0), is the array at (b, 0, 0): the offsets
    are all zero. -/
theorem corner_apply {α : Type} (x : S16x8x128.Idx → α) (h : S16x8x128.Slices ![0, 0, 0] S16x1x1) (b : Fin 16) :
    extractStridedSlice S16x1x1 ![0, 0, 0] x h (ix3 b (0 : Fin 1) (0 : Fin 1)) = x (ix3 b (0 : Fin 8) (0 : Fin 128)) :=
  extractStridedSlice_apply _ x h _ _ fun a => by
    match a with
    | ⟨0, _⟩ => show b.val = 0 + b.val; omega
    | ⟨1, _⟩ => rfl
    | ⟨2, _⟩ => rfl

/-! ## The output window's blocks, at any tables -/

/-- The output window's block index at any tables is the printed map of the point's coordinates, -/
theorem index2 (a : (pcfg0 (F := F)).Adm) (t : Fin (cfg0 a).N) :
    ((cfg0 a).win 2).index t = cc0_transform_2 (grid0.coords t) := rfl

/-- which is (t / 16, 0, 0): the map keeps the sequence and reads nothing else. -/
theorem transform2_val : ∀ t : Fin grid0.N, cc0_transform_2 (grid0.coords t) 0 = t.val / 16
    ∧ cc0_transform_2 (grid0.coords t) 1 = 0 ∧ cc0_transform_2 (grid0.coords t) 2 = 0 := by decide +kernel

/-- An index of the output array under point t's block has first coordinate t / 16: on that axis the block has extent 1
    and sits at offset t / 16. -/
theorem mem_blk2 (a : (pcfg0 (F := F)).Adm) (t : Fin (cfg0 a).N) (i : S16x8x128.Idx)
    (hi : i ∈ (((cfg0 a).win 2).blk t).view.set) : (i 0).val = t.val / 16 := by
  have hi' : i ∈ (((cfg0 a).win 2).rect t).set :=
    (Finset.ext_iff.mp (View.set_slice_whole main_v8 (((cfg0 a).win 2).rect t)) i).mp hi
  have h0 : cc0_transform_2 (grid0.coords t) 0 * 1 ≤ (i 0).val ∧ (i 0).val < cc0_transform_2 (grid0.coords t) 0 * 1 + 1 :=
    Rect.mem_set_unit.mp hi' (0 : Fin 3)
  have e0 := (transform2_val t).1
  omega

/-- The blocks two different flushing points write back are disjoint: both points are last tiles (t % 16 = 15), so being
    different they have different sequences t / 16, and an index under both blocks would have both as first coordinate. -/
theorem disj2 (a : (pcfg0 (F := F)).Adm) (t t' : Fin (cfg0 a).N) (hf : ((cfg0 a).win 2).flush t = true)
    (hf' : ((cfg0 a).win 2).flush t' = true) (hne : t ≠ t') :
    Disjoint (((cfg0 a).win 2).blk t).view.set (((cfg0 a).win 2).blk t').view.set := by
  rw [flush2 a t, decide_eq_true_iff] at hf
  rw [flush2 a t', decide_eq_true_iff] at hf'
  rw [Finset.disjoint_left]
  intro i hi hi'
  have h1 := mem_blk2 a t i hi
  have h2 := mem_blk2 a t' i hi'
  exact hne (Fin.ext (by omega))

/-- Element (0, 0, 0) of the block at point 16 b + 15 sits at (b, 0, 0) of the array: block index times block size plus
    the element's own coordinate, on each axis. -/
theorem emb2 (a : (pcfg0 (F := F)).Adm) (t : Fin (cfg0 a).N) (b : Fin 16) (ht : t.val = 16 * b.val + 15) :
    (((cfg0 a).win 2).blk t).view.emb (ix3 (0 : Fin 1) (0 : Fin 8) (0 : Fin 128)) = ix3 b (0 : Fin 8) (0 : Fin 128) := by
  obtain ⟨e0, e1, e2⟩ := transform2_val t
  funext ax; apply Fin.ext
  match ax with
  | ⟨0, _⟩ => show cc0_transform_2 (grid0.coords t) 0 * 1 + 1 * 0 = b.val; rw [e0, ht]; omega
  | ⟨1, _⟩ => show cc0_transform_2 (grid0.coords t) 1 * 8 + 1 * 0 = 0; rw [e1]
  | ⟨2, _⟩ => show cc0_transform_2 (grid0.coords t) 2 * 128 + 1 * 0 = 0; rw [e2]

/-! ## The output array after the run -/

section
variable (m : (ℓ : Loc nD τ sig) → Buf (Elt F) ℓ)

/-- The last tile of sequence b is a point of the grid. -/
theorem pos_lt (b : Fin 16) : 16 * b.val + 15 < (cfgM m).N := by
  have := b.isLt; show 16 * b.val + 15 < 256; omega

/-- Element (b, 0, 0) of the output array after the run is element (0, 0, 0) of what the output's buffer holds after the
    last tile of sequence b: that point writes its block back, no other flushing point's block meets it, and the
    write-back moves the whole buffer. -/
theorem arrAt_block (c : Dev nD) (b : Fin 16) :
    (dats m 0 c).arrAt 2 (cfgM m).N (ix3 b 0 0) = outsAt m c (16 * b.val + 15) (pos_lt m b) (ix3 0 0 0) := by
  have hf : ((cfgM m).win 2).flush ⟨16 * b.val + 15, pos_lt m b⟩ = true :=
    (flush2 (adm m) _).trans (decide_eq_true (by show (16 * b.val + 15) % 16 = 15; omega))
  have h := (dats m 0 c).arrAt_emb_eq_flushed 2 (disj2 (adm m)) ⟨16 * b.val + 15, pos_lt m b⟩ hf (ix3 0 0 0)
  rw [emb2 (adm m) ⟨16 * b.val + 15, pos_lt m b⟩ b rfl] at h
  exact h.trans ((cast_eq _ _).trans (congrFun (after_2 m c ⟨16 * b.val + 15, pos_lt m b⟩) (ix3 0 0 0)))

/-- The output array after the run, as a function on [16, 8, 128]. -/
def finalOut (c : Dev nD) : S16x8x128.Idx → Elt F .f32 := (dats m 0 c).arrAt 2 (cfgM m).N

theorem finalOut_eq (c : Dev nD) : finalOut m c = (dats m 0 c).arrAt 2 (cfgM m).N := rfl

/-- `arrAt_block` over the array as a function on [16, 8, 128]. -/
theorem finalOut_block (c : Dev nD) (b : Fin 16) :
    finalOut m c (ix3 b 0 0) = outsAt m c (16 * b.val + 15) (pos_lt m b) (ix3 0 0 0) := arrAt_block m c b

end

/-! ## The host lines after the region, over the extended reals -/

set_option maxHeartbeats 400000 in
/-- The scalar the four lines after the region leave: 0 plus the sum, over the 16 sequences, of element (b, 0, 0) of the
    output array after the run. The slice and the cast are read at an index; the host's sum into a rank-0 result is the
    initial value plus the sum over every index of the vector, re-indexed by the sequence. -/
theorem tail_result (m : (ℓ : Loc nD τ sig) → Buf (Elt Ideal) ℓ) (c : Dev nD) :
    Pipeline.afterTail pcfgs (fun _ => adm m) (dats m) 0 (V0 m) [hostOps1] c main_v11
      = (fun _ => ∑ b : Fin 16, finalOut m c (ix3 b 0 0)) := by
  unfold Pipeline.afterTail
  simp only [List.flatten_cons, List.flatten_nil, List.append_nil]
  show StableHlo.after hostOps1 _ (Proc.devRef .tc main_v11) = _
  unfold hostOps1
  after_results
  have hW : Pipeline.withArrays (Pipeline.pin pcfgs (fun _ => adm m) 0).spec c (V0 m c)
      (fun w => (dats m 0 c).arrAt w (Pipeline.pin pcfgs (fun _ => adm m) 0).N) (Proc.devRef .tc main_v8)
      = finalOut m c := Pipeline.withArrays_arr spec0 (launch0 (F := Ideal)).win.arr_inj c _ _ 2
  rw [hW]
  funext j
  show Ideal.hostReduceAdd reducesTo_S16_S_d0 _ (Ideal.ofBits .f32 0x00000000#32) j = _
  rw [Ideal.hostReduceAdd_total reducesTo_S16_S_d0 (fun b => b.elim0), Ideal.ofBits_zero_f32, zero_add]
  refine Fintype.sum_equiv idxEquiv1 _ _ fun i => ?_
  show shapeCast S16 _ shapeCasts_S16x1x1_S16 i = _
  rw [cast_16x1x1_apply]
  exact corner_apply (finalOut m c) slices_S16x8x128_S16x1x1_0_0_0 (i 0)

/-- So the scalar result is the sum, over the 16 sequences, of element (0, 0, 0) of what the output's buffer holds after
    each sequence's last tile. -/
theorem tail_sum (m : (ℓ : Loc nD τ sig) → Buf (Elt Ideal) ℓ) (c : Dev nD) :
    Pipeline.afterTail pcfgs (fun _ => adm m) (dats m) 0 (V0 m) [hostOps1] c main_v11
      = (fun _ => ∑ b : Fin 16, outsAt m c (16 * b.val + 15) (pos_lt m b) (ix3 0 0 0)) := by
  rw [tail_result]
  funext _
  exact Finset.sum_congr rfl fun b _ => finalOut_block m c b

end Cert.KernelIdeal.Hand

end
-- ==== Proof.KI.Final.lean ====
/-
  The idealized kernel's run with its result named: the scalar it ends with is the specification's total of the three
  argument arrays (given that no length exceeds 512), and the arguments are unchanged.
-/
import proofs.«405453_j18021682774493_3_alg».proof.Proof.KI.Value
import proofs.«405453_j18021682774493_3_alg».proof.Proof.KI.Out
import proofs.«405453_j18021682774493_3_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem value_run (m : (ℓ : Loc nD τ sig) → Buf (Elt Ideal) ℓ) (ρ : Dev nD → PrngReg)
    (hls : ∀ c : Dev nD, Cert.Spec.LengthsBounded (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v11)
          = (fun _ => Cert.Spec.total (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (by decide : main_v11 ∈ Pipeline.restRefs sig spec0)).trans
        ((tail_sum m c).trans (funext fun _ => total_eq m c (hls c))),
     ((h c).1 0).trans (((dats m 0 c).arrAt_in 0 rfl _).trans ((A_eq m c 0).trans (V_main_arg0 m c))),
     ((h c).2 main_arg1 (by decide : main_arg1 ∈ Pipeline.restRefs sig spec0)).trans (tail_main_arg1 m c),
     ((h c).2 main_arg2 (by decide : main_arg2 ∈ Pipeline.restRefs sig spec0)).trans (tail_main_arg2 m c)⟩) (run_main m ρ)

end Cert.KernelIdeal.Hand

end
-- ==== Proof.RefSide.Run.lean ====
/-
  The reference's run, stated over stages. Every weakly fair execution of the reference program terminates with its
  result buffer at the last stage `val_main_v13` of the three launch arrays — the stages being the program's
  operations, one definition each, every one a function of the arrays it depends on — and the three arrays unchanged.
  The fold of the operations' results at the result buffer is the operations' composed term of the three arrays; it is
  folded into the stages from the innermost operation outwards, one equation per operation (each stage is, by
  definition, its operation applied to the stages of its operands).
-/
import proofs.«405453_j18021682774493_3_alg».proof.Proof.RefRun
import proofs.«405453_j18021682774493_3_alg».proof.Proof.RefRead

noncomputable section

namespace Cert.RefSide

open Cert.ReferenceIdeal Cert.ReferenceIdeal.Gen Cert.RefRun Cert.RefRead Idealize.ShloMosaic Idealize.ShloMosaic.TcCoe
  Idealize.SL.Sem Idealize.ShloMosaic.StableHlo

variable {F : FTy → Type} [FloatOps F]

/-! ## Each stage is its operation applied to its operands' stages -/

theorem fold_main_call0_v0 (x0 : (⟨S16x512x32000, .f32⟩ : BufTy).Contents (Elt F)) :
    (Host.reduce FloatOps.maximumf (x0) (constant S_ .f32 0xFF800000#32) reducesTo_S16x512x32000_S16x512_d2 h_S_ : (⟨S16x512, .f32⟩ : BufTy).Contents (Elt F)) = val_main_call0_v0 (F := F) x0 := rfl
theorem fold_main_call0_v1 :
    (broadcastInDim S16x512 ![] bcast_S_S16x512 (constant S_ .f32 0xFF800000#32) : (⟨S16x512, .f32⟩ : BufTy).Contents (Elt F)) = val_main_call0_v1 (F := F) := rfl
theorem fold_main_call0_v2 (x0 : (⟨S16x512x32000, .f32⟩ : BufTy).Contents (Elt F)) :
    (maximumf (val_main_call0_v1 (F := F)) (val_main_call0_v0 (F := F) x0) : (⟨S16x512, .f32⟩ : BufTy).Contents (Elt F)) = val_main_call0_v2 (F := F) x0 := rfl
theorem fold_main_call0_v3 (x0 : (⟨S16x512x32000, .f32⟩ : BufTy).Contents (Elt F)) :
    (broadcastInDim S16x512x1 ![0, 1] bcast_S16x512_S16x512x1_0_1 (val_main_call0_v2 (F := F) x0) : (⟨S16x512x1, .f32⟩ : BufTy).Contents (Elt F)) = val_main_call0_v3 (F := F) x0 := rfl
theorem fold_main_call0_v4 (x0 : (⟨S16x512x32000, .f32⟩ : BufTy).Contents (Elt F)) :
    (broadcastInDim S16x512x32000 ![0, 1, 2] bcast_S16x512x1_S16x512x32000_0_1_2 (val_main_call0_v3 (F := F) x0) : (⟨S16x512x32000, .f32⟩ : BufTy).Contents (Elt F)) = val_main_call0_v4 (F := F) x0 := rfl
theorem fold_main_call0_v5 (x0 : (⟨S16x512x32000, .f32⟩ : BufTy).Contents (Elt F)) :
    (subf (x0) (val_main_call0_v4 (F := F) x0) : (⟨S16x512x32000, .f32⟩ : BufTy).Contents (Elt F)) = val_main_call0_v5 (F := F) x0 := rfl
theorem fold_main_call0_v6 (x0 : (⟨S16x512x32000, .f32⟩ : BufTy).Contents (Elt F)) :
    (Host.exp (val_main_call0_v5 (F := F) x0) : (⟨S16x512x32000, .f32⟩ : BufTy).Contents (Elt F)) = val_main_call0_v6 (F := F) x0 := rfl
theorem fold_main_call0_v7 (x0 : (⟨S16x512x32000, .f32⟩ : BufTy).Contents (Elt F)) :
    (Host.reduceAdd (val_main_call0_v6 (F := F) x0) (constant S_ .f32 0x00000000#32) reducesTo_S16x512x32000_S16x512_d2 h_S_ : (⟨S16x512, .f32⟩ : BufTy).Contents (Elt F)) = val_main_call0_v7 (F := F) x0 := rfl
theorem fold_main_call0_v8 (x0 : (⟨S16x512x32000, .f32⟩ : BufTy).Contents (Elt F)) :
    (broadcastInDim S16x512x1 ![0, 1] bcast_S16x512_S16x512x1_0_1 (val_main_call0_v7 (F := F) x0) : (⟨S16x512x1, .f32⟩ : BufTy).Contents (Elt F)) = val_main_call0_v8 (F := F) x0 := rfl
theorem fold_main_call0_v9 (x0 : (⟨S16x512x32000, .f32⟩ : BufTy).Contents (Elt F)) :
    (Host.log (val_main_call0_v8 (F := F) x0) : (⟨S16x512x1, .f32⟩ : BufTy).Contents (Elt F)) = val_main_call0_v9 (F := F) x0 := rfl
theorem fold_main_call0_v10 (x0 : (⟨S16x512x32000, .f32⟩ : BufTy).Contents (Elt F)) :
    (broadcastInDim S16x512x32000 ![0, 1, 2] bcast_S16x512x1_S16x512x32000_0_1_2 (val_main_call0_v9 (F := F) x0) : (⟨S16x512x32000, .f32⟩ : BufTy).Contents (Elt F)) = val_main_call0_v10 (F := F) x0 := rfl
theorem fold_main_v0 (x0 : (⟨S16x512x32000, .f32⟩ : BufTy).Contents (Elt F)) :
    (subf (val_main_call0_v5 (F := F) x0) (val_main_call0_v10 (F := F) x0) : (⟨S16x512x32000, .f32⟩ : BufTy).Contents (Elt F)) = val_main_v0 (F := F) x0 := rfl
theorem fold_main_v1 (x1 : (⟨S16x512, .i32⟩ : BufTy).Contents (Elt F)) :
    (broadcastInDim S16x512x1 ![0, 1] bcast_S16x512_S16x512x1_0_1 (x1) : (⟨S16x512x1, .i32⟩ : BufTy).Contents (Elt F)) = val_main_v1 (F := F) x1 := rfl
theorem fold_main_call1_v0 :
    (broadcastInDim S16x512x1 ![] bcast_S_S16x512x1 (constantI S_ 32 0#32) : (⟨S16x512x1, .i32⟩ : BufTy).Contents (Elt F)) = val_main_call1_v0 (F := F) := rfl
theorem fold_main_call1_v1 (x1 : (⟨S16x512, .i32⟩ : BufTy).Contents (Elt F)) :
    (cmpi .slt (val_main_v1 (F := F) x1) (val_main_call1_v0 (F := F)) : (⟨S16x512x1, .i1⟩ : BufTy).Contents (Elt F)) = val_main_call1_v1 (F := F) x1 := rfl
theorem fold_main_call1_v2 :
    (broadcastInDim S16x512x1 ![] bcast_S_S16x512x1 (constantI S_ 32 32000#32) : (⟨S16x512x1, .i32⟩ : BufTy).Contents (Elt F)) = val_main_call1_v2 (F := F) := rfl
theorem fold_main_call1_v3 (x1 : (⟨S16x512, .i32⟩ : BufTy).Contents (Elt F)) :
    (addi (val_main_v1 (F := F) x1) (val_main_call1_v2 (F := F)) : (⟨S16x512x1, .i32⟩ : BufTy).Contents (Elt F)) = val_main_call1_v3 (F := F) x1 := rfl
theorem fold_main_call1_v4 (x1 : (⟨S16x512, .i32⟩ : BufTy).Contents (Elt F)) :
    (select (val_main_call1_v1 (F := F) x1) (val_main_call1_v3 (F := F) x1) (val_main_v1 (F := F) x1) : (⟨S16x512x1, .i32⟩ : BufTy).Contents (Elt F)) = val_main_call1_v4 (F := F) x1 := rfl
theorem fold_main_call1_v5 (x1 : (⟨S16x512, .i32⟩ : BufTy).Contents (Elt F)) :
    (shapeCast _ (val_main_call1_v4 (F := F) x1) shapeCasts_S16x512x1_S16x512x1x1 : (⟨S16x512x1x1, .i32⟩ : BufTy).Contents (Elt F)) = val_main_call1_v5 (F := F) x1 := rfl
theorem fold_main_call1_v6 :
    (broadcastInDim S16x512x1x1 ![] bcast_S_S16x512x1x1 (constantI S_ 32 0#32) : (⟨S16x512x1x1, .i32⟩ : BufTy).Contents (Elt F)) = val_main_call1_v6 (F := F) := rfl
theorem fold_main_call1_v7 (x1 : (⟨S16x512, .i32⟩ : BufTy).Contents (Elt F)) :
    (cmpi .sge (val_main_call1_v5 (F := F) x1) (val_main_call1_v6 (F := F)) : (⟨S16x512x1x1, .i1⟩ : BufTy).Contents (Elt F)) = val_main_call1_v7 (F := F) x1 := rfl
theorem fold_main_call1_v8 :
    (broadcastInDim S1x1x1x1 ![3] bcast_S1_S1x1x1x1_3 (constantI S1 32 31999#32) : (⟨S1x1x1x1, .i32⟩ : BufTy).Contents (Elt F)) = val_main_call1_v8 (F := F) := rfl
theorem fold_main_call1_v9 :
    (broadcastInDim S16x512x1x1 ![0, 1, 2, 3] bcast_S1x1x1x1_S16x512x1x1_0_1_2_3 (val_main_call1_v8 (F := F)) : (⟨S16x512x1x1, .i32⟩ : BufTy).Contents (Elt F)) = val_main_call1_v9 (F := F) := rfl
theorem fold_main_call1_v10 (x1 : (⟨S16x512, .i32⟩ : BufTy).Contents (Elt F)) :
    (cmpi .sle (val_main_call1_v5 (F := F) x1) (val_main_call1_v9 (F := F)) : (⟨S16x512x1x1, .i1⟩ : BufTy).Contents (Elt F)) = val_main_call1_v10 (F := F) x1 := rfl
theorem fold_main_call1_v11 (x1 : (⟨S16x512, .i32⟩ : BufTy).Contents (Elt F)) :
    (andi (val_main_call1_v7 (F := F) x1) (val_main_call1_v10 (F := F) x1) : (⟨S16x512x1x1, .i1⟩ : BufTy).Contents (Elt F)) = val_main_call1_v11 (F := F) x1 := rfl
theorem fold_main_call1_v12 (x1 : (⟨S16x512, .i32⟩ : BufTy).Contents (Elt F)) :
    (Host.reduce IntOp.andi (val_main_call1_v11 (F := F) x1) (constantI S_ 1 1#1) reducesTo_S16x512x1x1_S16x512x1_d3 h_S_ : (⟨S16x512x1, .i1⟩ : BufTy).Contents (Elt F)) = val_main_call1_v12 (F := F) x1 := rfl
theorem fold_main_call1_v13 (x0 : (⟨S16x512x32000, .f32⟩ : BufTy).Contents (Elt F)) (x1 : (⟨S16x512, .i32⟩ : BufTy).Contents (Elt F)) :
    (Host.gather gather_S16x512x32000_S16x512x1x1_S16x512x1_n_2_01_01_2_3_111 (val_main_v0 (F := F) x0) (val_main_call1_v5 (F := F) x1) : (⟨S16x512x1, .f32⟩ : BufTy).Contents (Elt F)) = val_main_call1_v13 (F := F) x0 x1 := rfl
theorem fold_main_call1_v14 :
    (broadcastInDim S16x512x1 ![] bcast_S_S16x512x1 (constant S_ .f32 0x7FC00000#32) : (⟨S16x512x1, .f32⟩ : BufTy).Contents (Elt F)) = val_main_call1_v14 (F := F) := rfl
theorem fold_main_v2 (x0 : (⟨S16x512x32000, .f32⟩ : BufTy).Contents (Elt F)) (x1 : (⟨S16x512, .i32⟩ : BufTy).Contents (Elt F)) :
    (select (val_main_call1_v12 (F := F) x1) (val_main_call1_v13 (F := F) x0 x1) (val_main_call1_v14 (F := F)) : (⟨S16x512x1, .f32⟩ : BufTy).Contents (Elt F)) = val_main_v2 (F := F) x0 x1 := rfl
theorem fold_main_v3 (x0 : (⟨S16x512x32000, .f32⟩ : BufTy).Contents (Elt F)) (x1 : (⟨S16x512, .i32⟩ : BufTy).Contents (Elt F)) :
    (shapeCast _ (val_main_v2 (F := F) x0 x1) shapeCasts_S16x512x1_S16x512 : (⟨S16x512, .f32⟩ : BufTy).Contents (Elt F)) = val_main_v3 (F := F) x0 x1 := rfl
theorem fold_main_v4 (x0 : (⟨S16x512x32000, .f32⟩ : BufTy).Contents (Elt F)) (x1 : (⟨S16x512, .i32⟩ : BufTy).Contents (Elt F)) :
    (Host.negf (val_main_v3 (F := F) x0 x1) : (⟨S16x512, .f32⟩ : BufTy).Contents (Elt F)) = val_main_v4 (F := F) x0 x1 := rfl
theorem fold_main_v5 :
    (iotaInDim S512 32 0 : (⟨S512, .i32⟩ : BufTy).Contents (Elt F)) = val_main_v5 (F := F) := rfl
theorem fold_main_v6 :
    (broadcastInDim S1x512 ![1] bcast_S512_S1x512_1 (val_main_v5 (F := F)) : (⟨S1x512, .i32⟩ : BufTy).Contents (Elt F)) = val_main_v6 (F := F) := rfl
theorem fold_main_v7 (x2 : (⟨S16, .i32⟩ : BufTy).Contents (Elt F)) :
    (broadcastInDim S16x1 ![0] bcast_S16_S16x1_0 (x2) : (⟨S16x1, .i32⟩ : BufTy).Contents (Elt F)) = val_main_v7 (F := F) x2 := rfl
theorem fold_main_v8 :
    (broadcastInDim S16x512 ![0, 1] bcast_S1x512_S16x512_0_1 (val_main_v6 (F := F)) : (⟨S16x512, .i32⟩ : BufTy).Contents (Elt F)) = val_main_v8 (F := F) := rfl
theorem fold_main_v9 (x2 : (⟨S16, .i32⟩ : BufTy).Contents (Elt F)) :
    (broadcastInDim S16x512 ![0, 1] bcast_S16x1_S16x512_0_1 (val_main_v7 (F := F) x2) : (⟨S16x512, .i32⟩ : BufTy).Contents (Elt F)) = val_main_v9 (F := F) x2 := rfl
theorem fold_main_v10 (x2 : (⟨S16, .i32⟩ : BufTy).Contents (Elt F)) :
    (cmpi .slt (val_main_v8 (F := F)) (val_main_v9 (F := F) x2) : (⟨S16x512, .i1⟩ : BufTy).Contents (Elt F)) = val_main_v10 (F := F) x2 := rfl
theorem fold_main_v11 (x2 : (⟨S16, .i32⟩ : BufTy).Contents (Elt F)) :
    (uitofp .f32 (val_main_v10 (F := F) x2) : (⟨S16x512, .f32⟩ : BufTy).Contents (Elt F)) = val_main_v11 (F := F) x2 := rfl
theorem fold_main_v12 (x0 : (⟨S16x512x32000, .f32⟩ : BufTy).Contents (Elt F)) (x1 : (⟨S16x512, .i32⟩ : BufTy).Contents (Elt F)) (x2 : (⟨S16, .i32⟩ : BufTy).Contents (Elt F)) :
    (mulf (val_main_v4 (F := F) x0 x1) (val_main_v11 (F := F) x2) : (⟨S16x512, .f32⟩ : BufTy).Contents (Elt F)) = val_main_v12 (F := F) x0 x1 x2 := rfl
theorem fold_main_v13 (x0 : (⟨S16x512x32000, .f32⟩ : BufTy).Contents (Elt F)) (x1 : (⟨S16x512, .i32⟩ : BufTy).Contents (Elt F)) (x2 : (⟨S16, .i32⟩ : BufTy).Contents (Elt F)) :
    (Host.reduceAdd (val_main_v12 (F := F) x0 x1 x2) (constant S_ .f32 0x00000000#32) reducesTo_S16x512_S_d0_1 h_S_ : (⟨S_, .f32⟩ : BufTy).Contents (Elt F)) = val_main_v13 (F := F) x0 x1 x2 := rfl

/-! ## The operations' results at the four buffers -/

set_option maxRecDepth 8192 in
set_option maxHeartbeats 2000000 in
/-- The result buffer after the fifty operations: the last stage of the three argument buffers' contents. -/
theorem after_main_v13 (V : Valuation τ sig (Elt F)) :
    after (ops (F := F)) V (Proc.devRef .tc main_v13) = val_main_v13 (F := F) (V (Proc.devRef .tc main_arg0)) (V (Proc.devRef .tc main_arg1)) (V (Proc.devRef .tc main_arg2)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq]
  rw [fold_main_call0_v0 (F := F)]
  rw [fold_main_call0_v1 (F := F)]
  rw [fold_main_call0_v2 (F := F)]
  rw [fold_main_call0_v3 (F := F)]
  rw [fold_main_call0_v4 (F := F)]
  rw [fold_main_call0_v5 (F := F)]
  rw [fold_main_call0_v6 (F := F)]
  rw [fold_main_call0_v7 (F := F)]
  rw [fold_main_call0_v8 (F := F)]
  rw [fold_main_call0_v9 (F := F)]
  rw [fold_main_call0_v10 (F := F)]
  rw [fold_main_v0 (F := F)]
  rw [fold_main_v1 (F := F)]
  rw [fold_main_call1_v0 (F := F)]
  rw [fold_main_call1_v1 (F := F)]
  rw [fold_main_call1_v2 (F := F)]
  rw [fold_main_call1_v3 (F := F)]
  rw [fold_main_call1_v4 (F := F)]
  erw [fold_main_call1_v5 (F := F)]
  rw [fold_main_call1_v6 (F := F)]
  erw [fold_main_call1_v7 (F := F)]
  rw [fold_main_call1_v8 (F := F)]
  rw [fold_main_call1_v9 (F := F)]
  erw [fold_main_call1_v10 (F := F)]
  rw [fold_main_call1_v11 (F := F)]
  rw [fold_main_call1_v12 (F := F)]
  erw [fold_main_call1_v13 (F := F)]
  rw [fold_main_call1_v14 (F := F)]
  rw [fold_main_v2 (F := F)]
  erw [fold_main_v3 (F := F)]
  erw [fold_main_v4 (F := F)]
  rw [fold_main_v5 (F := F)]
  rw [fold_main_v6 (F := F)]
  rw [fold_main_v7 (F := F)]
  rw [fold_main_v8 (F := F)]
  rw [fold_main_v9 (F := F)]
  rw [fold_main_v10 (F := F)]
  rw [fold_main_v11 (F := F)]
  rw [fold_main_v12 (F := F)]
  rw [fold_main_v13 (F := F)]

set_option maxRecDepth 8192 in
set_option maxHeartbeats 2000000 in
/-- No operation writes an argument buffer. -/
theorem after_main_arg0 (V : Valuation τ sig (Elt F)) :
    after (ops (F := F)) V (Proc.devRef .tc main_arg0) = V (Proc.devRef .tc main_arg0) := by
  after_results_simp <;> rfl

set_option maxRecDepth 8192 in
set_option maxHeartbeats 2000000 in
theorem after_main_arg1 (V : Valuation τ sig (Elt F)) :
    after (ops (F := F)) V (Proc.devRef .tc main_arg1) = V (Proc.devRef .tc main_arg1) := by
  after_results_simp <;> rfl

set_option maxRecDepth 8192 in
set_option maxHeartbeats 2000000 in
theorem after_main_arg2 (V : Valuation τ sig (Elt F)) :
    after (ops (F := F)) V (Proc.devRef .tc main_arg2) = V (Proc.devRef .tc main_arg2) := by
  after_results_simp <;> rfl

/-- On every device, for any float values, from any memory with zero counters: every weakly fair execution of the
    reference terminates with the result at the last stage of the launch arrays and the arrays unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = val_main_v13 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v13).trans (after_main_v13 (launchContents m c)),
       (h c main_arg0).trans (after_main_arg0 (launchContents m c)),
       (h c main_arg1).trans (after_main_arg1 (launchContents m c)),
       (h c main_arg2).trans (after_main_arg2 (launchContents m c))⟩)
    (run_after m ρ)

end Cert.RefSide

end
-- ==== Proof.RefSide.Math.lean ====
/-
  The real-number facts behind the reference's value, over abstract finite index types.
  A row of finite logits has a real maximum (the fold of `max` from −∞ over a nonempty finite family of reals is a
  real), a positive real sum of exponentials about that maximum, hence a real logarithm; so the negated
  log-probability of a class, −((x_t − M) − log e), is the log-sum-exp (log e + M) less the class's logit. The sum of
  a row against a label's indicator is the logit at the label, and the small facts about signed words that the
  label's and the length's comparisons use.
-/
import Idealize.ShloMosaic.PureOps.Ideal
import Mathlib.Data.EReal.Operations
import Mathlib.Analysis.SpecialFunctions.Log.Basic
import Mathlib.Algebra.BigOperators.Group.Finset.Basic

noncomputable section

namespace Cert.RefSide.Math

open Idealize.ShloMosaic

/-- The fold of `max` from −∞ over a nonempty finite family of reals is a real. -/
theorem fold_max_coe {ι : Type*} (r : ι → ℝ) {s : Finset ι} (hs : s.Nonempty) :
    ∃ m : ℝ, s.fold max (⊥ : EReal) (fun v => (r v : EReal)) = (m : EReal) := by
  induction hs using Finset.Nonempty.cons_induction with
  | singleton a => exact ⟨r a, by rw [Finset.fold_singleton]; exact max_eq_left bot_le⟩
  | cons a s ha hs ih =>
    obtain ⟨m, hm⟩ := ih
    exact ⟨max (r a) m, by rw [Finset.fold_cons, hm]; exact (EReal.coe_strictMono.monotone.map_max).symm⟩

/-- A finite sum of coerced reals is the coerced sum. -/
theorem sum_coe {ι : Type*} (g : ι → ℝ) (s : Finset ι) :
    ∑ v ∈ s, ((g v : ℝ) : EReal) = ((∑ v ∈ s, g v : ℝ) : EReal) := by
  classical
  induction s using Finset.induction_on with
  | empty => rw [Finset.sum_empty, Finset.sum_empty]; rfl
  | insert a s ha ih => rw [Finset.sum_insert ha, Finset.sum_insert ha, ih, EReal.coe_add]

/-- A row of finite logits: the negated log-probability of class `t` is the log-sum-exp less the logit of `t`. -/
theorem neg_logp {n : ℕ} (hn : 0 < n) (f : Fin n → EReal) (hf : ∀ v, f v ≠ ⊤ ∧ f v ≠ ⊥) (t : Fin n) :
    -((f t - Finset.univ.fold max ⊥ f) - Ideal.log (∑ v, Ideal.exp (f v - Finset.univ.fold max ⊥ f)))
      = (Ideal.log (∑ v, Ideal.exp (f v - Finset.univ.fold max ⊥ f)) + Finset.univ.fold max ⊥ f) - f t := by
  obtain ⟨r, rfl⟩ : ∃ r : Fin n → ℝ, f = fun v => (r v : EReal) :=
    ⟨fun v => (f v).toReal, funext fun v => (EReal.coe_toReal (hf v).1 (hf v).2).symm⟩
  haveI : Nonempty (Fin n) := ⟨⟨0, hn⟩⟩
  obtain ⟨m, hm⟩ := fold_max_coe r (Finset.univ_nonempty (α := Fin n))
  rw [hm]
  have hexp : ∀ v, Ideal.exp ((r v : EReal) - (m : EReal)) = ((Real.exp (r v - m) : ℝ) : EReal) := fun v => rfl
  rw [Finset.sum_congr rfl fun v _ => hexp v, sum_coe]
  have hpos : 0 < ∑ v, Real.exp (r v - m) := Finset.sum_pos (fun v _ => Real.exp_pos _) Finset.univ_nonempty
  have hlog : Ideal.log ((∑ v, Real.exp (r v - m) : ℝ) : EReal) = ((Real.log (∑ v, Real.exp (r v - m)) : ℝ) : EReal) := by
    rw [Ideal.log_coe, if_neg (not_le.mpr hpos)]
  rw [hlog]
  generalize Real.log (∑ v, Real.exp (r v - m)) = l
  rw [← EReal.coe_sub, ← EReal.coe_sub, ← EReal.coe_neg, ← EReal.coe_add, ← EReal.coe_sub]
  congr 1
  ring

/-- The sum of a row against the indicator of the word `w` among the class indices is the row at `w`. -/
theorem sum_pick {n : ℕ} (hn : n ≤ 2 ^ 32) (f : Fin n → EReal) (w : BitVec 32) (hw : w.toNat < n) :
    (∑ v : Fin n, if BitVec.ofNat 32 v.val = w then f v else 0) = f ⟨w.toNat, hw⟩ := by
  rw [Finset.sum_eq_single (⟨w.toNat, hw⟩ : Fin n)]
  · rw [if_pos]
    apply BitVec.eq_of_toNat_eq
    rw [BitVec.toNat_ofNat]
    exact Nat.mod_eq_of_lt w.isLt
  · intro v _ hv
    rw [if_neg]
    intro h
    apply hv
    apply Fin.ext
    have h2 := congrArg BitVec.toNat h
    rw [BitVec.toNat_ofNat, Nat.mod_eq_of_lt (lt_of_lt_of_le v.isLt hn)] at h2
    exact h2
  · intro h
    exact absurd (Finset.mem_univ _) h

/-- A word that is signed-between 0 and 32000 is, unsigned, below 32000. -/
theorem toNat_lt_of_range {w : BitVec 32} (h0 : (0#32).sle w = true) (h1 : w.slt 32000#32 = true) : w.toNat < 32000 := by
  have e0 : (0#32).toInt = 0 := by decide
  have e1 : (32000#32).toInt = 32000 := by decide
  simp only [BitVec.sle, BitVec.slt, decide_eq_true_eq, e0, e1] at h0 h1
  rw [BitVec.toInt_eq_toNat_cond] at h0 h1
  have := w.isLt
  split at h0 <;> omega

/-- The signed reading of a word below 2^31 is its unsigned one. -/
theorem toInt_toNat_of_lt {w : BitVec 32} (h : w.toNat < 2 ^ 31) : w.toInt.toNat = w.toNat := by
  rw [BitVec.toInt_eq_toNat_cond, if_pos (by omega)]
  exact Int.toNat_natCast _

end Cert.RefSide.Math

end
-- ==== Proof.RefSide.Value.lean ====
/-
  The reference's value. The last stage of the reference program, as a function of the logits, the labels and the
  lengths, is the specification's total under finite logits and labels in range.
  Each stage is read at an index through the stages before it: the row maximum (a fold of maxima from −∞, then a
  maximum with −∞) is the specification's; the shifted logits, their exponentials' sum and its logarithm follow; a label
  in range is not negative and passes the gather's validity test, so the wrapped and clamped class index is the label
  itself and the gathered log-probability is the one at the label; negated, it is the log-sum-exp less the label's logit
  (real arithmetic, in the module of real-number facts); the position mask converts the signed comparison to 1 or 0; the
  sum over both axes from 0 is the double sum over sequences and positions.
-/
import proofs.«405453_j18021682774493_3_alg».proof.Proof.RefRead
import proofs.«405453_j18021682774493_3_alg».proof.Proof.Spec
import proofs.«405453_j18021682774493_3_alg».proof.Proof.RefSide.Math
import Idealize.ShloMosaic.Lib.ValueIdx
import Idealize.ShloMosaic.PureOps.Ideal.Laws
import Idealize.ShloMosaic.Lib.StableHlo.Predicate

noncomputable section

namespace Cert.RefSide

open Cert.ReferenceIdeal Cert.ReferenceIdeal.Gen Cert.RefRead Cert.Spec Idealize.ShloMosaic Idealize.ShloMosaic.ValueIdx
  Idealize.ShloMosaic.StableHlo.Predicate

local notation "gd" => gather_S16x512x32000_S16x512x1x1_S16x512x1_n_2_01_01_2_3_111

/-! ## The gather, and the fold of conjunctions, read at an index -/

/-- A start index read signed and clamped into the class range. -/
def clampClass (w : BitVec 32) : Fin 32000 := ⟨min w.toInt.toNat 31999, by omega⟩

/-- The gather along the class axis read at `(b, p, c)`: the operand at row `(b, p)` and at the class `idx[b, p, c, 0]`
    read signed and clamped into the class range. -/
theorem gather_apply {α : Type} (x : S16x512x32000.Idx → α) (idx : IVec S16x512x1x1 32) (b : Fin 16) (p : Fin 512) (c : Fin 1) :
    Host.gather gd x idx (ix3 b p c) = x (ix3 b p (clampClass (idx (ix4 b p c (0 : Fin 1))))) := by
  generalize hj : (ix3 b p c : S16x512x1.Idx) = j
  have j0 : (j 0).val = b.val := by rw [← hj]
  have j1 : (j 1).val = p.val := by rw [← hj]
  have hq : ix4 b p c (0 : Fin 1) = ix4 (n0 := 16) (n1 := 512) (n2 := 1) (n3 := 1) (j 0) (j 1) (j 2) 0 := by rw [← hj]
  rw [hq]
  show _ = x (ix3 b p ⟨min (idx (ix4 (n0 := 16) (n1 := 512) (n2 := 1) (n3 := 1) (j 0) (j 1) (j 2) 0)).toInt.toNat 31999, by omega⟩)
  unfold Host.gather
  congr 1
  funext a
  refine Fin.ext ?_
  match a with
  | ⟨0, _⟩ =>
    show GatherDims.start gd j idx 0 + GatherDims.batchCoord gd j 0 + GatherDims.offCoord gd j 0 = b.val
    rw [← j0]
    rw [GatherDims.start_batching gd j idx 0 (by decide), GatherDims.offCoord_eq_zero gd j 0 (by decide)]
    simp only [Nat.zero_add, Nat.add_zero]
    unfold GatherDims.batchCoord
    rw [dif_pos (by decide)]
    rfl
  | ⟨1, _⟩ =>
    show GatherDims.start gd j idx 1 + GatherDims.batchCoord gd j 1 + GatherDims.offCoord gd j 1 = p.val
    rw [← j1]
    rw [GatherDims.start_batching gd j idx 1 (by decide), GatherDims.offCoord_eq_zero gd j 1 (by decide)]
    simp only [Nat.zero_add, Nat.add_zero]
    unfold GatherDims.batchCoord
    rw [dif_pos (by decide)]
    rfl
  | ⟨2, _⟩ =>
    show GatherDims.start gd j idx 2 + GatherDims.batchCoord gd j 2 + GatherDims.offCoord gd j 2
      = min (idx (ix4 (n0 := 16) (n1 := 512) (n2 := 1) (n3 := 1) (j 0) (j 1) (j 2) 0)).toInt.toNat 31999
    rw [GatherDims.batchCoord_eq_zero gd j 2 (by decide), GatherDims.offCoord_eq_zero gd j 2 (by decide)]
    simp only [Nat.add_zero]
    unfold GatherDims.start
    rw [dif_pos (by decide)]
    have hsi : GatherDims.siIdx gd j ⟨List.idxOf (2 : Fin 3) (GatherDims.startIndexMap gd), by decide⟩
        = ix4 (n0 := 16) (n1 := 512) (n2 := 1) (n3 := 1) (j 0) (j 1) (j 2) 0 := by
      funext b; refine Fin.ext ?_
      match b with
      | ⟨0, _⟩ => rfl
      | ⟨1, _⟩ => rfl
      | ⟨2, _⟩ => rfl
      | ⟨3, _⟩ => rfl
    rw [hsi]
    rfl

/-- A left fold of conjunctions of one-bit words that are all `1`, from `1`, is `1`. -/
theorem foldl_andi_one {β : Type} (g : β → BitVec 1) (hg : ∀ n, g n = 1#1) :
    ∀ l : List β, l.foldl (fun r n => IntOp.andi r (g n)) 1#1 = 1#1
  | [] => rfl
  | a :: l => by
    rw [List.foldl_cons, hg a, show IntOp.andi 1#1 1#1 = 1#1 from by decide]
    exact foldl_andi_one g hg l

/-! ## The stages at an index -/

variable (x : S16x512x32000.Idx → EReal) (tg : S16x512.Idx → BitVec 32) (ls : S16.Idx → BitVec 32)

/-- The pattern of −∞ reads the bottom of the extended reals. -/
theorem ofBits_ninf : Ideal.ofBits .f32 0xFF800000#32 = ⊥ := by simp [Ideal.ofBits, Ideal.ieee]

/-- The row maximum the reference takes — a reduce of maxima from −∞ over the classes, then a maximum with −∞ — is the
    specification's. -/
theorem call0_v2_at (b : Fin 16) (p : Fin 512) : val_main_call0_v2 (F := Ideal) x (ix2 b p) = rowMax x b p := by
  rw [val_main_call0_v2_apply, val_main_call0_v1_apply, val_main_call0_cst_0_apply]
  unfold val_main_call0_v0
  show max (Ideal.ofBits .f32 0xFF800000#32) (Host.reduce (FloatOps.maximumf (F := Ideal) (φ := .f32)) x
    (val_main_call0_cst (F := Ideal)) reducesTo_S16x512x32000_S16x512_d2 h_S_ (ix2 b p)) = rowMax x b p
  rw [Host.reduce_eq_fold_single (FloatOps.maximumf (F := Ideal) (φ := .f32)) x _ reducesTo_S16x512x32000_S16x512_d2
    (by decide : S16x512x32000.Reduces [2] S16x512) h_S_, val_main_call0_cst_apply]
  have hf : (x ∘ (by decide : S16x512x32000.Reduces [2] S16x512).lift (ix2 b p)) = fun v : Fin 32000 => x (ix3 b p v) :=
    funext fun v => congrArg x (funext fun c => Fin.ext (by fin_cases c <;> rfl))
  rw [hf]
  show max (Ideal.ofBits .f32 0xFF800000#32) (Finset.fold max (Ideal.ofBits .f32 0xFF800000#32) (fun v : Fin 32000 => x (ix3 b p v)) Finset.univ) = _
  rw [ofBits_ninf, max_eq_right bot_le]
  rfl

/-- The shifted logit. -/
theorem call0_v5_at (b : Fin 16) (p : Fin 512) (v : Fin 32000) :
    val_main_call0_v5 (F := Ideal) x (ix3 b p v) = x (ix3 b p v) - rowMax x b p := by
  rw [val_main_call0_v5_apply, val_main_call0_v4_apply, val_main_call0_v3_apply]
  have hi : idx_main_call0_v3 (idx_main_call0_v4 (ix3 b p v)) = ix2 b p :=
    funext fun a => match a with | ⟨0, _⟩ => rfl | ⟨1, _⟩ => rfl
  rw [hi, call0_v2_at, Ideal.subf_def]

/-- The row's sum of exponentials about its maximum. -/
theorem call0_v7_at (b : Fin 16) (p : Fin 512) : val_main_call0_v7 (F := Ideal) x (ix2 b p) = sumExp x b p := by
  rw [val_main_call0_v7_apply, val_main_call0_cst_1_apply, Ideal.ofBits_def, Ideal.ofBits_zero_f32, zero_add]
  unfold sumExp
  refine Finset.sum_congr rfl fun v _ => ?_
  rw [val_main_call0_v6_apply]
  have hi : idx_main_call0_v7 (ix2 b p) v = ix3 b p v :=
    funext fun a => match a with | ⟨0, _⟩ => rfl | ⟨1, _⟩ => rfl | ⟨2, _⟩ => rfl
  rw [hi, call0_v5_at, Ideal.hostUnary_exp_def]

/-- The log-probability of class `v` in row `(b, p)`. -/
theorem v0_at (b : Fin 16) (p : Fin 512) (v : Fin 32000) :
    val_main_v0 (F := Ideal) x (ix3 b p v) = (x (ix3 b p v) - rowMax x b p) - Ideal.log (sumExp x b p) := by
  rw [val_main_v0_apply, call0_v5_at, val_main_call0_v10_apply, val_main_call0_v9_apply, val_main_call0_v8_apply]
  have hi : idx_main_call0_v8 (idx_main_call0_v10 (ix3 b p v)) = ix2 b p :=
    funext fun a => match a with | ⟨0, _⟩ => rfl | ⟨1, _⟩ => rfl
  rw [hi, call0_v7_at, Ideal.hostUnary_log_def, Ideal.subf_def]

/-! ## The label's index -/

variable {tg}

theorem label_lt (hl : LabelsInRange tg) (j : S16x512.Idx) : (tg j).toNat < 32000 :=
  Math.toNat_lt_of_range (hl j).1 (hl j).2

/-- A label in range is not negative, so the wrapped index is the label. -/
theorem call1_v4_at (hl : LabelsInRange tg) (b : Fin 16) (p : Fin 512) (c : Fin 1) :
    val_main_call1_v4 (F := Ideal) tg (ix3 b p c) = tg (ix2 b p) := by
  rw [val_main_call1_v4_apply, val_main_call1_v1_apply, val_main_v1_apply, val_main_call1_v0_apply, val_main_call1_c_apply]
  have hi : idx_main_v1 (ix3 b p c) = ix2 b p := funext fun a => match a with | ⟨0, _⟩ => rfl | ⟨1, _⟩ => rfl
  rw [hi]
  have hw := label_lt hl (ix2 b p)
  have h0 : IntOp.cmpi .slt (tg (ix2 b p)) 0#32 = 0#1 :=
    eq_zero_of_ne_one fun h => Nat.not_lt_zero _ ((slt_iff_toNat (by omega) (by decide)).mp h)
  rw [h0, select_zero]

theorem call1_v5_at (hl : LabelsInRange tg) (b : Fin 16) (p : Fin 512) (c d : Fin 1) :
    val_main_call1_v5 (F := Ideal) tg (ix4 b p c d) = tg (ix2 b p) := by
  rw [val_main_call1_v5_apply]
  have hi : idx_main_call1_v5 (ix4 b p c d) = ix3 b p (0 : Fin 1) := funext fun a => Fin.ext (by
    have h0 : b.val < 16 := b.isLt
    have h1 : p.val < 512 := p.isLt
    have h2 : c.val < 1 := c.isLt
    have h3 : d.val < 1 := d.isLt
    match a with
    | ⟨0, _⟩ => show (((b.val * 512 + p.val) * 1 + c.val) * 1 + d.val) / 512 = b.val; omega
    | ⟨1, _⟩ => show (((b.val * 512 + p.val) * 1 + c.val) * 1 + d.val) / 1 % 512 = p.val; omega
    | ⟨2, _⟩ => rfl)
  rw [hi, call1_v4_at hl]

/-- Every label in range passes the gather's validity test. -/
theorem call1_v12_at (hl : LabelsInRange tg) (i : S16x512x1.Idx) : val_main_call1_v12 (F := Ideal) tg i = 1#1 := by
  have h11 : ∀ k : S16x512x1x1.Idx, val_main_call1_v11 (F := Ideal) tg k = 1#1 := fun k => by
    obtain ⟨b, p, c, d, rfl⟩ : ∃ (b : Fin 16) (p : Fin 512) (c d : Fin 1), k = ix4 b p c d :=
      ⟨k 0, k 1, k 2, k 3, eq_ix4 k⟩
    have hw := label_lt hl (ix2 b p)
    rw [val_main_call1_v11_apply, val_main_call1_v7_apply, val_main_call1_v10_apply, call1_v5_at hl,
      val_main_call1_v6_apply, val_main_call1_c_2_apply, val_main_call1_v9_apply, val_main_call1_v8_apply,
      val_main_call1_c_1_apply]
    rw [(sge_iff_toNat (by omega) (by decide)).mpr (Nat.zero_le _),
      (sle_iff_toNat (by omega) (by decide)).mpr (by show (tg (ix2 b p)).toNat ≤ 31999; omega)]
    decide
  unfold val_main_call1_v12 Host.reduce
  exact foldl_andi_one _ (fun n => h11 _) _

/-- The gathered log-probability: the one at the row's label. -/
theorem v2_at (hl : LabelsInRange tg) (b : Fin 16) (p : Fin 512) :
    val_main_v2 (F := Ideal) x tg (ix3 b p (0 : Fin 1))
      = val_main_v0 (F := Ideal) x (ix3 b p ⟨(tg (ix2 b p)).toNat, label_lt hl _⟩) := by
  rw [val_main_v2_apply, call1_v12_at hl, select_one]
  unfold val_main_call1_v13
  rw [gather_apply, call1_v5_at hl]
  have hw := label_lt hl (ix2 b p)
  have e : clampClass (tg (ix2 b p)) = ⟨(tg (ix2 b p)).toNat, hw⟩ :=
    Fin.ext (by show min (tg (ix2 b p)).toInt.toNat 31999 = (tg (ix2 b p)).toNat
                rw [Math.toInt_toNat_of_lt (by omega)]; omega)
  rw [e]

/-- The sum of the row against the label's indicator is the logit at the label. -/
theorem pick_eq (hl : LabelsInRange tg) (b : Fin 16) (p : Fin 512) :
    pick x tg b p = x (ix3 b p ⟨(tg (ix2 b p)).toNat, label_lt hl _⟩) :=
  Math.sum_pick (by decide) (fun v : Fin 32000 => x (ix3 b p v)) (tg (ix2 b p)) (label_lt hl _)

variable {x}

/-- The row's negated gathered log-probability is the specification's loss of the row. -/
theorem v4_at (hx : FiniteLogits x) (hl : LabelsInRange tg) (b : Fin 16) (p : Fin 512) :
    val_main_v4 (F := Ideal) x tg (ix2 b p) = nll x tg b p := by
  rw [val_main_v4_apply, val_main_v3_apply]
  have hi : idx_main_v3 (ix2 b p) = ix3 b p (0 : Fin 1) := funext fun a => Fin.ext (by
    have h0 : b.val < 16 := b.isLt
    have h1 : p.val < 512 := p.isLt
    match a with
    | ⟨0, _⟩ => show (b.val * 512 + p.val) / 512 = b.val; omega
    | ⟨1, _⟩ => show (b.val * 512 + p.val) / 1 % 512 = p.val; omega
    | ⟨2, _⟩ => rfl)
  rw [hi, v2_at x hl, v0_at, Ideal.hostNegf_def, Ideal.negf_def]
  unfold nll lse
  rw [pick_eq x hl]
  exact Math.neg_logp (by decide) (fun v : Fin 32000 => x (ix3 b p v)) (fun v => hx _) _

/-- The position mask: 1 where the position lies before the sequence's length, else 0. -/
theorem v11_at (b : Fin 16) (p : Fin 512) : val_main_v11 (F := Ideal) ls (ix2 b p) = keep ls b p := by
  rw [val_main_v11_apply, val_main_v10_apply, val_main_v8_apply, val_main_v6_apply, val_main_v5_apply,
    val_main_v9_apply, val_main_v7_apply]
  have hi : idx_main_v7 (idx_main_v9 (ix2 b p)) = ix1 b := funext fun a => match a with | ⟨0, _⟩ => rfl
  rw [hi]
  show FloatOps.uitofp (F := Ideal) .f32 (IntOp.cmpi .slt (BitVec.ofNat 32 p.val) (ls (ix1 b))) = keep ls b p
  unfold keep IntOp.cmpi
  cases (BitVec.ofNat 32 p.val).slt (ls (ix1 b))
  · show (((0 : ℕ) : ℝ) : EReal) = if false = true then 1 else 0
    rw [if_neg (by decide), Nat.cast_zero, EReal.coe_zero]
  · show (((1 : ℕ) : ℝ) : EReal) = if true = true then 1 else 0
    rw [if_pos rfl, Nat.cast_one, EReal.coe_one]

/-- THE VALUE: under finite logits and labels in range, the reference's last stage is the specification's total. -/
theorem value (hx : FiniteLogits x) (hl : LabelsInRange tg) :
    val_main_v13 (F := Ideal) x tg ls = fun _ => total x tg ls := by
  funext i
  rw [val_main_v13_apply, val_main_cst_apply, Ideal.ofBits_def, Ideal.ofBits_zero_f32, zero_add, sum_idx2]
  unfold total
  refine Finset.sum_congr rfl fun b _ => Finset.sum_congr rfl fun p _ => ?_
  rw [val_main_v12_apply, v4_at hx hl, v11_at, Ideal.mulf_def]

end Cert.RefSide

end
-- ==== Proof.RefSide.lean ====
/-
  The reference side. Every weakly fair execution of the reference program, from any memory with zero counters whose
  logits are finite and whose labels are class indices, terminates with its result buffer holding the specification's
  total of the three launch arrays, and the three arrays unchanged: the run over stages, then the last stage's value.
-/
import proofs.«405453_j18021682774493_3_alg».proof.Proof.RefSide.Run
import proofs.«405453_j18021682774493_3_alg».proof.Proof.RefSide.Value

noncomputable section

namespace Cert.RefSide

open Cert.ReferenceIdeal Cert.ReferenceIdeal.Gen Idealize.ShloMosaic Idealize.ShloMosaic.TcCoe Idealize.SL.Sem
  Idealize.ShloMosaic.StableHlo

theorem run_total (m : (ℓ : Loc Cert.ReferenceIdeal.nD Cert.ReferenceIdeal.τ Cert.ReferenceIdeal.sig) → Buf (Elt Ideal) ℓ)
    (ρ : Dev Cert.ReferenceIdeal.nD → PrngReg)
    (hx : ∀ c : Dev Cert.ReferenceIdeal.nD,
      Cert.Spec.FiniteLogits (m ((c.tc : Thread Cert.ReferenceIdeal.nD Cert.ReferenceIdeal.τ).loc Cert.ReferenceIdeal.main_arg0)))
    (htg : ∀ c : Dev Cert.ReferenceIdeal.nD,
      Cert.Spec.LabelsInRange (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread _ _).loc Cert.ReferenceIdeal.main_v13)
          = (fun _ => Cert.Spec.total (m ((c.tc : Thread _ _).loc Cert.ReferenceIdeal.main_arg0))
              (m ((c.tc : Thread _ _).loc Cert.ReferenceIdeal.main_arg1)) (m ((c.tc : Thread _ _).loc Cert.ReferenceIdeal.main_arg2)))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono
    (fun _ h c => ⟨(h c).1.trans (value _ (hx c) (htg c)), (h c).2⟩)
    (run_stages (F := Ideal) m ρ)

end Cert.RefSide

end
-- ==== Proof.PreDecode.lean ====
/-
  The precondition read back. The stated precondition is a conjunction of four "for all" tests over the argument
  arrays, each the and-reduction of an array of one-bit comparisons down to a single word, and it is claimed to
  equal 1. A conjunction of one-bit words is 1 exactly when each is; an and-reduction that is 1 had a 1 at every
  entry; and each entry, a comparison against a constant laid over the whole array, says of the element it reads:
    |x| < +∞ (the pattern 0x7F800000 is +∞), so x is neither +∞ nor −∞;
    0 ≤ label and label < 32000 as signed words;
    length ≤ 512 as a signed word.
  These are the three hypotheses of the specification.
-/
import proofs.«405453_j18021682774493_3_alg».proof.Pre_finite_inputs
import proofs.«405453_j18021682774493_3_alg».proof.Proof.Gen.Pre_finite_inputs
import proofs.«405453_j18021682774493_3_alg».proof.Proof.Spec
import Idealize.ShloMosaic.Lib.ReduceAll
import Idealize.ShloMosaic.Lib.StableHlo.Predicate

noncomputable section

namespace Cert.PreDecode

open Idealize.ShloMosaic Idealize.ShloMosaic.ValueIdx

/-- The shape of rank 0 has exactly one index. -/
instance : Subsingleton Cert.Pre_finite_inputs.S_.Idx := ⟨fun a b => funext fun d => d.elim0⟩

/-- The single-precision pattern with exponent all ones, significand zero and sign clear denotes +∞. -/
theorem ofBits_inf : Ideal.ofBits .f32 0x7F800000#32 = (⊤ : EReal) := by
  simp [Ideal.ofBits, Ideal.ieee]

/-- An extended real whose absolute value max a (−a) lies strictly below +∞ is a real number:
    a < +∞ excludes +∞, and −a < +∞ excludes −∞. -/
theorem finite_of_abs_lt_inf (a : EReal)
    (h : Ideal.cmp .olt (max a (-a)) (Ideal.ofBits .f32 0x7F800000#32) = 1#1) : a ≠ ⊤ ∧ a ≠ ⊥ := by
  rw [ofBits_inf] at h
  have h1 : max a (-a) < ⊤ := by
    have := (StableHlo.Predicate.ofBool_eq_one_iff _).1 h
    exact of_decide_eq_true this
  rw [max_lt_iff] at h1
  refine ⟨ne_of_lt h1.1, ?_⟩
  rintro rfl
  exact absurd h1.2 (by simp)

/-- The comparison word "a ≥ b, signed" is 1 exactly when b ≤ a as signed words. -/
theorem sge_read (a b : BitVec 32) (h : IntOp.cmpi .sge a b = 1#1) : b.sle a = true :=
  (StableHlo.Predicate.ofBool_eq_one_iff _).1 h

/-- The comparison word "a < b, signed" is 1 exactly when a < b as signed words. -/
theorem slt_read (a b : BitVec 32) (h : IntOp.cmpi .slt a b = 1#1) : a.slt b = true :=
  (StableHlo.Predicate.ofBool_eq_one_iff _).1 h

/-- The comparison word "a ≤ b, signed" is 1 exactly when a ≤ b as signed words. -/
theorem sle_read (a b : BitVec 32) (h : IntOp.cmpi .sle a b = 1#1) : a.sle b = true :=
  (StableHlo.Predicate.ofBool_eq_one_iff _).1 h

/-- If the stated precondition holds of the three argument arrays then every logit is a real number, every label
    lies in [0, 32000) and every length is at most 512. The result word is the conjunction
    ((all₁ ∧ all₂) ∧ all₃) ∧ all₄ of the four tests; each all is read at an arbitrary index of its array, where the
    constant it is compared against is the broadcast scalar itself. -/
theorem of_pre [Cert.Pre_finite_inputs.Facts] (x : FVec Ideal Cert.Pre_finite_inputs.S16x512x32000 .f32)
    (tg : IVec Cert.Pre_finite_inputs.S16x512 32) (ls : IVec Cert.Pre_finite_inputs.S16 32)
    (h : Cert.Pre_finite_inputs.fn (F := Ideal) x tg ls = (fun _ => 1#1)) :
    Cert.Spec.FiniteLogits x ∧ Cert.Spec.LabelsInRange tg ∧ Cert.Spec.LengthsBounded ls := by
  have e := congrFun h ValueIdx.ix0
  dsimp only [Cert.Pre_finite_inputs.fn] at e
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun j => ⟨?_, ?_⟩, fun k => ?_⟩
  · exact finite_of_abs_lt_inf (x i) (Host.reduce_andi_all _ _ _ _ _ e1 i)
  · exact sge_read (tg j) 0#32 (Host.reduce_andi_all _ _ _ _ _ e2 j)
  · exact slt_read (tg j) 32000#32 (Host.reduce_andi_all _ _ _ _ _ e3 j)
  · exact sle_read (ls k) 512#32 (Host.reduce_andi_all _ _ _ _ _ e4 k)

/-- The same with the side conditions of the precondition's operations taken from their proved instance. -/
theorem of_pre_gen (x : FVec Ideal Cert.Pre_finite_inputs.S16x512x32000 .f32)
    (tg : IVec Cert.Pre_finite_inputs.S16x512 32) (ls : IVec Cert.Pre_finite_inputs.S16 32)
    (h : @Cert.Pre_finite_inputs.fn Cert.Pre_finite_inputs.Gen.facts Ideal _ x tg ls = (fun _ => 1#1)) :
    Cert.Spec.FiniteLogits x ∧ Cert.Spec.LabelsInRange tg ∧ Cert.Spec.LengthsBounded ls :=
  @of_pre Cert.Pre_finite_inputs.Gen.facts x tg ls h

end Cert.PreDecode

end
-- ==== Proof.lean ====
/-
  The certificate's claims assembled. The kernel computes, per sequence, the sum over its counted 32-row tiles of the tile's
  masked row losses (log-sum-exp about the row maximum less the label's logit, times whether the row lies before the
  sequence's length) and adds the sixteen sequences' sums; the reference computes the same masked sum over all rows at once.
  Both are shown equal to one specification (Proof/Spec.lean): the kernel's side structurally, given that no length exceeds
  512 (so that the tile count ⌈len / 32⌉ does not wrap and an uncounted tile has every row masked); the reference's side
  given that every logit is finite and every label is a class index (so that its gather reads the label's logit and
  −((x_t − M) − log Σ) = (log Σ + M) − x_t over the reals). The three frames: each kernel program by its pipeline's run
  (the logits only read, the labels and lengths written by no host line), the reference by its run.
-/
import proofs.«405453_j18021682774493_3_alg».proof.Defs
import proofs.«405453_j18021682774493_3_alg».proof.Proof.Gen.Kernel
import proofs.«405453_j18021682774493_3_alg».proof.Proof.Gen.KernelIdeal
import proofs.«405453_j18021682774493_3_alg».proof.Proof.Gen.ReferenceIdeal
import proofs.«405453_j18021682774493_3_alg».proof.Proof.Gen.Pre_finite_inputs
import proofs.«405453_j18021682774493_3_alg».proof.Proof.KB.Frame
import proofs.«405453_j18021682774493_3_alg».proof.Proof.KI.Frame
import proofs.«405453_j18021682774493_3_alg».proof.Proof.KI.Final
import proofs.«405453_j18021682774493_3_alg».proof.Proof.RefSide
import proofs.«405453_j18021682774493_3_alg».proof.Proof.PreDecode

noncomputable section

namespace Cert.Proof

open Idealize.ShloMosaic Idealize.SL.Sem

attribute [local instance] Cert.Pre_finite_inputs.Gen.facts Cert.Kernel.Gen.facts Cert.KernelIdeal.Gen.facts Cert.ReferenceIdeal.Gen.facts

theorem frame_k : Cert.frame_Kernel := fun m ρ _ => Cert.Kernel.Hand.frame m ρ
theorem frame_ki : Cert.frame_KernelIdeal := fun m ρ _ => Cert.KernelIdeal.Hand.frame m ρ

theorem frame_ri : Cert.frame_ReferenceIdeal := fun m ρ hpre =>
  (θ_run (Cert.ReferenceIdeal.defs (F := Ideal)) _ _).mono (fun _ h c => (h c).2)
    (Cert.RefSide.run_total m ρ (fun c => (Cert.PreDecode.of_pre_gen _ _ _ (hpre c)).1) (fun c => (Cert.PreDecode.of_pre_gen _ _ _ (hpre c)).2.1))

theorem algebraic : Cert.algebraic_KernelIdeal_ReferenceIdeal := by
  intro m ρ m' ρ' hpre hagree
  have hd := fun c => Cert.PreDecode.of_pre_gen _ _ _ (hpre c)
  refine ⟨_, Cert.KernelIdeal.Hand.value_run m ρ (fun c => (hd c).2.2), ?_⟩
  refine (θ_run (Cert.ReferenceIdeal.defs (F := Ideal)) _ _).mono (fun _ h c => ⟨(h c).1.trans ?_, (h c).2⟩)
    (Cert.RefSide.run_total m' ρ' (fun c => by rw [(hagree c).1]; exact (hd c).1) (fun c => by rw [(hagree c).2.1]; exact (hd c).2.1))
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
